-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1024x64 : Shape := ⟨2, ![1024, 64]⟩
abbrev S1000000 : Shape := ⟨1, ![1000000]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1000000 : S_.BroadcastsInDim S1000000 (![] : Fin 0 → Fin S1000000.rank)
  reducesTo_S1000000_S_d0 : S1000000.ReducesTo [0] S_

variable [Facts]

def fn_part5 {F : FTy → Type} [FloatOps F] (main_v82 : IVec S_ 1) (main_v84 : IVec S1000000 1) : IVec S_ 1 :=
  let main_c_33 : IVec S_ 1 := constantI S_ 1 1#1
  let main_v85 : IVec S_ 1 := (fun x v => Host.reduce IntOp.andi x v reducesTo_S1000000_S_d0 h_S_) main_v84 main_c_33
  let main_v86 : IVec S_ 1 := andi main_v82 main_v85
  main_v86

def fn_part4 {F : FTy → Type} [FloatOps F] (main_arg4 : IVec S1000000 32) (main_arg15 : FVec F S64 .f32) (main_arg16 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_c_30 : IVec S_ 32 := constantI S_ 32 0#32
  let main_v79 : IVec S1000000 32 := broadcastInDim S1000000 ![] bcast_S_S1000000 main_c_30
  let main_v80 : IVec S1000000 1 := cmpi .sge main_arg4 main_v79
  let main_c_31 : IVec S_ 1 := constantI S_ 1 1#1
  let main_v81 : IVec S_ 1 := (fun x v => Host.reduce IntOp.andi x v reducesTo_S1000000_S_d0 h_S_) main_v80 main_c_31
  let main_v82 : IVec S_ 1 := andi main_v78 main_v81
  let main_c_32 : IVec S_ 32 := constantI S_ 32 1024#32
  let main_v83 : IVec S1000000 32 := broadcastInDim S1000000 ![] bcast_S_S1000000 main_c_32
  let main_v84 : IVec S1000000 1 := cmpi .slt main_arg4 main_v83
  fn_part5 (F := F) main_v82 main_v84

def fn_part3 {F : FTy → Type} [FloatOps F] (main_arg4 : IVec S1000000 32) (main_arg12 : FVec F S64 .f32) (main_arg13 : FVec F S64 .f32) (main_arg14 : FVec F S64 .f32) (main_arg15 : FVec F S64 .f32) (main_arg16 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg4 main_arg15 main_arg16 main_v63 main_v67

def fn_part2 {F : FTy → Type} [FloatOps F] (main_arg4 : IVec S1000000 32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg4 main_arg12 main_arg13 main_arg14 main_arg15 main_arg16 main_v48 main_v49 main_v50

def fn_part1 {F : FTy → Type} [FloatOps F] (main_arg4 : IVec S1000000 32) (main_arg5 : FVec F S256x64 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg4 main_arg8 main_arg9 main_arg10 main_arg11 main_arg12 main_arg13 main_arg14 main_arg15 main_arg16 main_v33

def fn {F : FTy → Type} [FloatOps F] (main_arg0 : FVec F S1000000x64 .f32) (main_arg1 : FVec F S1000000x64 .f32) (main_arg2 : FVec F S1000000x64 .f32) (main_arg3 : FVec F S1024x64 .f32) (main_arg4 : IVec S1000000 32) (main_arg5 : FVec F S256x64 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000x64 .f32 := Host.absf main_arg2
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S1000000x64 : Shape := ⟨2, ![1000000, 64]⟩
abbrev S1024x64 : Shape := ⟨2, ![1024, 64]⟩
abbrev S1000000 : Shape := ⟨1, ![1000000]⟩
abbrev S256x64 : Shape := ⟨2, ![256, 64]⟩
abbrev S64 : Shape := ⟨1, ![64]⟩
abbrev S64x64 : Shape := ⟨2, ![64, 64]⟩
abbrev S1000000x1 : Shape := ⟨2, ![1000000, 1]⟩
abbrev S1x64 : Shape := ⟨2, ![1, 64]⟩
abbrev S2000x64 : Shape := ⟨2, ![2000, 64]⟩
abbrev S2000x1 : Shape := ⟨2, ![2000, 1]⟩
abbrev S1x1024 : Shape := ⟨2, ![1, 1024]⟩
abbrev S2000x1024 : Shape := ⟨2, ![2000, 1024]⟩
abbrev S_ : Shape := ⟨0, ![]⟩
abbrev S8000x64 : Shape := ⟨2, ![8000, 64]⟩

abbrev nBuf : Space → Nat
  | .hbm => 66
  | .vmem => 49
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000x64, .f32⟩
  | .hbm, ⟨3, _⟩ => ⟨S1024x64, .f32⟩
  | .hbm, ⟨4, _⟩ => ⟨S1000000, .i32⟩
  | .hbm, ⟨5, _⟩ => ⟨S256x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S1000000x1, .i32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S1024x64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1000000x64, .f32⟩
  | .hbm, ⟨33, _⟩ => ⟨S1x64, .f32⟩
  | .hbm, ⟨34, _⟩ => ⟨S1x64, .f32⟩
  | .hbm, ⟨35, _⟩ => ⟨S_, .f32⟩
  | .hbm, ⟨36, _⟩ => ⟨S1x64, .f32⟩
  | .hbm, ⟨37, _⟩ => ⟨S1x64, .f32⟩
  | .hbm, ⟨38, _⟩ => ⟨S_, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1000000x64, .f32⟩
  | .hbm, ⟨44, _⟩ => ⟨S1x64, .f32⟩
  | .hbm, ⟨45, _⟩ => ⟨S1x64, .f32⟩
  | .hbm, ⟨46, _⟩ => ⟨S_, .f32⟩
  | .hbm, ⟨47, _⟩ => ⟨S1x64, .f32⟩
  | .hbm, ⟨48, _⟩ => ⟨S1x64, .f32⟩
  | .hbm, ⟨49, _⟩ => ⟨S_, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1000000x64, .f32⟩
  | .hbm, ⟨55, _⟩ => ⟨S1x64, .f32⟩
  | .hbm, ⟨56, _⟩ => ⟨S1x64, .f32⟩
  | .hbm, ⟨57, _⟩ => ⟨S_, .f32⟩
  | .hbm, ⟨58, _⟩ => ⟨S1x64, .f32⟩
  | .hbm, ⟨59, _⟩ => ⟨S1x64, .f32⟩
  | .hbm, ⟨60, _⟩ => ⟨S_, .f32⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1000000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x1, .i32⟩
  | .local _ .vmem, ⟨7, _⟩ => ⟨S2000x1, .i32⟩
  | .local _ .vmem, ⟨8, _⟩ => ⟨S1024x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S2000x64, .f32⟩
  | .local _ .vmem, ⟨14, _⟩ => ⟨S2000x64, .f32⟩
  | .local _ .vmem, ⟨15, _⟩ => ⟨S1x64, .f32⟩
  | .local _ .vmem, ⟨16, _⟩ => ⟨S1x64, .f32⟩
  | .local _ .vmem, ⟨17, _⟩ => ⟨S8000x64, .f32⟩
  | .local _ .vmem, ⟨18, _⟩ => ⟨S8000x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S64x64, .f32⟩
  | .local _ .vmem, ⟨24, _⟩ => ⟨S1x64, .f32⟩
  | .local _ .vmem, ⟨25, _⟩ => ⟨S8000x64, .f32⟩
  | .local _ .vmem, ⟨26, _⟩ => ⟨S8000x64, .f32⟩
  | .local _ .vmem, ⟨27, _⟩ => ⟨S1x64, .f32⟩
  | .local _ .vmem, ⟨28, _⟩ => ⟨S1x64, .f32⟩
  | .local _ .vmem, ⟨29, _⟩ => ⟨S8000x64, .f32⟩
  | .local _ .vmem, ⟨30, _⟩ => ⟨S8000x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S64x64, .f32⟩
  | .local _ .vmem, ⟨36, _⟩ => ⟨S1x64, .f32⟩
  | .local _ .vmem, ⟨37, _⟩ => ⟨S8000x64, .f32⟩
  | .local _ .vmem, ⟨38, _⟩ => ⟨S8000x64, .f32⟩
  | .local _ .vmem, ⟨39, _⟩ => ⟨S1x64, .f32⟩
  | .local _ .vmem, ⟨40, _⟩ => ⟨S1x64, .f32⟩
  | .local _ .vmem, ⟨41, _⟩ => ⟨S8000x64, .f32⟩
  | .local _ .vmem, ⟨42, _⟩ => ⟨S8000x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S1x64, .f32⟩
  | .local _ .vmem, ⟨47, _⟩ => ⟨S8000x64, .f32⟩
  | .local _ .vmem, ⟨48, _⟩ => ⟨S8000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_v15_2 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22_0 : Ref sig .tc := ⟨.hbm, 43, rfl⟩
abbrev main_v22_1 : Ref sig .tc := ⟨.hbm, 44, rfl⟩
abbrev main_v22_2 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29_0 : Ref sig .tc := ⟨.hbm, 54, rfl⟩
abbrev main_v29_1 : Ref sig .tc := ⟨.hbm, 55, rfl⟩
abbrev main_v29_2 : Ref sig .tc := ⟨.hbm, 56, rfl⟩
abbrev main_cst_3 : Ref sig .tc := ⟨.hbm, 57, rfl⟩
abbrev main_v30 : Ref sig .tc := ⟨.hbm, 58, rfl⟩
abbrev main_v31 : Ref sig .tc := ⟨.hbm, 59, rfl⟩
abbrev main_cst_4 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg9_0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg7_1 : Ref sig .tc := ⟨.vmem, 38, rfl⟩
abbrev cc2_stg8_0 : Ref sig .tc := ⟨.vmem, 39, rfl⟩
abbrev cc2_stg9_0 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg5_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26
abbrev cc1_sem8_0 : DmaSem sig := 27
abbrev cc1_sem9_0 : DmaSem sig := 28
abbrev cc2_sem0_0 : DmaSem sig := 29
abbrev cc2_sem0_1 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem7_1 : DmaSem sig := 38
abbrev cc2_sem8_0 : DmaSem sig := 39
abbrev cc2_sem9_0 : DmaSem sig := 40
abbrev cc3_sem0_0 : DmaSem sig := 41
abbrev cc3_sem0_1 : DmaSem sig := 42
abbrev cc3_sem1_0 : DmaSem sig := 43
abbrev cc3_sem2_0 : DmaSem sig := 44
abbrev cc3_sem3_0 : DmaSem sig := 45
abbrev cc3_sem4_0 : DmaSem sig := 46
abbrev cc3_sem5_0 : DmaSem sig := 47
abbrev cc3_sem5_1 : DmaSem sig := 48

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S1000000_S1000000x1 : S1000000.ShapeCasts S1000000x1
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  shapeCasts_S64_S1x64 : S64.ShapeCasts S1x64
  inb_S1x64_S1x64_0_0 : ∀ a, (![0, 0] : Fin 2 → Nat) a + S1x64.size a ≤ S1x64.size a
  h_S1x64 : 0 < S1x64.numel
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x1024_d1_w32 : S1x1024.Iotas .tc 32 [1]
  broadcasts_S2000x1_S2000x1024 : S2000x1.Broadcasts S2000x1024
  broadcasts_S1x1024_S2000x1024 : S1x1024.Broadcasts S2000x1024
  natLt_1_32 : 1 < 32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S1x64_S1x64 : S1x64.ShapeCasts S1x64
  broadcasts_S1x64_S2000x64 : S1x64.Broadcasts S2000x64
  reduces_S2000x64_S64 : S2000x64.Reduces [0] S64
  bcast_S_S1x64 : S_.BroadcastsInDim S1x64 (![] : Fin 0 → Fin S1x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S1x64_S8000x64 : S1x64.Broadcasts S8000x64
  reduces_S8000x64_S64 : S8000x64.Reduces [0] S64
  dot_S1024x64_S64x64_S1024x64_1_0_0_1_n_n_wf : DotDims.WF S1024x64 S64x64 S1024x64 [1] [0] [0] [1] [] []
  dot_S2000x64_S64x64_S2000x64_1_0_0_1_n_n_wf : DotDims.WF S2000x64 S64x64 S2000x64 [1] [0] [0] [1] [] []
  dot_S2000x1024_S1024x64_S2000x64_1_0_0_1_n_n_wf : DotDims.WF S2000x1024 S1024x64 S2000x64 [1] [0] [0] [1] [] []
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S1000000x64.size a
  hwx0_0 : ∀ i : grid0.Coords, EltTy.bits .f32 = 32 ∨ (Rect.block (s := S1000000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S1000000x64.size a
  hwx0_1 : ∀ i : grid0.Coords, EltTy.bits .f32 = 32 ∨ (Rect.block (s := S1000000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S1000000x64.size a
  hwx0_2 : ∀ i : grid0.Coords, EltTy.bits .f32 = 32 ∨ (Rect.block (s := S1000000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S1000000x1.size a
  hwx0_3 : ∀ i : grid0.Coords, EltTy.bits .i32 = 32 ∨ (Rect.block (s := S1000000x1) S2000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .f32 = 32 ∨ (Rect.block (s := S1024x64) S1024x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S1000000x64.size a
  hwx0_9 : ∀ i : grid0.Coords, EltTy.bits .f32 = 32 ∨ (Rect.block (s := S1000000x64) S2000x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1000000x64.size a
  hwx1_0 : ∀ i : grid1.Coords, EltTy.bits .f32 = 32 ∨ (Rect.block (s := S1000000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x64.size a ≤ S1000000x64.size a
  hwx1_7 : ∀ i : grid1.Coords, EltTy.bits .f32 = 32 ∨ (Rect.block (s := S1000000x64) S8000x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1000000x64.size a
  hwx2_0 : ∀ i : grid2.Coords, EltTy.bits .f32 = 32 ∨ (Rect.block (s := S1000000x64) S8000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8000x64.size a ≤ S1000000x64.size a
  hwx2_7 : ∀ i : grid2.Coords, EltTy.bits .f32 = 32 ∨ (Rect.block (s := S1000000x64) S8000x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1000000x64.size a
  hwx3_0 : ∀ i : grid3.Coords, EltTy.bits .f32 = 32 ∨ (Rect.block (s := S1000000x64) S8000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x64.size a ≤ S1000000x64.size a
  hwx3_5 : ∀ i : grid3.Coords, EltTy.bits .f32 = 32 ∨ (Rect.block (s := S1000000x64) S8000x64.size (cc3_transform_5 i) (hinb3_5 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15_0) S2000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v15_1) S1x64.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15_2) S1x64.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v15_0) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22_0) S8000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v22_1) S1x64.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v22_2) S1x64.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v22_0) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29_0) S8000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v29_1) S1x64.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v29_2) S1x64.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v29_0) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v14) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v36) S8000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S1000000x64 : Shape := ⟨2, ![1000000, 64]⟩
abbrev S1024x64 : Shape := ⟨2, ![1024, 64]⟩
abbrev S1000000 : Shape := ⟨1, ![1000000]⟩
abbrev S256x64 : Shape := ⟨2, ![256, 64]⟩
abbrev S64 : Shape := ⟨1, ![64]⟩
abbrev S64x64 : Shape := ⟨2, ![64, 64]⟩
abbrev S_ : Shape := ⟨0, ![]⟩
abbrev S1000000x1 : Shape := ⟨2, ![1000000, 1]⟩
abbrev S1000000x256 : Shape := ⟨2, ![1000000, 256]⟩
abbrev S1x64 : Shape := ⟨2, ![1, 64]⟩

abbrev nBuf : Space → Nat
  | .hbm => 132
  | .vmem => 0
  | .smem => 0
  | _ => 0

abbrev hbmTy0_0 (i : Nat) : BufTy := match i % 128 with
  | 0 => ⟨S1000000x64, .f32⟩
  | 1 => ⟨S1000000x64, .f32⟩
  | 2 => ⟨S1000000x64, .f32⟩
  | 3 => ⟨S1024x64, .f32⟩
  | 4 => ⟨S1000000, .i32⟩
  | 5 => ⟨S256x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x64, .f32⟩
  | 26 => ⟨S1000000x256, .f32⟩
  | 27 => ⟨S1000000x64, .f32⟩
  | 28 => ⟨S1x64, .f32⟩
  | 29 => ⟨S1000000x64, .f32⟩
  | 30 => ⟨S1000000x64, .f32⟩
  | 31 => ⟨S_, .f32⟩
  | 32 => ⟨S1000000x64, .f32⟩
  | 33 => ⟨S1000000x64, .f32⟩
  | 34 => ⟨S_, .f32⟩
  | 35 => ⟨S64, .f32⟩
  | 36 => ⟨S_, .f32⟩
  | 37 => ⟨S64, .f32⟩
  | 38 => ⟨S64, .f32⟩
  | 39 => ⟨S1x64, .f32⟩
  | 40 => ⟨S1000000x64, .f32⟩
  | 41 => ⟨S1000000x64, .f32⟩
  | 42 => ⟨S1000000x64, .f32⟩
  | 43 => ⟨S_, .f32⟩
  | 44 => ⟨S64, .f32⟩
  | 45 => ⟨S_, .f32⟩
  | 46 => ⟨S64, .f32⟩
  | 47 => ⟨S64, .f32⟩
  | 48 => ⟨S1x64, .f32⟩
  | 49 => ⟨S1000000x64, .f32⟩
  | 50 => ⟨S1000000x64, .f32⟩
  | 51 => ⟨S_, .f32⟩
  | 52 => ⟨S64, .f32⟩
  | 53 => ⟨S64, .f32⟩
  | 54 => ⟨S64, .f32⟩
  | 55 => ⟨S64, .f32⟩
  | 56 => ⟨S1x64, .f32⟩
  | 57 => ⟨S1000000x64, .f32⟩
  | 58 => ⟨S1000000x64, .f32⟩
  | 59 => ⟨S1x64, .f32⟩
  | 60 => ⟨S1000000x64, .f32⟩
  | 61 => ⟨S1000000x64, .f32⟩
  | 62 => ⟨S1000000x64, .f32⟩
  | 63 => ⟨S1x64, .f32⟩
  | 64 => ⟨S1000000x64, .f32⟩
  | 65 => ⟨S1000000x64, .f32⟩
  | 66 => ⟨S_, .f32⟩
  | 67 => ⟨S1000000x64, .f32⟩
  | 68 => ⟨S1000000x64, .f32⟩
  | 69 => ⟨S_, .f32⟩
  | 70 => ⟨S64, .f32⟩
  | 71 => ⟨S_, .f32⟩
  | 72 => ⟨S64, .f32⟩
  | 73 => ⟨S64, .f32⟩
  | 74 => ⟨S1x64, .f32⟩
  | 75 => ⟨S1000000x64, .f32⟩
  | 76 => ⟨S1000000x64, .f32⟩
  | 77 => ⟨S1000000x64, .f32⟩
  | 78 => ⟨S_, .f32⟩
  | 79 => ⟨S64, .f32⟩
  | 80 => ⟨S_, .f32⟩
  | 81 => ⟨S64, .f32⟩
  | 82 => ⟨S64, .f32⟩
  | 83 => ⟨S1x64, .f32⟩
  | 84 => ⟨S1000000x64, .f32⟩
  | 85 => ⟨S1000000x64, .f32⟩
  | 86 => ⟨S_, .f32⟩
  | 87 => ⟨S64, .f32⟩
  | 88 => ⟨S64, .f32⟩
  | 89 => ⟨S64, .f32⟩
  | 90 => ⟨S64, .f32⟩
  | 91 => ⟨S1x64, .f32⟩
  | 92 => ⟨S1000000x64, .f32⟩
  | 93 => ⟨S1000000x64, .f32⟩
  | 94 => ⟨S1x64, .f32⟩
  | 95 => ⟨S1000000x64, .f32⟩
  | 96 => ⟨S1000000x64, .f32⟩
  | 97 => ⟨S1000000x64, .f32⟩
  | 98 => ⟨S1x64, .f32⟩
  | 99 => ⟨S1000000x64, .f32⟩
  | 100 => ⟨S1000000x64, .f32⟩
  | 101 => ⟨S_, .f32⟩
  | 102 => ⟨S1000000x64, .f32⟩
  | 103 => ⟨S1000000x64, .f32⟩
  | 104 => ⟨S_, .f32⟩
  | 105 => ⟨S64, .f32⟩
  | 106 => ⟨S_, .f32⟩
  | 107 => ⟨S64, .f32⟩
  | 108 => ⟨S64, .f32⟩
  | 109 => ⟨S1x64, .f32⟩
  | 110 => ⟨S1000000x64, .f32⟩
  | 111 => ⟨S1000000x64, .f32⟩
  | 112 => ⟨S1000000x64, .f32⟩
  | 113 => ⟨S_, .f32⟩
  | 114 => ⟨S64, .f32⟩
  | 115 => ⟨S_, .f32⟩
  | 116 => ⟨S64, .f32⟩
  | 117 => ⟨S64, .f32⟩
  | 118 => ⟨S1x64, .f32⟩
  | 119 => ⟨S1000000x64, .f32⟩
  | 120 => ⟨S1000000x64, .f32⟩
  | 121 => ⟨S_, .f32⟩
  | 122 => ⟨S64, .f32⟩
  | 123 => ⟨S64, .f32⟩
  | 124 => ⟨S64, .f32⟩
  | 125 => ⟨S64, .f32⟩
  | 126 => ⟨S1x64, .f32⟩
  | 127 => ⟨S1000000x64, .f32⟩
  | _ => ⟨S1000000x64, .f32⟩

abbrev hbmTy0_1 (i : Nat) : BufTy := match i % 128 with
  | 0 => ⟨S1000000x64, .f32⟩
  | 1 => ⟨S1x64, .f32⟩
  | 2 => ⟨S1000000x64, .f32⟩
  | 3 => ⟨S1000000x64, .f32⟩
  | _ => ⟨S1000000x64, .f32⟩

abbrev hbmTy (i : Nat) : BufTy := match i / 128 with
  | 0 => hbmTy0_0 i
  | 1 => hbmTy0_1 i
  | _ => ⟨S1000000x64, .f32⟩

abbrev bufTy : (tb : Table) → Fin (tcTables nBuf tb) → BufTy
  | .hbm, ⟨i, _⟩ => hbmTy i
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call0_cst : Ref sig .tc := ⟨.hbm, 31, rfl⟩
abbrev main_call0_v0 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_cst : Ref sig .tc := ⟨.hbm, 66, rfl⟩
abbrev main_call1_v0 : Ref sig .tc := ⟨.hbm, 67, rfl⟩
abbrev main_v40 : Ref sig .tc := ⟨.hbm, 68, rfl⟩
abbrev main_cst_5 : Ref sig .tc := ⟨.hbm, 69, rfl⟩
abbrev main_v41 : Ref sig .tc := ⟨.hbm, 70, rfl⟩
abbrev main_cst_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_7 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_call2_cst : Ref sig .tc := ⟨.hbm, 101, rfl⟩
abbrev main_call2_v0 : Ref sig .tc := ⟨.hbm, 102, rfl⟩
abbrev main_v68 : Ref sig .tc := ⟨.hbm, 103, rfl⟩
abbrev main_cst_10 : Ref sig .tc := ⟨.hbm, 104, rfl⟩
abbrev main_v69 : Ref sig .tc := ⟨.hbm, 105, rfl⟩
abbrev main_cst_11 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_12 : Ref sig .tc := ⟨.hbm, 113, rfl⟩
abbrev main_v76 : Ref sig .tc := ⟨.hbm, 114, rfl⟩
abbrev main_cst_13 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_14 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x64_S1000000x64_S1000000x256_d1 : Shape.Concatenates [S1000000x64, S1000000x64, S1000000x64, S1000000x64] S1000000x256 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  reducesTo_S1000000x64_S64_d0 : S1000000x64.ReducesTo [0] S64
  h_S_ : 0 < S_.numel
  bcast_S_S64 : S_.BroadcastsInDim S64 (![] : Fin 0 → Fin S64.rank)
  gather_S1024x64_S1000000x1_S1000000x64_1_0_n_n_0_1_164_wf : GatherDims.WF S1024x64 S1000000x1 S1000000x64 [1] [0] [] [0] [] 1 ![1, 64]
  dot_S1000000x256_S256x64_S1000000x64_1_0_0_1_n_n_wf : DotDims.WF S1000000x256 S256x64 S1000000x64 [1] [0] [0] [1] [] []
  dot_S1000000x64_S64x64_S1000000x64_1_0_0_1_n_n_wf : DotDims.WF S1000000x64 S64x64 S1000000x64 [1] [0] [0] [1] [] []

variable [Facts₀]

def gather_S1024x64_S1000000x1_S1000000x64_1_0_n_n_0_1_164 : GatherDims S1024x64 S1000000x1 S1000000x64 where
  offsetDims := [1]
  collapsedSliceDims := [0]
  operandBatchingDims := []
  startIndicesBatchingDims := []
  startIndexMap := [0]
  indexVectorDim := 1
  sliceSizes := ![1, 64]
  wf := gather_S1024x64_S1000000x1_S1000000x64_1_0_n_n_0_1_164_wf
def dot_S1000000x256_S256x64_S1000000x64_1_0_0_1_n_n : DotDims S1000000x256 S256x64 S1000000x64 where
  lhsContracting := [1]
  rhsContracting := [0]
  lhsNonContracting := [0]
  rhsNonContracting := [1]
  lhsBatch := []
  rhsBatch := []
  wf := dot_S1000000x256_S256x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf

class Facts : Prop extends Facts₀ where

variable [Facts]
-- ==== Proof.Spec.lean ====
/-
  The two programs as mathematics. An edge update of a graph network: each of the 1,000,000 edge rows is the concatenation
  of a source row, a destination row, an edge row and the row of a 1024-row table of per-graph attributes that the edge's
  graph id selects; three times a linear layer, a rectifier and a batch normalisation over the edge axis follow.

  One side (the kernel) splits the first 256-column product into four 64-column products, selects the table row by a
  product with a 0/1 indicator row against the table already multiplied by its part of the weights, takes the batch statistics
  as column sums and column sums of squares (variance = mean of squares minus squared mean) and normalises with
  g * (var + eps)^(-1/2); the other side (the reference) multiplies the concatenated row, takes the variance as the mean of
  squared deviations, and normalises with g / sqrt(var + eps). Both are written here over one record of argument arrays,
  entry by entry on the extended reals.
-/
import Idealize.ShloMosaic.PureOps.Ideal
import Idealize.ShloMosaic.Lib.ValueIdx

noncomputable section

namespace Cert.Spec

open Idealize.ShloMosaic Idealize.ShloMosaic.ValueIdx
open scoped BigOperators

/-- The number of edge rows. -/
abbrev nE : ℕ := 1000000

/-- The small constant added to a variance (the single-precision word nearest 1e-5). -/
abbrev eps : EReal := Ideal.ofBits .f32 0x3727C5AC#32

/-- The number of edge rows as the programs' divisor (the single-precision word of 1,000,000). -/
abbrev nRows : EReal := Ideal.ofBits .f32 0x49742400#32

/-- A rank-2 array read by row and column. -/
abbrev cur {α : Type} {n k : ℕ} (a : (⟨2, ![n, k]⟩ : Shape).Idx → α) : Fin n → Fin k → α := fun e f => a (ix2 e f)

/-- A rank-1 array read by its one coordinate. -/
abbrev vec1 {α : Type} {k : ℕ} (a : (⟨1, ![k]⟩ : Shape).Idx → α) : Fin k → α := fun f => a (ix1 f)

/-- The argument arrays. -/
structure Args where
  src : Fin nE → Fin 64 → EReal
  dest : Fin nE → Fin 64 → EReal
  edge : Fin nE → Fin 64 → EReal
  ga : Fin 1024 → Fin 64 → EReal
  batch : Fin nE → BitVec 32
  W1 : Fin 256 → Fin 64 → EReal
  b1 : Fin 64 → EReal
  W2 : Fin 64 → Fin 64 → EReal
  b2 : Fin 64 → EReal
  W3 : Fin 64 → Fin 64 → EReal
  b3 : Fin 64 → EReal
  g1 : Fin 64 → EReal
  be1 : Fin 64 → EReal
  g2 : Fin 64 → EReal
  be2 : Fin 64 → EReal
  g3 : Fin 64 → EReal
  be3 : Fin 64 → EReal

/-- The record of the argument arrays as the programs hold them. -/
def Args.ofArrays
    (src dest edge : (⟨2, ![1000000, 64]⟩ : Shape).Idx → EReal) (ga : (⟨2, ![1024, 64]⟩ : Shape).Idx → EReal)
    (batch : (⟨1, ![1000000]⟩ : Shape).Idx → BitVec 32) (W1 : (⟨2, ![256, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (W3 : (⟨2, ![64, 64]⟩ : Shape).Idx → EReal)
    (b3 g1 be1 g2 be2 g3 be3 : (⟨1, ![64]⟩ : Shape).Idx → EReal) : Args where
  src := cur src
  dest := cur dest
  edge := cur edge
  ga := cur ga
  batch := vec1 batch
  W1 := cur W1
  b1 := vec1 b1
  W2 := cur W2
  b2 := vec1 b2
  W3 := cur W3
  b3 := vec1 b3
  g1 := vec1 g1
  be1 := vec1 be1
  g2 := vec1 g2
  be2 := vec1 be2
  g3 := vec1 g3
  be3 := vec1 be3

/-- Every float entry is a real number. -/
structure Args.Finite (a : Args) : Prop where
  src : ∀ e f, ∃ r : ℝ, a.src e f = (r : EReal)
  dest : ∀ e f, ∃ r : ℝ, a.dest e f = (r : EReal)
  edge : ∀ e f, ∃ r : ℝ, a.edge e f = (r : EReal)
  ga : ∀ g f, ∃ r : ℝ, a.ga g f = (r : EReal)
  W1 : ∀ j f, ∃ r : ℝ, a.W1 j f = (r : EReal)
  b1 : ∀ f, ∃ r : ℝ, a.b1 f = (r : EReal)
  W2 : ∀ j f, ∃ r : ℝ, a.W2 j f = (r : EReal)
  b2 : ∀ f, ∃ r : ℝ, a.b2 f = (r : EReal)
  W3 : ∀ j f, ∃ r : ℝ, a.W3 j f = (r : EReal)
  b3 : ∀ f, ∃ r : ℝ, a.b3 f = (r : EReal)
  g1 : ∀ f, ∃ r : ℝ, a.g1 f = (r : EReal)
  be1 : ∀ f, ∃ r : ℝ, a.be1 f = (r : EReal)
  g2 : ∀ f, ∃ r : ℝ, a.g2 f = (r : EReal)
  be2 : ∀ f, ∃ r : ℝ, a.be2 f = (r : EReal)
  g3 : ∀ f, ∃ r : ℝ, a.g3 f = (r : EReal)
  be3 : ∀ f, ∃ r : ℝ, a.be3 f = (r : EReal)

/-- Every graph id is a row of the table of per-graph attributes. -/
def Args.InRange (a : Args) : Prop := ∀ e, 0 ≤ (a.batch e).toInt ∧ (a.batch e).toInt < 1024

/-! ## Rows -/

/-- One row against a weight matrix: entry `f` of the product. -/
def dotRow {K : ℕ} (x : Fin K → EReal) (w : Fin K → Fin 64 → EReal) (f : Fin 64) : EReal := ∑ k, x k * w k f

/-- The rectifier. -/
def relu (x : EReal) : EReal := max x 0

/-- Column sums of an array of rows. -/
def colSum {n : ℕ} (h : Fin n → Fin 64 → EReal) (f : Fin 64) : EReal := ∑ e, h e f

/-- Column sums of squares. -/
def colSumSq {n : ℕ} (h : Fin n → Fin 64 → EReal) (f : Fin 64) : EReal := ∑ e, h e f * h e f

/-! ## The kernel's side -/

/-- Whether graph id `b` is table row `g`, as 1 or 0. -/
def onehot (b : BitVec 32) (g : Fin 1024) : EReal := if b = BitVec.ofNat 32 g.val then 1 else 0

/-- Rows `64 q … 64 q + 63` of the first layer's 256-row weight matrix. -/
def wPart (W1 : Fin 256 → Fin 64 → EReal) (q : Fin 4) (k : Fin 64) (f : Fin 64) : EReal :=
  W1 ⟨64 * q.val + k.val, by omega⟩ f

/-- The table of per-graph attributes multiplied by the last quarter of the first layer's weights. -/
def table (ga : Fin 1024 → Fin 64 → EReal) (W1 : Fin 256 → Fin 64 → EReal) (g : Fin 1024) (f : Fin 64) : EReal :=
  dotRow (ga g) (wPart W1 3) f

/-- The first layer of one edge, the kernel's way: three 64-column products, the indicator row against the multiplied
    table, the bias, the rectifier. -/
def stage1Row (s d e : Fin 64 → EReal) (b : BitVec 32) (tab : Fin 1024 → Fin 64 → EReal)
    (ws wd we : Fin 64 → Fin 64 → EReal) (bias : Fin 64 → EReal) (f : Fin 64) : EReal :=
  relu ((((dotRow s ws f + dotRow d wd f) + dotRow e we f) + ∑ g : Fin 1024, onehot b g * tab g f) + bias f)

/-- A column mean from a column sum. -/
def meanK (s : Fin 64 → EReal) (f : Fin 64) : EReal := Ideal.div (s f) nRows

/-- A column variance from a column sum of squares and the mean. -/
def varK (sq mean : Fin 64 → EReal) (f : Fin 64) : EReal := Ideal.div (sq f) nRows - mean f * mean f

/-- One row normalised, the kernel's way. -/
def normRowK (x mean var g be : Fin 64 → EReal) (k : Fin 64) : EReal :=
  (x k - mean k) * (g k * Ideal.rsqrt (var k + eps)) + be k

/-- A later layer of one edge: normalise the row, multiply, add the bias, rectify. -/
def bnStageRowK (x mean var g be : Fin 64 → EReal) (w : Fin 64 → Fin 64 → EReal) (bias : Fin 64 → EReal)
    (f : Fin 64) : EReal :=
  relu (dotRow (normRowK x mean var g be) w f + bias f)

def kOut1 (a : Args) (e : Fin nE) (f : Fin 64) : EReal :=
  stage1Row (a.src e) (a.dest e) (a.edge e) (a.batch e) (table a.ga a.W1) (wPart a.W1 0) (wPart a.W1 1) (wPart a.W1 2) a.b1 f
def kMean1 (a : Args) : Fin 64 → EReal := meanK (colSum (kOut1 a))
def kVar1 (a : Args) : Fin 64 → EReal := varK (colSumSq (kOut1 a)) (kMean1 a)
def kOut2 (a : Args) (e : Fin nE) (f : Fin 64) : EReal :=
  bnStageRowK (kOut1 a e) (kMean1 a) (kVar1 a) a.g1 a.be1 a.W2 a.b2 f
def kMean2 (a : Args) : Fin 64 → EReal := meanK (colSum (kOut2 a))
def kVar2 (a : Args) : Fin 64 → EReal := varK (colSumSq (kOut2 a)) (kMean2 a)
def kOut3 (a : Args) (e : Fin nE) (f : Fin 64) : EReal :=
  bnStageRowK (kOut2 a e) (kMean2 a) (kVar2 a) a.g2 a.be2 a.W3 a.b3 f
def kMean3 (a : Args) : Fin 64 → EReal := meanK (colSum (kOut3 a))
def kVar3 (a : Args) : Fin 64 → EReal := varK (colSumSq (kOut3 a)) (kMean3 a)
/-- The kernel's result. -/
def kFinal (a : Args) (e : Fin nE) (f : Fin 64) : EReal :=
  normRowK (kOut3 a e) (kMean3 a) (kVar3 a) a.g3 a.be3 f

/-! ## The reference's side -/

/-- The table row a graph id selects: a negative id counted from the end, then clamped into the table. -/
def gatherRow (b : BitVec 32) : Fin 1024 :=
  ⟨min (if b.toInt < 0 then b + 1024#32 else b).toInt.toNat 1023, by omega⟩

/-- The concatenated row of one edge. -/
def comb (a : Args) (e : Fin nE) (j : Fin 256) : EReal :=
  if h0 : j.val < 64 then a.src e ⟨j.val, h0⟩
  else if h1 : j.val < 128 then a.dest e ⟨j.val - 64, by omega⟩
  else if h2 : j.val < 192 then a.edge e ⟨j.val - 128, by omega⟩
  else a.ga (gatherRow (a.batch e)) ⟨j.val - 192, by omega⟩

/-- A column mean. -/
def meanR {n : ℕ} (h : Fin n → Fin 64 → EReal) (f : Fin 64) : EReal := Ideal.div (∑ e, h e f) nRows

/-- A column variance: the mean of squared deviations. -/
def varR {n : ℕ} (h : Fin n → Fin 64 → EReal) (mean : Fin 64 → EReal) (f : Fin 64) : EReal :=
  Ideal.div (∑ e, (h e f - mean f) * (h e f - mean f)) nRows

/-- One row normalised, the reference's way. -/
def normRowR (x mean var g be : Fin 64 → EReal) (k : Fin 64) : EReal :=
  (x k - mean k) * Ideal.div (g k) (Ideal.sqrt (var k + eps)) + be k

/-- Batch normalisation of an array of rows over its row axis, the reference's way. -/
def bnR {n : ℕ} (h : Fin n → Fin 64 → EReal) (g be : Fin 64 → EReal) (e : Fin n) (k : Fin 64) : EReal :=
  normRowR (h e) (meanR h) (varR h (meanR h)) g be k

/-- A linear layer and the rectifier on one row. -/
def denseRow {K : ℕ} (x : Fin K → EReal) (w : Fin K → Fin 64 → EReal) (bias : Fin 64 → EReal) (f : Fin 64) : EReal :=
  relu (dotRow x w f + bias f)

def rOut1 (a : Args) (e : Fin nE) (f : Fin 64) : EReal := denseRow (comb a e) a.W1 a.b1 f
def rOut2 (a : Args) (e : Fin nE) (f : Fin 64) : EReal := denseRow (bnR (rOut1 a) a.g1 a.be1 e) a.W2 a.b2 f
def rOut3 (a : Args) (e : Fin nE) (f : Fin 64) : EReal := denseRow (bnR (rOut2 a) a.g2 a.be2 e) a.W3 a.b3 f
/-- The reference's result. -/
def rFinal (a : Args) (e : Fin nE) (f : Fin 64) : EReal := bnR (rOut3 a) a.g3 a.be3 e f

end Cert.Spec

end
-- ==== Proof.KReg0Pay.lean ====
/-
  The arithmetic of the first region's body, entry by entry on the extended reals. One grid point holds a block of 2000
  source, destination and edge rows, the block's 2000 graph ids as a column, the multiplied table, three 64x64 weight
  blocks and the bias row. Its first-layer block at (p, f) is the rectifier of: row p of each of the three row blocks
  against its weight block's column f, added left to right, plus the sum over the table's 1024 rows g of the 0/1 indicator
  "row p's graph id is g" times the table's entry (g, f), plus the bias at f. Each accumulator's new row at f is its old
  row at f plus the sum over the block's 2000 rows of that first layer at (p, f), or of its square. A product of matrices
  read at an entry is the sum over the contracted coordinate; a change of float format is the identity; the zero word is 0.
-/
import proofs.«419507_j7499012898893_1_alg».proof.Proof.Gen.KernelIdeal.Skeleton
import proofs.«419507_j7499012898893_1_alg».proof.Proof.Spec
import Idealize.ShloMosaic.Lib.Pipeline.Value
import Idealize.ShloMosaic.PureOps.Ideal.Laws

set_option maxRecDepth 16384

noncomputable section

namespace Cert.KernelIdeal.Val.R0

open Cert.KernelIdeal Cert.KernelIdeal.Gen Cert.Spec
open Idealize.ShloMosaic Idealize.ShloMosaic.ValueIdx Idealize.SL.Sem
open scoped BigOperators

/-! ## The two products' operand indices, axis by axis -/

theorem lhs64_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
theorem lhs64_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs64_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs64_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- A 2000-row block against a 64x64 weight block, into the zero block: entry (p, f) is the row's product with column f. -/
theorem matmul64_apply (A : FVec Ideal S2000x64 .bf16) (B : FVec Ideal S64x64 .bf16) (p : Fin 2000) (f : Fin 64) :
    matmul dot_S2000x64_S64x64_S2000x64_1_0_0_1_n_n none A B (constant (F := Ideal) S2000x64 .f32 0x00000000#32) (ix2 p f)
      = ∑ k : Fin 64, A (ix2 p k) * B (ix2 k f) := by
  show FloatOps.matmul _ none A B (constant (F := Ideal) S2000x64 .f32 0x00000000#32) (ix2 p f) = _
  rw [Ideal.matmul_constant_zero_apply,
    ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p f)
      ((contrEquiv1 dot_S2000x64_S64x64_S2000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S2000x64_S64x64_S2000x64_1_0_0_1_n_n.rhsIdx (ix2 p f)
      ((contrEquiv1 dot_S2000x64_S64x64_S2000x64_1_0_0_1_n_n 64 rfl rfl).symm k) = ix2 k f := funext fun a => Fin.ext (by
    match a with
    | ⟨0, _⟩ => exact (rhs64_0 _ _).trans hk
    | ⟨1, _⟩ => exact rhs64_1 _ _)
  rw [el, er]

theorem lhs1024_0 (i : S2000x64.Idx) (q : dot_S2000x1024_S1024x64_S2000x64_1_0_0_1_n_n.contr.Idx) :
    (dot_S2000x1024_S1024x64_S2000x64_1_0_0_1_n_n.lhsIdx i q 0).val = (i 0).val := by
  unfold DotDims.lhsIdx
  rw [dif_neg (show ¬(0 : Fin S2000x1024.rank) ∈ dot_S2000x1024_S1024x64_S2000x64_1_0_0_1_n_n.lhsBatch by decide),
    dif_pos (show (0 : Fin S2000x1024.rank) ∈ dot_S2000x1024_S1024x64_S2000x64_1_0_0_1_n_n.lhsNonContracting by decide)]
  rfl
theorem lhs1024_1 (i : S2000x64.Idx) (q : dot_S2000x1024_S1024x64_S2000x64_1_0_0_1_n_n.contr.Idx) :
    (dot_S2000x1024_S1024x64_S2000x64_1_0_0_1_n_n.lhsIdx i q 1).val = (q ⟨0, by decide⟩).val :=
  dot_S2000x1024_S1024x64_S2000x64_1_0_0_1_n_n.lhsIdx_val_of_single rfl i q
theorem rhs1024_0 (i : S2000x64.Idx) (q : dot_S2000x1024_S1024x64_S2000x64_1_0_0_1_n_n.contr.Idx) :
    (dot_S2000x1024_S1024x64_S2000x64_1_0_0_1_n_n.rhsIdx i q 0).val = (q ⟨0, by decide⟩).val :=
  dot_S2000x1024_S1024x64_S2000x64_1_0_0_1_n_n.rhsIdx_val_of_single rfl i q
theorem rhs1024_1 (i : S2000x64.Idx) (q : dot_S2000x1024_S1024x64_S2000x64_1_0_0_1_n_n.contr.Idx) :
    (dot_S2000x1024_S1024x64_S2000x64_1_0_0_1_n_n.rhsIdx i q 1).val = (i 1).val := by
  unfold DotDims.rhsIdx
  rw [dif_neg (show ¬(1 : Fin S1024x64.rank) ∈ dot_S2000x1024_S1024x64_S2000x64_1_0_0_1_n_n.rhsBatch by decide),
    dif_pos (show (1 : Fin S1024x64.rank) ∈ dot_S2000x1024_S1024x64_S2000x64_1_0_0_1_n_n.rhsNonContracting by decide)]
  rfl

/-- A 2000x1024 block against the 1024-row table, into the zero block. -/
theorem matmul1024_apply (A : FVec Ideal S2000x1024 .bf16) (B : FVec Ideal S1024x64 .bf16) (p : Fin 2000) (f : Fin 64) :
    matmul dot_S2000x1024_S1024x64_S2000x64_1_0_0_1_n_n none A B (constant (F := Ideal) S2000x64 .f32 0x00000000#32) (ix2 p f)
      = ∑ g : Fin 1024, A (ix2 p g) * B (ix2 g f) := by
  show FloatOps.matmul _ none A B (constant (F := Ideal) S2000x64 .f32 0x00000000#32) (ix2 p f) = _
  rw [Ideal.matmul_constant_zero_apply,
    ← Equiv.sum_comp (contrEquiv1 dot_S2000x1024_S1024x64_S2000x64_1_0_0_1_n_n 1024 rfl rfl).symm]
  refine Finset.sum_congr rfl fun k _ => ?_
  have hk := contrEquiv1_symm_val dot_S2000x1024_S1024x64_S2000x64_1_0_0_1_n_n 1024 rfl rfl k
  have el : dot_S2000x1024_S1024x64_S2000x64_1_0_0_1_n_n.lhsIdx (ix2 p f)
      ((contrEquiv1 dot_S2000x1024_S1024x64_S2000x64_1_0_0_1_n_n 1024 rfl rfl).symm k) = ix2 p k := funext fun a => Fin.ext (by
    match a with
    | ⟨0, _⟩ => exact lhs1024_0 _ _
    | ⟨1, _⟩ => exact (lhs1024_1 _ _).trans hk)
  have er : dot_S2000x1024_S1024x64_S2000x64_1_0_0_1_n_n.rhsIdx (ix2 p f)
      ((contrEquiv1 dot_S2000x1024_S1024x64_S2000x64_1_0_0_1_n_n 1024 rfl rfl).symm k) = ix2 k f := funext fun a => Fin.ext (by
    match a with
    | ⟨0, _⟩ => exact (rhs1024_0 _ _).trans hk
    | ⟨1, _⟩ => exact rhs1024_1 _ _)
  rw [el, er]

/-! ## The body's arithmetic at an index -/

/-- The three 64-column products of a block of source, destination and edge rows, added. -/
theorem pay6_apply (x0 x1 x2 : Vec Ideal S2000x64 .f32) (w0 w1 w2 : Vec Ideal S64x64 .f32) (p : Fin 2000) (f : Fin 64) :
    k0_pay6 (F := Ideal) x0 x1 x2 w0 w1 w2 (ix2 p f)
      = (dotRow (cur x0 p) (cur w0) f + dotRow (cur x1 p) (cur w1) f) + dotRow (cur x2 p) (cur w2) f := by
  unfold k0_pay6
  refine congrArg₂ (· + ·) (congrArg₂ (· + ·) ?_ ?_) ?_
  · refine (matmul64_apply _ _ p f).trans ?_
    refine Finset.sum_congr rfl fun k _ => congrArg (x0 (ix2 p k) * ·) ?_
    exact congrFun (shapeCast_self w0 _) (ix2 k f)
  · refine (matmul64_apply _ _ p f).trans ?_
    refine Finset.sum_congr rfl fun k _ => congrArg (x1 (ix2 p k) * ·) ?_
    exact congrFun (shapeCast_self w1 _) (ix2 k f)
  · refine (matmul64_apply _ _ p f).trans ?_
    refine Finset.sum_congr rfl fun k _ => congrArg (x2 (ix2 p k) * ·) ?_
    exact congrFun (shapeCast_self w2 _) (ix2 k f)

/-- The word a 0/1 bit converts to, as an extended real. -/
theorem bit_toReal (b c : BitVec 32) :
    (Scalar.sitofp (F := Ideal) .f32 ((IntOp.cmpi .eq b c).setWidth 32) : EReal) = if b = c then 1 else 0 := by
  rw [Ideal.scalar_sitofp_def]
  by_cases h : b = c
  · subst h
    have e : (IntOp.cmpi .eq b b).setWidth 32 = 1#32 := by simp [IntOp.cmpi]
    rw [e, if_pos rfl]; norm_num
  · have hb : (b == c) = false := beq_eq_false_iff_ne.mpr h
    have e : (IntOp.cmpi .eq b c).setWidth 32 = 0#32 := by simp [IntOp.cmpi, hb]
    rw [e, if_neg h]; norm_num

/-- The indicator block at (p, g): whether row p's graph id is g. -/
theorem ind_apply (ids : IVec S2000x1 32) (h1 : S2000x1.ShapeCasts S2000x1) (h2 : S1x1024.Iotas .tc 32 [1])
    (h3 : S2000x1.Broadcasts S2000x1024) (h4 : S1x1024.Broadcasts S2000x1024) (h5 : 1 < 32)
    (h6 : FTy.bits .bf16 < FTy.bits .f32) (p : Fin 2000) (g : Fin 1024) :
    (truncf .bf16 (sitofp (F := Ideal) .f32 (extui 32 (cmpi .eq (broadcastTo S2000x1024 (shapeCast S2000x1 ids h1) h3)
      (broadcastTo S2000x1024 (iota .tc S1x1024 32 [1] h2) h4)) h5)) h6 : FVec Ideal S2000x1024 .bf16) (ix2 p g)
      = onehot (ids (ix2 p 0)) g := by
  have e1 : broadcastTo S2000x1024 (shapeCast S2000x1 ids h1) h3 (ix2 p g) = ids (ix2 p 0) := by
    refine (broadcastTo_apply _ h3 (ix2 p g) (ix2 p 0) ?_).trans (congrFun (shapeCast_self ids h1) _)
    intro a; match a with | ⟨0, _⟩ => rfl | ⟨1, _⟩ => rfl
  have e2 : broadcastTo S2000x1024 (iota .tc S1x1024 32 [1] h2) h4 (ix2 p g) = BitVec.ofNat 32 g.val := by
    refine (broadcastTo_apply _ h4 (ix2 p g) (ix2 0 g) ?_).trans (iota_single_apply .tc S1x1024 32 1 h2 (ix2 0 g))
    intro a; match a with | ⟨0, _⟩ => rfl | ⟨1, _⟩ => rfl
  show (Scalar.sitofp (F := Ideal) .f32 ((IntOp.cmpi .eq (broadcastTo S2000x1024 (shapeCast S2000x1 ids h1) h3 (ix2 p g))
      (broadcastTo S2000x1024 (iota .tc S1x1024 32 [1] h2) h4 (ix2 p g))).setWidth 32) : EReal) = _
  rw [e1, e2, bit_toReal]
  rfl

/-- The indicator block against the table: at (p, f), the sum over table rows g of the indicator times the table's entry. -/
theorem pay7_apply (ids : Vec Ideal S2000x1 .i32) (tab : Vec Ideal S1024x64 .f32) (p : Fin 2000) (f : Fin 64) :
    k0_pay7 (F := Ideal) ids tab (ix2 p f) = ∑ g : Fin 1024, onehot (ids (ix2 p 0)) g * cur tab g f := by
  unfold k0_pay7
  refine (matmul1024_apply _ _ p f).trans ?_
  refine Finset.sum_congr rfl fun g _ => congrArg₂ (· * ·) ?_ ?_
  · exact ind_apply ids _ _ _ _ _ _ p g
  · exact congrFun (shapeCast_self tab _) (ix2 g f)

/-- The first layer's entry: the two sums, the bias, the rectifier. -/
theorem pay1_apply (v22 v35 : FVec Ideal S2000x64 .f32) (v37 : Vec Ideal S1x64 .f32) (p : Fin 2000) (f : Fin 64) :
    k0_pay1 (F := Ideal) v22 v35 v37 (ix2 p f) = relu ((v22 (ix2 p f) + v35 (ix2 p f)) + v37 (ix2 0 f)) := by
  unfold k0_pay1
  have hb : ∀ (h1 : S1x64.ShapeCasts S1x64) (h2 : S1x64.Broadcasts S2000x64),
      broadcastTo S2000x64 (shapeCast S1x64 v37 h1) h2 (ix2 p f) = v37 (ix2 0 f) := fun h1 h2 => by
    refine (broadcastTo_apply _ h2 (ix2 p f) (ix2 0 f) ?_).trans (congrFun (shapeCast_self v37 h1) _)
    intro a; match a with | ⟨0, _⟩ => rfl | ⟨1, _⟩ => rfl
  show max ((v22 (ix2 p f) + v35 (ix2 p f)) + broadcastTo S2000x64 (shapeCast S1x64 v37 _) _ (ix2 p f))
    (Ideal.ofBits .f32 0x00000000#32) = _
  rw [hb, Ideal.ofBits_zero_f32]
  rfl

/-- A column sum over the block's 2000 rows. -/
theorem colsum_apply (src : FVec Ideal S2000x64 .f32) (h : S2000x64.Reduces [0] S64) (hφ : FKind.Formats .f32)
    (hacc : (0x00000000#32 : BitVec 32) = FKind.add.neutral .f32 hφ) (h' : S64.ShapeCasts S1x64) (f : Fin 64) :
    shapeCast S1x64 (multiReduction .add [0] S64 src 0x00000000#32 h hφ hacc) h' (ix2 0 f) = ∑ p : Fin 2000, src (ix2 p f) := by
  refine (shapeCast_apply _ h' (ix2 0 f) (ix1 f) ?_).trans ?_
  · rw [Shape.rowMajor_val_one, Shape.rowMajor_val_two]; show f.val = 0 * 64 + f.val; omega
  refine (Ideal.multiReduction_add_single src 0x00000000#32 h hφ hacc (ix1 f)).trans ?_
  refine Finset.sum_congr rfl fun p _ => congrArg src ?_
  funext a; apply Fin.ext
  match a with
  | ⟨0, _⟩ => rfl
  | ⟨1, _⟩ => rfl

/-- The first accumulator's step: what it held plus the block's column sums of the first layer. -/
theorem pay2_apply (v22 v35 : FVec Ideal S2000x64 .f32) (v37 v44 : Vec Ideal S1x64 .f32) (f : Fin 64) :
    k0_pay2 (F := Ideal) v22 v35 v37 v44 (ix2 0 f)
      = v44 (ix2 0 f) + ∑ p : Fin 2000, k0_pay1 (F := Ideal) v22 v35 v37 (ix2 p f) := by
  unfold k0_pay2
  exact congrArg₂ (· + ·) (congrFun (shapeCast_self v44 _) _) (colsum_apply _ _ _ _ _ f)

/-- The second accumulator's step: what it held plus the block's column sums of squares. -/
theorem pay3_apply (v22 v35 : FVec Ideal S2000x64 .f32) (v37 v50 : Vec Ideal S1x64 .f32) (f : Fin 64) :
    k0_pay3 (F := Ideal) v22 v35 v37 v50 (ix2 0 f)
      = v50 (ix2 0 f) + ∑ p : Fin 2000, k0_pay1 (F := Ideal) v22 v35 v37 (ix2 p f) * k0_pay1 (F := Ideal) v22 v35 v37 (ix2 p f) := by
  unfold k0_pay3
  exact congrArg₂ (· + ·) (congrFun (shapeCast_self v50 _) _) (colsum_apply _ _ _ _ _ f)

/-- The rows point 0 clears the accumulators to. -/
theorem pay4_apply (i : S1x64.Idx) : k0_pay4 (F := Ideal) i = 0 := Ideal.ofBits_zero_f32
theorem pay5_apply (i : S1x64.Idx) : k0_pay5 (F := Ideal) i = 0 := Ideal.ofBits_zero_f32

end Cert.KernelIdeal.Val.R0

end
-- ==== Proof.KReg0Pieces.lean ====
/-
  What one run of the first region's body leaves in its three output buffers, for any float values. At point 0 the body
  first stores a zero row into each accumulator and reads it back; at every other point the accumulators hold what the
  point before left. In both cases the row buffer ends at the first-layer block of the point's input blocks, and each
  accumulator at its step (old row plus the block's column sums, of the values or of their squares): each buffer's last
  store covers it whole, so the buffer holds that store's value, and every load reads a whole buffer.
-/
import proofs.«419507_j7499012898893_1_alg».proof.Proof.Gen.KernelIdeal.Frame
import Idealize.ShloMosaic.Lib.Pipeline.Value
import Idealize.ShloMosaic.Lib.Tactic

set_option maxRecDepth 16384

noncomputable section

namespace Cert.KernelIdeal.Val.R0

open Cert.KernelIdeal Cert.KernelIdeal.Gen
open Idealize.ShloMosaic Idealize.ShloMosaic.TcCoe Idealize.SL.Sem
open Idealize.ShloMosaic.Pipeline (Dat)

variable {F : FTy → Type} [FloatOps F]

/-- The zero offsets of a whole-buffer access. -/
theorem hz : (![0, 0] : Fin 2 → Nat) = fun _ => 0 := funext fun a => by fin_cases a <;> rfl

/-! ## What each case of the body leaves in the three output buffers -/

/-- Point 0 leaves the block's first-layer rows in the row buffer. -/
theorem outA9 (c : Dev nD) (i : grid0.Coords) (a1 : Memref sig .tc .vmem S2000x64 .f32) (h1 : a1.IsWhole) (a2 : Memref sig .tc .vmem S2000x64 .f32) (h2 : a2.IsWhole) (a3 : Memref sig .tc .vmem S2000x64 .f32) (h3 : a3.IsWhole) (a4 : Memref sig .tc .vmem S2000x1 .i32) (h4 : a4.IsWhole) (a5 : Memref sig .tc .vmem S1024x64 .f32) (h5 : a5.IsWhole) (a6 : Memref sig .tc .vmem S64x64 .f32) (h6 : a6.IsWhole) (a7 : Memref sig .tc .vmem S64x64 .f32) (h7 : a7.IsWhole) (a8 : Memref sig .tc .vmem S64x64 .f32) (h8 : a8.IsWhole) (a9 : Memref sig .tc .vmem S1x64 .f32) (h9 : a9.IsWhole) (a10 : Memref sig .tc .vmem S2000x64 .f32) (h10 : a10.IsWhole) (a11 : Memref sig .tc .vmem S1x64 .f32) (h11 : a11.IsWhole) (a12 : Memref sig .tc .vmem S1x64 .f32) (h12 : a12.IsWhole) (hc : cond0_0 i) (x0 x1 x2 : Vec F S2000x64 .f32) (x3 : Vec F S2000x1 .i32) (x4 : Vec F S1024x64 .f32) (x5 x6 x7 : Vec F S64x64 .f32) (x8 : Vec F S1x64 .f32) :
    out0_A_9 c i a1 h1 a2 h2 a3 h3 a4 h4 a5 h5 a6 h6 a7 h7 a8 h8 a9 h9 a10 h10 a11 h11 a12 h12 hc x0 x1 x2 x3 x4 x5 x6 x7 x8 = k0_pay1 (k0_pay6 x0 x1 x2 x5 x6 x7) (k0_pay7 x3 x4) x8 := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4 x5 x6 x7 x8)]
  unfold kernelRun0_A
  dsimp only
  sl_unfold_words
  rw [View.canon_unit_zero (S := S2000x64) hz]
  simp only [View.readAt_eq_ld, h1.read_unread, h2.read_unread, h3.read_unread, h4.read_unread, h5.read_unread, h6.read_unread, h7.read_unread, h8.read_unread, h9.read_unread, View.ld_unit_zero (S := S2000x64) hz, View.ld_unit_zero (S := S2000x1) hz, View.ld_unit_zero (S := S1024x64) hz, View.ld_unit_zero (S := S64x64) hz, View.ld_unit_zero (S := S1x64) hz]

/-- Point 0 leaves, in the first accumulator, the cleared row plus the block's column sums. -/
theorem outA10 (c : Dev nD) (i : grid0.Coords) (a1 : Memref sig .tc .vmem S2000x64 .f32) (h1 : a1.IsWhole) (a2 : Memref sig .tc .vmem S2000x64 .f32) (h2 : a2.IsWhole) (a3 : Memref sig .tc .vmem S2000x64 .f32) (h3 : a3.IsWhole) (a4 : Memref sig .tc .vmem S2000x1 .i32) (h4 : a4.IsWhole) (a5 : Memref sig .tc .vmem S1024x64 .f32) (h5 : a5.IsWhole) (a6 : Memref sig .tc .vmem S64x64 .f32) (h6 : a6.IsWhole) (a7 : Memref sig .tc .vmem S64x64 .f32) (h7 : a7.IsWhole) (a8 : Memref sig .tc .vmem S64x64 .f32) (h8 : a8.IsWhole) (a9 : Memref sig .tc .vmem S1x64 .f32) (h9 : a9.IsWhole) (a10 : Memref sig .tc .vmem S2000x64 .f32) (h10 : a10.IsWhole) (a11 : Memref sig .tc .vmem S1x64 .f32) (h11 : a11.IsWhole) (a12 : Memref sig .tc .vmem S1x64 .f32) (h12 : a12.IsWhole) (hc : cond0_0 i) (x0 x1 x2 : Vec F S2000x64 .f32) (x3 : Vec F S2000x1 .i32) (x4 : Vec F S1024x64 .f32) (x5 x6 x7 : Vec F S64x64 .f32) (x8 : Vec F S1x64 .f32) :
    out0_A_10 c i a1 h1 a2 h2 a3 h3 a4 h4 a5 h5 a6 h6 a7 h7 a8 h8 a9 h9 a10 h10 a11 h11 a12 h12 hc x0 x1 x2 x3 x4 x5 x6 x7 x8 = k0_pay2 (k0_pay6 x0 x1 x2 x5 x6 x7) (k0_pay7 x3 x4) x8 (k0_pay4 (F := F)) := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5 x6 x7 x8)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, h8.read_unread, h9.read_unread, View.ld_unit_zero (S := S2000x64) hz, View.ld_unit_zero (S := S2000x1) hz, View.ld_unit_zero (S := S1024x64) hz, View.ld_unit_zero (S := S64x64) hz, View.ld_unit_zero (S := S1x64) hz]

/-- Point 0 leaves, in the second accumulator, the cleared row plus the block's column sums of squares. -/
theorem outA11 (c : Dev nD) (i : grid0.Coords) (a1 : Memref sig .tc .vmem S2000x64 .f32) (h1 : a1.IsWhole) (a2 : Memref sig .tc .vmem S2000x64 .f32) (h2 : a2.IsWhole) (a3 : Memref sig .tc .vmem S2000x64 .f32) (h3 : a3.IsWhole) (a4 : Memref sig .tc .vmem S2000x1 .i32) (h4 : a4.IsWhole) (a5 : Memref sig .tc .vmem S1024x64 .f32) (h5 : a5.IsWhole) (a6 : Memref sig .tc .vmem S64x64 .f32) (h6 : a6.IsWhole) (a7 : Memref sig .tc .vmem S64x64 .f32) (h7 : a7.IsWhole) (a8 : Memref sig .tc .vmem S64x64 .f32) (h8 : a8.IsWhole) (a9 : Memref sig .tc .vmem S1x64 .f32) (h9 : a9.IsWhole) (a10 : Memref sig .tc .vmem S2000x64 .f32) (h10 : a10.IsWhole) (a11 : Memref sig .tc .vmem S1x64 .f32) (h11 : a11.IsWhole) (a12 : Memref sig .tc .vmem S1x64 .f32) (h12 : a12.IsWhole) (hc : cond0_0 i) (x0 x1 x2 : Vec F S2000x64 .f32) (x3 : Vec F S2000x1 .i32) (x4 : Vec F S1024x64 .f32) (x5 x6 x7 : Vec F S64x64 .f32) (x8 : Vec F S1x64 .f32) :
    out0_A_11 c i a1 h1 a2 h2 a3 h3 a4 h4 a5 h5 a6 h6 a7 h7 a8 h8 a9 h9 a10 h10 a11 h11 a12 h12 hc x0 x1 x2 x3 x4 x5 x6 x7 x8 = k0_pay3 (k0_pay6 x0 x1 x2 x5 x6 x7) (k0_pay7 x3 x4) x8 (k0_pay5 (F := F)) := by
  unfold out0_A_11
  rw [View.read_writes_eq_canon _ _ _ (cover0_A_11 c i a1 h1 a2 h2 a3 h3 a4 h4 a5 h5 a6 h6 a7 h7 a8 h8 a9 h9 a10 h10 a11 h11 a12 h12 hc x0 x1 x2 x3 x4 x5 x6 x7 x8)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, h8.read_unread, h9.read_unread, View.ld_unit_zero (S := S2000x64) hz, View.ld_unit_zero (S := S2000x1) hz, View.ld_unit_zero (S := S1024x64) hz, View.ld_unit_zero (S := S64x64) hz, View.ld_unit_zero (S := S1x64) hz]

/-- A later point leaves the block's first-layer rows in the row buffer. -/
theorem outB9 (c : Dev nD) (i : grid0.Coords) (a1 : Memref sig .tc .vmem S2000x64 .f32) (h1 : a1.IsWhole) (a2 : Memref sig .tc .vmem S2000x64 .f32) (h2 : a2.IsWhole) (a3 : Memref sig .tc .vmem S2000x64 .f32) (h3 : a3.IsWhole) (a4 : Memref sig .tc .vmem S2000x1 .i32) (h4 : a4.IsWhole) (a5 : Memref sig .tc .vmem S1024x64 .f32) (h5 : a5.IsWhole) (a6 : Memref sig .tc .vmem S64x64 .f32) (h6 : a6.IsWhole) (a7 : Memref sig .tc .vmem S64x64 .f32) (h7 : a7.IsWhole) (a8 : Memref sig .tc .vmem S64x64 .f32) (h8 : a8.IsWhole) (a9 : Memref sig .tc .vmem S1x64 .f32) (h9 : a9.IsWhole) (a10 : Memref sig .tc .vmem S2000x64 .f32) (h10 : a10.IsWhole) (a11 : Memref sig .tc .vmem S1x64 .f32) (h11 : a11.IsWhole) (a12 : Memref sig .tc .vmem S1x64 .f32) (h12 : a12.IsWhole) (hc : ¬cond0_0 i) (x0 x1 x2 : Vec F S2000x64 .f32) (x3 : Vec F S2000x1 .i32) (x4 : Vec F S1024x64 .f32) (x5 x6 x7 : Vec F S64x64 .f32) (x8 : Vec F S1x64 .f32) (xo10 xo11 : Vec F S1x64 .f32) :
    out0_B_9 c i a1 h1 a2 h2 a3 h3 a4 h4 a5 h5 a6 h6 a7 h7 a8 h8 a9 h9 a10 h10 a11 h11 a12 h12 hc x0 x1 x2 x3 x4 x5 x6 x7 x8 xo10 xo11 = k0_pay1 (k0_pay6 x0 x1 x2 x5 x6 x7) (k0_pay7 x3 x4) x8 := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 x5 x6 x7 x8 xo10 xo11)]
  unfold kernelRun0_B
  dsimp only
  sl_unfold_words
  rw [View.canon_unit_zero (S := S2000x64) hz]
  simp only [View.readAt_eq_ld, h1.read_unread, h2.read_unread, h3.read_unread, h4.read_unread, h5.read_unread, h6.read_unread, h7.read_unread, h8.read_unread, h9.read_unread, h11.read_unread, h12.read_unread, View.ld_unit_zero (S := S2000x64) hz, View.ld_unit_zero (S := S2000x1) hz, View.ld_unit_zero (S := S1024x64) hz, View.ld_unit_zero (S := S64x64) hz, View.ld_unit_zero (S := S1x64) hz]

/-- A later point leaves, in the first accumulator, what it held plus the block's column sums. -/
theorem outB10 (c : Dev nD) (i : grid0.Coords) (a1 : Memref sig .tc .vmem S2000x64 .f32) (h1 : a1.IsWhole) (a2 : Memref sig .tc .vmem S2000x64 .f32) (h2 : a2.IsWhole) (a3 : Memref sig .tc .vmem S2000x64 .f32) (h3 : a3.IsWhole) (a4 : Memref sig .tc .vmem S2000x1 .i32) (h4 : a4.IsWhole) (a5 : Memref sig .tc .vmem S1024x64 .f32) (h5 : a5.IsWhole) (a6 : Memref sig .tc .vmem S64x64 .f32) (h6 : a6.IsWhole) (a7 : Memref sig .tc .vmem S64x64 .f32) (h7 : a7.IsWhole) (a8 : Memref sig .tc .vmem S64x64 .f32) (h8 : a8.IsWhole) (a9 : Memref sig .tc .vmem S1x64 .f32) (h9 : a9.IsWhole) (a10 : Memref sig .tc .vmem S2000x64 .f32) (h10 : a10.IsWhole) (a11 : Memref sig .tc .vmem S1x64 .f32) (h11 : a11.IsWhole) (a12 : Memref sig .tc .vmem S1x64 .f32) (h12 : a12.IsWhole) (hc : ¬cond0_0 i) (x0 x1 x2 : Vec F S2000x64 .f32) (x3 : Vec F S2000x1 .i32) (x4 : Vec F S1024x64 .f32) (x5 x6 x7 : Vec F S64x64 .f32) (x8 : Vec F S1x64 .f32) (xo10 xo11 : Vec F S1x64 .f32) :
    out0_B_10 c i a1 h1 a2 h2 a3 h3 a4 h4 a5 h5 a6 h6 a7 h7 a8 h8 a9 h9 a10 h10 a11 h11 a12 h12 hc x0 x1 x2 x3 x4 x5 x6 x7 x8 xo10 xo11 = k0_pay2 (k0_pay6 x0 x1 x2 x5 x6 x7) (k0_pay7 x3 x4) x8 xo10 := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 x6 x7 x8 xo10 xo11)]
  unfold kernelRun0_B
  dsimp only
  sl_unfold_words
  rw [View.canon_unit_zero (S := S1x64) hz]
  simp only [View.readAt_eq_ld, h1.read_unread, h2.read_unread, h3.read_unread, h4.read_unread, h5.read_unread, h6.read_unread, h7.read_unread, h8.read_unread, h9.read_unread, h11.read_unread, h12.read_unread, View.ld_unit_zero (S := S2000x64) hz, View.ld_unit_zero (S := S2000x1) hz, View.ld_unit_zero (S := S1024x64) hz, View.ld_unit_zero (S := S64x64) hz, View.ld_unit_zero (S := S1x64) hz]

/-- A later point leaves, in the second accumulator, what it held plus the block's column sums of squares. -/
theorem outB11 (c : Dev nD) (i : grid0.Coords) (a1 : Memref sig .tc .vmem S2000x64 .f32) (h1 : a1.IsWhole) (a2 : Memref sig .tc .vmem S2000x64 .f32) (h2 : a2.IsWhole) (a3 : Memref sig .tc .vmem S2000x64 .f32) (h3 : a3.IsWhole) (a4 : Memref sig .tc .vmem S2000x1 .i32) (h4 : a4.IsWhole) (a5 : Memref sig .tc .vmem S1024x64 .f32) (h5 : a5.IsWhole) (a6 : Memref sig .tc .vmem S64x64 .f32) (h6 : a6.IsWhole) (a7 : Memref sig .tc .vmem S64x64 .f32) (h7 : a7.IsWhole) (a8 : Memref sig .tc .vmem S64x64 .f32) (h8 : a8.IsWhole) (a9 : Memref sig .tc .vmem S1x64 .f32) (h9 : a9.IsWhole) (a10 : Memref sig .tc .vmem S2000x64 .f32) (h10 : a10.IsWhole) (a11 : Memref sig .tc .vmem S1x64 .f32) (h11 : a11.IsWhole) (a12 : Memref sig .tc .vmem S1x64 .f32) (h12 : a12.IsWhole) (hc : ¬cond0_0 i) (x0 x1 x2 : Vec F S2000x64 .f32) (x3 : Vec F S2000x1 .i32) (x4 : Vec F S1024x64 .f32) (x5 x6 x7 : Vec F S64x64 .f32) (x8 : Vec F S1x64 .f32) (xo10 xo11 : Vec F S1x64 .f32) :
    out0_B_11 c i a1 h1 a2 h2 a3 h3 a4 h4 a5 h5 a6 h6 a7 h7 a8 h8 a9 h9 a10 h10 a11 h11 a12 h12 hc x0 x1 x2 x3 x4 x5 x6 x7 x8 xo10 xo11 = k0_pay3 (k0_pay6 x0 x1 x2 x5 x6 x7) (k0_pay7 x3 x4) x8 xo11 := by
  unfold out0_B_11
  rw [View.read_writes_eq_canon _ _ _ (cover0_B_11 c i a1 h1 a2 h2 a3 h3 a4 h4 a5 h5 a6 h6 a7 h7 a8 h8 a9 h9 a10 h10 a11 h11 a12 h12 hc x0 x1 x2 x3 x4 x5 x6 x7 x8 xo10 xo11)]
  unfold kernelRun0_B
  dsimp only
  sl_unfold_words
  rw [View.canon_unit_zero (S := S1x64) hz]
  simp only [View.readAt_eq_ld, h1.read_unread, h2.read_unread, h3.read_unread, h4.read_unread, h5.read_unread, h6.read_unread, h7.read_unread, h8.read_unread, h9.read_unread, h11.read_unread, h12.read_unread, View.ld_unit_zero (S := S2000x64) hz, View.ld_unit_zero (S := S2000x1) hz, View.ld_unit_zero (S := S1024x64) hz, View.ld_unit_zero (S := S64x64) hz, View.ld_unit_zero (S := S1x64) hz]

end Cert.KernelIdeal.Val.R0

end
-- ==== Proof.LibBlocks.lean ====
/-
  General facts on sums of extended reals over rows cut into equal blocks: the extended reals are an additive commutative
  monoid, so a running sum that starts at zero and adds one block's sum per step is the sum over the blocks, and the sum over
  N blocks of B consecutive rows each is the sum over all N * B rows. No finiteness is needed.
-/
import Mathlib.Data.EReal.Basic
import Mathlib.Algebra.BigOperators.Fin
import Mathlib.Algebra.BigOperators.Intervals
import Mathlib.Data.Fintype.BigOperators
import Mathlib.Logic.Equiv.Fin.Basic

noncomputable section

namespace Cert.Blocks

open scoped BigOperators

/-- Row `n` of an array of `E` rows, zero past the end. -/
def rowN {E K : ℕ} (h : Fin E → Fin K → EReal) (n : ℕ) (f : Fin K) : EReal :=
  if hn : n < E then h ⟨n, hn⟩ f else 0

/-- A row inside the array is the array's row. -/
theorem rowN_of_lt {E K : ℕ} (h : Fin E → Fin K → EReal) (n : ℕ) (hn : n < E) (f : Fin K) :
    rowN h n f = h ⟨n, hn⟩ f := by
  unfold rowN
  rw [dif_pos hn]

/-- The running sum that starts at zero and adds `s t` at step `t`. -/
def chain (s : ℕ → EReal) : ℕ → EReal
  | 0 => 0 + s 0
  | n + 1 => chain s n + s (n + 1)

/-- The running sum after step `n` is the sum of the first `n + 1` terms. -/
theorem chain_eq_sum (s : ℕ → EReal) (n : ℕ) : chain s n = ∑ t ∈ Finset.range (n + 1), s t := by
  induction n with
  | zero => rw [chain, Finset.sum_range_one]; exact zero_add _
  | succ n ih => rw [chain, ih, Finset.sum_range_succ _ (n + 1)]

/-- The sum over `N` blocks of `B` consecutive rows is the sum over all `N * B` rows. -/
theorem sum_blocks {E K : ℕ} (N B : ℕ) (hNB : N * B = E) (h : Fin E → Fin K → EReal) (f : Fin K) :
    ∑ t ∈ Finset.range N, ∑ r : Fin B, rowN h (B * t + r.val) f = ∑ e : Fin E, h e f := by
  subst hNB
  -- the blocks are indexed by Fin N, and a pair (block, row in the block) is row r + B t of the N * B rows
  rw [Finset.sum_range (fun t => ∑ r : Fin B, rowN h (B * t + r.val) f),
    ← (finProdFinEquiv : Fin N × Fin B ≃ Fin (N * B)).sum_comp (fun e => h e f), Fintype.sum_prod_type]
  refine Finset.sum_congr rfl fun t _ => Finset.sum_congr rfl fun r _ => ?_
  have hlt : B * t.val + r.val < N * B := by
    have h1 : B * t.val + B ≤ B * N := by
      rw [← Nat.mul_succ]; exact Nat.mul_le_mul_left B t.isLt
    have h2 := r.isLt
    rw [Nat.mul_comm N B]; omega
  rw [rowN_of_lt h _ hlt]
  exact congrArg (fun e => h e f) (Fin.ext (Nat.add_comm _ _))

end Cert.Blocks

end
-- ==== Proof.KReg0.lean ====
/-
  The first region's arrays after its 500 grid points, as functions of the arrays it is entered with. Point t stages rows
  2000 t … 2000 t + 1999 of the three edge-row arrays and of the graph ids, and the whole table, weights and bias; it
  writes the first layer's rows of that block, and adds the block's column sums, and column sums of squares, into two
  one-row accumulators that point 0 first clears and that are written back once, after the last point. So the row array
  ends at the first layer of every row, and the accumulators at the column sums over all rows.
-/
import proofs.«419507_j7499012898893_1_alg».proof.Proof.Gen.KernelIdeal.Frame
import proofs.«419507_j7499012898893_1_alg».proof.Proof.Spec
import Idealize.ShloMosaic.Lib.Pipeline.Value
import Idealize.ShloMosaic.PureOps.Ideal.Laws
import proofs.«419507_j7499012898893_1_alg».proof.Proof.KReg0Pay
import proofs.«419507_j7499012898893_1_alg».proof.Proof.KReg0Pieces
import proofs.«419507_j7499012898893_1_alg».proof.Proof.LibBlocks

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

-- The buffer contents a region is entered with: every statement here holds for any of them.
variable (V : (c : Dev nD) → (b : Ref sig .tc) → Buf (Elt Ideal) ((c : Thread nD τ).loc b))

/-- The first layer of row `e`, from the arrays region 0 is entered with (windows 0–8: source, destination and edge rows,
    graph ids as a column, the multiplied table, three weight blocks, the bias row). -/
def h1Of (c : Dev nD) (e : Fin nE) (f : Fin 64) : EReal :=
  stage1Row (cur (V c (Pipeline.arrRef spec0 0) : S1000000x64.Idx → EReal) e)
    (cur (V c (Pipeline.arrRef spec0 1) : S1000000x64.Idx → EReal) e)
    (cur (V c (Pipeline.arrRef spec0 2) : S1000000x64.Idx → EReal) e)
    ((V c (Pipeline.arrRef spec0 3) : S1000000x1.Idx → BitVec 32) (ix2 e 0))
    (cur (V c (Pipeline.arrRef spec0 4) : S1024x64.Idx → EReal))
    (cur (V c (Pipeline.arrRef spec0 5) : S64x64.Idx → EReal))
    (cur (V c (Pipeline.arrRef spec0 6) : S64x64.Idx → EReal))
    (cur (V c (Pipeline.arrRef spec0 7) : S64x64.Idx → EReal))
    (cur (V c (Pipeline.arrRef spec0 8) : S1x64.Idx → EReal) 0) f

namespace R0

/-! ## The blocks a point stages -/

/-- The printed index maps, decided over the grid: a row window's block index is the point itself on the row axis and
    zero on the column axis; a whole-array window's is zero on both. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- Point t's block of row window 0 is rows 2000 t … 2000 t + 1999 of its array. -/
theorem blk0_apply (c : Dev nD) (t : Fin cfg0.N) (p : Fin 2000) (k : Fin 64) (e : Fin nE) (he : e.val = 2000 * t.val + p.val) :
    (iblk0 V c 0 t : Vec Ideal S2000x64 .f32) (ix2 p k) = (V c (Pipeline.arrRef spec0 0) : S1000000x64.Idx → EReal) (ix2 e k) := by
  unfold iblk0
  rw [View.read_apply]
  show (V c (Pipeline.arrRef spec0 0) : S1000000x64.Idx → EReal) (((cfg0.win 0).blk t).view.emb (ix2 p k)) = _
  refine congrArg _ (funext fun a => Fin.ext ?_)
  match a with
  | ⟨0, _⟩ => show win0_0.index t (0 : Fin 2) * 2000 + 1 * p.val = e.val; rw [(idx_facts t).1.1, he]; omega
  | ⟨1, _⟩ => show win0_0.index t (1 : Fin 2) * 64 + 1 * k.val = k.val; rw [(idx_facts t).1.2]; omega

/-- Point t's block of row window 1 is rows 2000 t … 2000 t + 1999 of its array. -/
theorem blk1_apply (c : Dev nD) (t : Fin cfg0.N) (p : Fin 2000) (k : Fin 64) (e : Fin nE) (he : e.val = 2000 * t.val + p.val) :
    (iblk0 V c 1 t : Vec Ideal S2000x64 .f32) (ix2 p k) = (V c (Pipeline.arrRef spec0 1) : S1000000x64.Idx → EReal) (ix2 e k) := by
  unfold iblk0
  rw [View.read_apply]
  show (V c (Pipeline.arrRef spec0 1) : S1000000x64.Idx → EReal) (((cfg0.win 1).blk t).view.emb (ix2 p k)) = _
  refine congrArg _ (funext fun a => Fin.ext ?_)
  match a with
  | ⟨0, _⟩ => show win0_1.index t (0 : Fin 2) * 2000 + 1 * p.val = e.val; rw [(idx_facts t).2.1.1, he]; omega
  | ⟨1, _⟩ => show win0_1.index t (1 : Fin 2) * 64 + 1 * k.val = k.val; rw [(idx_facts t).2.1.2]; omega

/-- Point t's block of row window 2 is rows 2000 t … 2000 t + 1999 of its array. -/
theorem blk2_apply (c : Dev nD) (t : Fin cfg0.N) (p : Fin 2000) (k : Fin 64) (e : Fin nE) (he : e.val = 2000 * t.val + p.val) :
    (iblk0 V c 2 t : Vec Ideal S2000x64 .f32) (ix2 p k) = (V c (Pipeline.arrRef spec0 2) : S1000000x64.Idx → EReal) (ix2 e k) := by
  unfold iblk0
  rw [View.read_apply]
  show (V c (Pipeline.arrRef spec0 2) : S1000000x64.Idx → EReal) (((cfg0.win 2).blk t).view.emb (ix2 p k)) = _
  refine congrArg _ (funext fun a => Fin.ext ?_)
  match a with
  | ⟨0, _⟩ => show win0_2.index t (0 : Fin 2) * 2000 + 1 * p.val = e.val; rw [(idx_facts t).2.2.1.1, he]; omega
  | ⟨1, _⟩ => show win0_2.index t (1 : Fin 2) * 64 + 1 * k.val = k.val; rw [(idx_facts t).2.2.1.2]; omega

/-- Point t's block of the graph ids is entries 2000 t … 2000 t + 1999 of the id column. -/
theorem blk3_apply (c : Dev nD) (t : Fin cfg0.N) (p : Fin 2000) (e : Fin nE) (he : e.val = 2000 * t.val + p.val) :
    (iblk0 V c 3 t : Vec Ideal S2000x1 .i32) (ix2 p 0) = (V c (Pipeline.arrRef spec0 3) : S1000000x1.Idx → BitVec 32) (ix2 e 0) := by
  unfold iblk0
  rw [View.read_apply]
  show (V c (Pipeline.arrRef spec0 3) : S1000000x1.Idx → BitVec 32) (((cfg0.win 3).blk t).view.emb (ix2 p 0)) = _
  refine congrArg _ (funext fun a => Fin.ext ?_)
  match a with
  | ⟨0, _⟩ => show win0_3.index t (0 : Fin 2) * 2000 + 1 * p.val = e.val; rw [(idx_facts t).2.2.2.1.1, he]; omega
  | ⟨1, _⟩ => show win0_3.index t (1 : Fin 2) * 1 + 1 * 0 = 0; rw [(idx_facts t).2.2.2.1.2]

/-- Window 4's block is its whole array at every point. -/
theorem blk4_eq (c : Dev nD) (t : Fin cfg0.N) :
    (iblk0 V c 4 t : Vec Ideal S1024x64 .f32) = (V c (Pipeline.arrRef spec0 4) : S1024x64.Idx → EReal) := by
  funext j
  unfold iblk0
  rw [View.read_apply]
  show (V c (Pipeline.arrRef spec0 4) : S1024x64.Idx → EReal) (((cfg0.win 4).blk t).view.emb j) = _
  refine congrArg _ (funext fun a => Fin.ext ?_)
  match a with
  | ⟨0, _⟩ => show win0_4.index t (0 : Fin 2) * 1024 + 1 * (j 0).val = (j 0).val; rw [(idx_facts t).2.2.2.2.1.1]; omega
  | ⟨1, _⟩ => show win0_4.index t (1 : Fin 2) * 64 + 1 * (j 1).val = (j 1).val; rw [(idx_facts t).2.2.2.2.1.2]; omega

/-- Window 5's block is its whole array at every point. -/
theorem blk5_eq (c : Dev nD) (t : Fin cfg0.N) :
    (iblk0 V c 5 t : Vec Ideal S64x64 .f32) = (V c (Pipeline.arrRef spec0 5) : S64x64.Idx → EReal) := by
  funext j
  unfold iblk0
  rw [View.read_apply]
  show (V c (Pipeline.arrRef spec0 5) : S64x64.Idx → EReal) (((cfg0.win 5).blk t).view.emb j) = _
  refine congrArg _ (funext fun a => Fin.ext ?_)
  match a with
  | ⟨0, _⟩ => show win0_5.index t (0 : Fin 2) * 64 + 1 * (j 0).val = (j 0).val; rw [(idx_facts t).2.2.2.2.2.1.1]; omega
  | ⟨1, _⟩ => show win0_5.index t (1 : Fin 2) * 64 + 1 * (j 1).val = (j 1).val; rw [(idx_facts t).2.2.2.2.2.1.2]; omega

/-- Window 6's block is its whole array at every point. -/
theorem blk6_eq (c : Dev nD) (t : Fin cfg0.N) :
    (iblk0 V c 6 t : Vec Ideal S64x64 .f32) = (V c (Pipeline.arrRef spec0 6) : S64x64.Idx → EReal) := by
  funext j
  unfold iblk0
  rw [View.read_apply]
  show (V c (Pipeline.arrRef spec0 6) : S64x64.Idx → EReal) (((cfg0.win 6).blk t).view.emb j) = _
  refine congrArg _ (funext fun a => Fin.ext ?_)
  match a with
  | ⟨0, _⟩ => show win0_6.index t (0 : Fin 2) * 64 + 1 * (j 0).val = (j 0).val; rw [(idx_facts t).2.2.2.2.2.2.1.1]; omega
  | ⟨1, _⟩ => show win0_6.index t (1 : Fin 2) * 64 + 1 * (j 1).val = (j 1).val; rw [(idx_facts t).2.2.2.2.2.2.1.2]; omega

/-- Window 7's block is its whole array at every point. -/
theorem blk7_eq (c : Dev nD) (t : Fin cfg0.N) :
    (iblk0 V c 7 t : Vec Ideal S64x64 .f32) = (V c (Pipeline.arrRef spec0 7) : S64x64.Idx → EReal) := by
  funext j
  unfold iblk0
  rw [View.read_apply]
  show (V c (Pipeline.arrRef spec0 7) : S64x64.Idx → EReal) (((cfg0.win 7).blk t).view.emb j) = _
  refine congrArg _ (funext fun a => Fin.ext ?_)
  match a with
  | ⟨0, _⟩ => show win0_7.index t (0 : Fin 2) * 64 + 1 * (j 0).val = (j 0).val; rw [(idx_facts t).2.2.2.2.2.2.2.1.1]; omega
  | ⟨1, _⟩ => show win0_7.index t (1 : Fin 2) * 64 + 1 * (j 1).val = (j 1).val; rw [(idx_facts t).2.2.2.2.2.2.2.1.2]; omega

/-- Window 8's block is its whole array at every point. -/
theorem blk8_eq (c : Dev nD) (t : Fin cfg0.N) :
    (iblk0 V c 8 t : Vec Ideal S1x64 .f32) = (V c (Pipeline.arrRef spec0 8) : S1x64.Idx → EReal) := by
  funext j
  unfold iblk0
  rw [View.read_apply]
  show (V c (Pipeline.arrRef spec0 8) : S1x64.Idx → EReal) (((cfg0.win 8).blk t).view.emb j) = _
  refine congrArg _ (funext fun a => Fin.ext ?_)
  match a with
  | ⟨0, _⟩ => show win0_8.index t (0 : Fin 2) * 1 + 1 * (j 0).val = (j 0).val; rw [(idx_facts t).2.2.2.2.2.2.2.2.1.1]; omega
  | ⟨1, _⟩ => show win0_8.index t (1 : Fin 2) * 64 + 1 * (j 1).val = (j 1).val; rw [(idx_facts t).2.2.2.2.2.2.2.2.1.2]; omega

/-! ## Which indices a point's write-back covers -/

/-- An index of the row array is in point t's block iff each coordinate is in the block's range. -/
theorem mem_blk9 (t : Fin cfg0.N) (i : S1000000x64.Idx) :
    i ∈ ((cfg0.win 9).blk t).view.set ↔ ∀ a : Fin 2, win0_9.index t a * S2000x64.size a ≤ (i a).val
      ∧ (i a).val < win0_9.index t a * S2000x64.size a + S2000x64.size a := by
  show i ∈ ((View.whole main_v15_0).slice (win0_9.rect t)).set ↔ _
  rw [View.set_slice_whole, Rect.mem_set_unit]
  exact Iff.rfl

theorem mem_blk10 (t : Fin cfg0.N) (i : S1x64.Idx) :
    i ∈ ((cfg0.win 10).blk t).view.set ↔ ∀ a : Fin 2, win0_10.index t a * S1x64.size a ≤ (i a).val
      ∧ (i a).val < win0_10.index t a * S1x64.size a + S1x64.size a := by
  show i ∈ ((View.whole main_v15_1).slice (win0_10.rect t)).set ↔ _
  rw [View.set_slice_whole, Rect.mem_set_unit]
  exact Iff.rfl

theorem mem_blk11 (t : Fin cfg0.N) (i : S1x64.Idx) :
    i ∈ ((cfg0.win 11).blk t).view.set ↔ ∀ a : Fin 2, win0_11.index t a * S1x64.size a ≤ (i a).val
      ∧ (i a).val < win0_11.index t a * S1x64.size a + S1x64.size a := by
  show i ∈ ((View.whole main_v15_2).slice (win0_11.rect t)).set ↔ _
  rw [View.set_slice_whole, Rect.mem_set_unit]
  exact Iff.rfl

/-- Row r of the row array is written back by point r / 2000. -/
theorem cover9 (i : S1000000x64.Idx) :
    ∃ t : Fin cfg0.N, (cfg0.win 9).flush t = true ∧ i ∈ ((cfg0.win 9).blk t).view.set := by
  have hi0 : (i 0).val < 1000000 := (i 0).isLt
  have hi1 : (i 1).val < 64 := (i 1).isLt
  have hN : cfg0.N = 500 := N_0
  refine ⟨⟨(i 0).val / 2000, by rw [hN]; omega⟩, flush0_9 _, ?_⟩
  rw [mem_blk9]
  intro a
  match a with
  | ⟨0, _⟩ =>
    show win0_9.index ⟨(i 0).val / 2000, _⟩ (0 : Fin 2) * 2000 ≤ (i 0).val
      ∧ (i 0).val < win0_9.index ⟨(i 0).val / 2000, _⟩ (0 : Fin 2) * 2000 + 2000
    rw [(idx_facts _).2.2.2.2.2.2.2.2.2.1.1]; dsimp only; omega
  | ⟨1, _⟩ =>
    show win0_9.index ⟨(i 0).val / 2000, _⟩ (1 : Fin 2) * 64 ≤ (i 1).val
      ∧ (i 1).val < win0_9.index ⟨(i 0).val / 2000, _⟩ (1 : Fin 2) * 64 + 64
    rw [(idx_facts _).2.2.2.2.2.2.2.2.2.1.2]; omega

/-- The last point. -/
abbrev tLast : Fin cfg0.N := ⟨499, by rw [show cfg0.N = 500 from N_0]; decide⟩

/-- Every entry of the first accumulator's array is written back by the last point. -/
theorem cover10 (i : S1x64.Idx) :
    ∃ t : Fin cfg0.N, (cfg0.win 10).flush t = true ∧ i ∈ ((cfg0.win 10).blk t).view.set := by
  have hi0 : (i 0).val < 1 := (i 0).isLt
  have hi1 : (i 1).val < 64 := (i 1).isLt
  refine ⟨tLast, (flush0_10 tLast).mpr rfl, ?_⟩
  rw [mem_blk10]
  intro a
  match a with
  | ⟨0, _⟩ =>
    show win0_10.index tLast (0 : Fin 2) * 1 ≤ (i 0).val ∧ (i 0).val < win0_10.index tLast (0 : Fin 2) * 1 + 1
    rw [(idx_facts _).2.2.2.2.2.2.2.2.2.2.1.1]; omega
  | ⟨1, _⟩ =>
    show win0_10.index tLast (1 : Fin 2) * 64 ≤ (i 1).val ∧ (i 1).val < win0_10.index tLast (1 : Fin 2) * 64 + 64
    rw [(idx_facts _).2.2.2.2.2.2.2.2.2.2.1.2]; omega

/-- Every entry of the second accumulator's array is written back by the last point. -/
theorem cover11 (i : S1x64.Idx) :
    ∃ t : Fin cfg0.N, (cfg0.win 11).flush t = true ∧ i ∈ ((cfg0.win 11).blk t).view.set := by
  have hi0 : (i 0).val < 1 := (i 0).isLt
  have hi1 : (i 1).val < 64 := (i 1).isLt
  refine ⟨tLast, (flush0_11 tLast).mpr rfl, ?_⟩
  rw [mem_blk11]
  intro a
  match a with
  | ⟨0, _⟩ =>
    show win0_11.index tLast (0 : Fin 2) * 1 ≤ (i 0).val ∧ (i 0).val < win0_11.index tLast (0 : Fin 2) * 1 + 1
    rw [(idx_facts _).2.2.2.2.2.2.2.2.2.2.2.1]; omega
  | ⟨1, _⟩ =>
    show win0_11.index tLast (1 : Fin 2) * 64 ≤ (i 1).val ∧ (i 1).val < win0_11.index tLast (1 : Fin 2) * 64 + 64
    rw [(idx_facts _).2.2.2.2.2.2.2.2.2.2.2.2]; omega

/-! ## A point's blocks, named at their literal types -/

abbrev b0 (c : Dev nD) (t : Fin cfg0.N) : Vec Ideal S2000x64 .f32 := iblk0 V c 0 t
abbrev b1 (c : Dev nD) (t : Fin cfg0.N) : Vec Ideal S2000x64 .f32 := iblk0 V c 1 t
abbrev b2 (c : Dev nD) (t : Fin cfg0.N) : Vec Ideal S2000x64 .f32 := iblk0 V c 2 t
abbrev b3 (c : Dev nD) (t : Fin cfg0.N) : Vec Ideal S2000x1 .i32 := iblk0 V c 3 t
abbrev b4 (c : Dev nD) (t : Fin cfg0.N) : Vec Ideal S1024x64 .f32 := iblk0 V c 4 t
abbrev b5 (c : Dev nD) (t : Fin cfg0.N) : Vec Ideal S64x64 .f32 := iblk0 V c 5 t
abbrev b6 (c : Dev nD) (t : Fin cfg0.N) : Vec Ideal S64x64 .f32 := iblk0 V c 6 t
abbrev b7 (c : Dev nD) (t : Fin cfg0.N) : Vec Ideal S64x64 .f32 := iblk0 V c 7 t
abbrev b8 (c : Dev nD) (t : Fin cfg0.N) : Vec Ideal S1x64 .f32 := iblk0 V c 8 t

/-- The first-layer block of point t's input blocks. -/
abbrev rowsAt (c : Dev nD) (t : Fin cfg0.N) : Vec Ideal S2000x64 .f32 :=
  k0_pay1 (F := Ideal) (k0_pay6 (F := Ideal) (b0 V c t) (b1 V c t) (b2 V c t) (b5 V c t) (b6 V c t) (b7 V c t)) (k0_pay7 (F := Ideal) (b3 V c t) (b4 V c t)) (b8 V c t)

/-! ## The row buffer -/

/-- Entry (p, f) of point t's first-layer block is the first layer of row 2000 t + p at column f. -/
theorem row_eq (c : Dev nD) (t : Fin cfg0.N) (p : Fin 2000) (f : Fin 64) (e : Fin nE) (f' : Fin 64)
    (he : e.val = 2000 * t.val + p.val) (hf : f'.val = f.val) :
    rowsAt V c t (ix2 p f) = h1Of V c e f' := by
  obtain rfl : f = f' := Fin.ext hf.symm
  refine (pay1_apply (k0_pay6 (F := Ideal) (b0 V c t) (b1 V c t) (b2 V c t) (b5 V c t) (b6 V c t) (b7 V c t))
    (k0_pay7 (F := Ideal) (b3 V c t) (b4 V c t)) (b8 V c t) p f).trans ?_
  unfold h1Of stage1Row
  refine congrArg relu (congrArg₂ (· + ·) (congrArg₂ (· + ·)
    ((pay6_apply (b0 V c t) (b1 V c t) (b2 V c t) (b5 V c t) (b6 V c t) (b7 V c t) p f).trans ?_)
    ((pay7_apply (b3 V c t) (b4 V c t) p f).trans ?_)) ?_)
  · refine congrArg₂ (· + ·) (congrArg₂ (· + ·) ?_ ?_) ?_
    · exact Finset.sum_congr rfl fun k _ => congrArg₂ (· * ·) (blk0_apply V c t p k e he) (congrFun (blk5_eq V c t) (ix2 k f))
    · exact Finset.sum_congr rfl fun k _ => congrArg₂ (· * ·) (blk1_apply V c t p k e he) (congrFun (blk6_eq V c t) (ix2 k f))
    · exact Finset.sum_congr rfl fun k _ => congrArg₂ (· * ·) (blk2_apply V c t p k e he) (congrFun (blk7_eq V c t) (ix2 k f))
  · exact Finset.sum_congr rfl fun g _ => congrArg₂ (· * ·) (congrArg (onehot · g) (blk3_apply V c t p e he))
      (congrFun (blk4_eq V c t) (ix2 g f))
  · exact congrFun (blk8_eq V c t) (ix2 0 f)

/-- After every point the row buffer holds that point's first-layer block. -/
theorem rowbuf_eq (c : Dev nD) (t : Fin cfg0.N) : (outsAt0 V c t.val t.isLt).1 = rowsAt V c t := by
  by_cases h0 : t.val % 500 = 0
  · rw [outsAt0_A V c t h0]
    dsimp only
    exact outA9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t)
  · rw [outsAt0_B V c t h0]
    dsimp only
    exact outB9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) _ _

/-- What point t writes back into the row array is its block of the first layer of every row. -/
theorem flushed9_eq (c : Dev nD) (t : Fin cfg0.N) :
    (dat0 V c).flushed 9 t = ((cfg0.win 9).blk t).view.read (Elt Ideal) (fun i : S1000000x64.Idx => h1Of V c (i 0) (i 1)) := by
  show (cfg0.win 9).cut (grid0.coords t) ((dat0 V c).after 9 t) = _
  rw [after0_9, rowbuf_eq]
  funext j
  obtain ⟨p, f, rfl⟩ : ∃ (p : Fin 2000) (f : Fin 64), j = ix2 p f := ⟨j 0, j 1, eq_ix2 j⟩
  rw [View.read_apply]
  refine row_eq V c t p f _ _ ?_ ?_
  · show win0_9.index t (0 : Fin 2) * 2000 + 1 * p.val = 2000 * t.val + p.val
    rw [(idx_facts t).2.2.2.2.2.2.2.2.2.1.1]; omega
  · show win0_9.index t (1 : Fin 2) * 64 + 1 * f.val = f.val
    rw [(idx_facts t).2.2.2.2.2.2.2.2.2.1.2]; omega

/-! ## The accumulators -/

/-- The sum of column f over block t's 2000 rows. -/
def blkSum (h : Fin nE → Fin 64 → EReal) (f : Fin 64) (t : ℕ) : EReal :=
  ∑ p : Fin 2000, Cert.Blocks.rowN h (2000 * t + p.val) f

/-- The squares of an array of rows. -/
abbrev sqOf (h : Fin nE → Fin 64 → EReal) : Fin nE → Fin 64 → EReal := fun e f => h e f * h e f

/-- A row of block t is a row of the array. -/
theorem row_lt (t : Fin cfg0.N) (p : Fin 2000) : 2000 * t.val + p.val < nE := by
  have hN : t.val < 500 := lt_of_lt_of_eq t.isLt (show cfg0.N = 500 from N_0)
  have hp := p.isLt
  show 2000 * t.val + p.val < 1000000
  omega

/-- The column sums of point t's first-layer block are block t's sums of the first layer. -/
theorem colstep_eq (c : Dev nD) (t : Fin cfg0.N) (f : Fin 64) :
    ∑ p : Fin 2000, rowsAt V c t (ix2 p f) = blkSum (h1Of V c) f t.val :=
  Finset.sum_congr rfl fun p _ => (row_eq V c t p f ⟨2000 * t.val + p.val, row_lt t p⟩ f rfl rfl).trans
    (Cert.Blocks.rowN_of_lt (h1Of V c) _ (row_lt t p) f).symm

/-- The same for the squares. -/
theorem sqstep_eq (c : Dev nD) (t : Fin cfg0.N) (f : Fin 64) :
    ∑ p : Fin 2000, rowsAt V c t (ix2 p f) * rowsAt V c t (ix2 p f) = blkSum (sqOf (h1Of V c)) f t.val :=
  Finset.sum_congr rfl fun p _ =>
    (congrArg (fun x => x * x) (row_eq V c t p f ⟨2000 * t.val + p.val, row_lt t p⟩ f rfl rfl)).trans
      (Cert.Blocks.rowN_of_lt (sqOf (h1Of V c)) _ (row_lt t p) f).symm

/-- After point n the first accumulator holds the running sum of the blocks' column sums: cleared and stepped at point 0,
    stepped from what the point before left at every other point. -/
theorem acc10_eq (c : Dev nD) : ∀ (n : ℕ) (hn : n < cfg0.N) (f : Fin 64),
    (outsAt0 V c n hn).2.1 (ix2 0 f) = Cert.Blocks.chain (blkSum (h1Of V c) f) n
  | 0, hn, f => by
    rw [outsAt0_A V c ⟨0, hn⟩ rfl]
    dsimp only
    refine (congrFun (outA10 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩)) (ix2 0 f)).trans ?_
    refine (pay2_apply _ _ _ _ f).trans ?_
    exact congrArg₂ (· + ·) (pay4_apply _) (colstep_eq V c ⟨0, hn⟩ f)
  | n + 1, hn, f => by
    have hN : cfg0.N = 500 := N_0
    have hB : ¬(⟨n + 1, hn⟩ : Fin cfg0.N).val % 500 = 0 := by dsimp only; omega
    rw [outsAt0_B V c ⟨n + 1, hn⟩ hB]
    dsimp only
    refine (congrFun (outB10 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) _ _) (ix2 0 f)).trans ?_
    refine (pay2_apply _ _ _ _ f).trans ?_
    exact congrArg₂ (· + ·) (acc10_eq c n (Nat.lt_of_succ_lt hn) f) (colstep_eq V c ⟨n + 1, hn⟩ f)

/-- After point n the second accumulator holds the running sum of the blocks' column sums of squares. -/
theorem acc11_eq (c : Dev nD) : ∀ (n : ℕ) (hn : n < cfg0.N) (f : Fin 64),
    (outsAt0 V c n hn).2.2 (ix2 0 f) = Cert.Blocks.chain (blkSum (sqOf (h1Of V c)) f) n
  | 0, hn, f => by
    rw [outsAt0_A V c ⟨0, hn⟩ rfl]
    dsimp only
    refine (congrFun (outA11 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩)) (ix2 0 f)).trans ?_
    refine (pay3_apply _ _ _ _ f).trans ?_
    exact congrArg₂ (· + ·) (pay5_apply _) (sqstep_eq V c ⟨0, hn⟩ f)
  | n + 1, hn, f => by
    have hN : cfg0.N = 500 := N_0
    have hB : ¬(⟨n + 1, hn⟩ : Fin cfg0.N).val % 500 = 0 := by dsimp only; omega
    rw [outsAt0_B V c ⟨n + 1, hn⟩ hB]
    dsimp only
    refine (congrFun (outB11 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) _ _) (ix2 0 f)).trans ?_
    refine (pay3_apply _ _ _ _ f).trans ?_
    exact congrArg₂ (· + ·) (acc11_eq c n (Nat.lt_of_succ_lt hn) f) (sqstep_eq V c ⟨n + 1, hn⟩ f)

/-- Window 10's one block is its whole array: reading any contents through it gives the contents back. -/
theorem read_blk10 (t : Fin cfg0.N) (G : S1x64.Idx → EReal) : ((cfg0.win 10).blk t).view.read (Elt Ideal) G = G := by
  funext j
  rw [View.read_apply]
  refine congrArg G (funext fun a => Fin.ext ?_)
  match a with
  | ⟨0, _⟩ => show win0_10.index t (0 : Fin 2) * 1 + 1 * (j 0).val = (j 0).val; rw [(idx_facts t).2.2.2.2.2.2.2.2.2.2.1.1]; omega
  | ⟨1, _⟩ => show win0_10.index t (1 : Fin 2) * 64 + 1 * (j 1).val = (j 1).val; rw [(idx_facts t).2.2.2.2.2.2.2.2.2.2.1.2]; omega

/-- Window 11's one block is its whole array: reading any contents through it gives the contents back. -/
theorem read_blk11 (t : Fin cfg0.N) (G : S1x64.Idx → EReal) : ((cfg0.win 11).blk t).view.read (Elt Ideal) G = G := by
  funext j
  rw [View.read_apply]
  refine congrArg G (funext fun a => Fin.ext ?_)
  match a with
  | ⟨0, _⟩ => show win0_11.index t (0 : Fin 2) * 1 + 1 * (j 0).val = (j 0).val; rw [(idx_facts t).2.2.2.2.2.2.2.2.2.2.2.1]; omega
  | ⟨1, _⟩ => show win0_11.index t (1 : Fin 2) * 64 + 1 * (j 1).val = (j 1).val; rw [(idx_facts t).2.2.2.2.2.2.2.2.2.2.2.2]; omega

/-- The one write-back of the first accumulator, after the last point, writes the column sums over all rows: the running
    sum over 500 blocks of 2000 rows is the sum over the 1,000,000 rows. -/
theorem flushed10_eq (c : Dev nD) (t : Fin cfg0.N) (hf : (cfg0.win 10).flush t = true) :
    (dat0 V c).flushed 10 t = ((cfg0.win 10).blk t).view.read (Elt Ideal) (fun i : S1x64.Idx => colSum (h1Of V c) (i 1)) := by
  have hN : cfg0.N = 500 := N_0
  have h1 : t.val = 499 := by have := (flush0_10 t).mp hf; have := t.isLt; omega
  refine Eq.trans ?_ (read_blk10 t (fun i : S1x64.Idx => colSum (h1Of V c) (i 1))).symm
  show (cfg0.win 10).cut (grid0.coords t) ((dat0 V c).after 10 t) = _
  rw [after0_10]
  funext j
  obtain ⟨z, f, rfl⟩ : ∃ (z : Fin 1) (f : Fin 64), j = ix2 z f := ⟨j 0, j 1, eq_ix2 j⟩
  obtain rfl : z = 0 := Subsingleton.elim _ _
  refine (acc10_eq V c t.val t.isLt f).trans ?_
  rw [h1, Cert.Blocks.chain_eq_sum]
  exact Cert.Blocks.sum_blocks 500 2000 (by norm_num) (h1Of V c) f

/-- The same for the second accumulator and the squares. -/
theorem flushed11_eq (c : Dev nD) (t : Fin cfg0.N) (hf : (cfg0.win 11).flush t = true) :
    (dat0 V c).flushed 11 t = ((cfg0.win 11).blk t).view.read (Elt Ideal) (fun i : S1x64.Idx => colSumSq (h1Of V c) (i 1)) := by
  have hN : cfg0.N = 500 := N_0
  have h1 : t.val = 499 := by have := (flush0_11 t).mp hf; have := t.isLt; omega
  refine Eq.trans ?_ (read_blk11 t (fun i : S1x64.Idx => colSumSq (h1Of V c) (i 1))).symm
  show (cfg0.win 11).cut (grid0.coords t) ((dat0 V c).after 11 t) = _
  rw [after0_11]
  funext j
  obtain ⟨z, f, rfl⟩ : ∃ (z : Fin 1) (f : Fin 64), j = ix2 z f := ⟨j 0, j 1, eq_ix2 j⟩
  obtain rfl : z = 0 := Subsingleton.elim _ _
  refine (acc11_eq V c t.val t.isLt f).trans ?_
  rw [h1, Cert.Blocks.chain_eq_sum]
  exact Cert.Blocks.sum_blocks 500 2000 (by norm_num) (sqOf (h1Of V c)) f

end R0

open R0

/-- The row array (window 9) ends at the first layer of every row. -/
theorem reg0_out (c : Dev nD) :
    ((dat0 V c).arrAt 9 cfg0.N : S1000000x64.Idx → EReal) = fun i => h1Of V c (i 0) (i 1) :=
  (dat0 V c).arrAt_eq_of_cover 9 (fun i : S1000000x64.Idx => h1Of V c (i 0) (i 1)) (fun t _ => flushed9_eq V c t) cover9

/-- The first accumulator (window 10) ends at the column sums. -/
theorem reg0_sum (c : Dev nD) :
    ((dat0 V c).arrAt 10 cfg0.N : S1x64.Idx → EReal) = fun i => colSum (h1Of V c) (i 1) :=
  (dat0 V c).arrAt_eq_of_cover 10 (fun i : S1x64.Idx => colSum (h1Of V c) (i 1)) (flushed10_eq V c) cover10

/-- The second accumulator (window 11) ends at the column sums of squares. -/
theorem reg0_sumsq (c : Dev nD) :
    ((dat0 V c).arrAt 11 cfg0.N : S1x64.Idx → EReal) = fun i => colSumSq (h1Of V c) (i 1) :=
  (dat0 V c).arrAt_eq_of_cover 11 (fun i : S1x64.Idx => colSumSq (h1Of V c) (i 1)) (flushed11_eq V c) cover11

end Cert.KernelIdeal.Val

end
-- ==== Proof.KReg1.lean ====
/-
  Region 1's arrays after its 125 grid points, as functions of the arrays it is entered with. Point t stages rows
  8000 t … 8000 t + 7999 of the previous layer's rows and the whole mean, variance, scale, shift, weight and bias rows; it
  normalises the block's rows, multiplies, adds the bias, rectifies and writes the block, and adds the block's column
  sums, and column sums of squares, into two one-row accumulators that point 0 first clears and that are written back
  once, after the last point.
-/
import proofs.«419507_j7499012898893_1_alg».proof.Proof.Gen.KernelIdeal.Frame
import proofs.«419507_j7499012898893_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

-- The buffer contents a region is entered with: every statement here holds for any of them.
variable (V : (c : Dev nD) → (b : Ref sig .tc) → Buf (Elt Ideal) ((c : Thread nD τ).loc b))

/-- The layer of row `e`, from the arrays region 1 is entered with (windows 0–6: rows, mean, variance, scale, shift,
    weights, bias). -/
def h2Of (c : Dev nD) (e : Fin nE) (f : Fin 64) : EReal :=
  bnStageRowK (cur (V c (Pipeline.arrRef spec1 0) : S1000000x64.Idx → EReal) e)
    (cur (V c (Pipeline.arrRef spec1 1) : S1x64.Idx → EReal) 0)
    (cur (V c (Pipeline.arrRef spec1 2) : S1x64.Idx → EReal) 0)
    (cur (V c (Pipeline.arrRef spec1 3) : S1x64.Idx → EReal) 0)
    (cur (V c (Pipeline.arrRef spec1 4) : S1x64.Idx → EReal) 0)
    (cur (V c (Pipeline.arrRef spec1 5) : S64x64.Idx → EReal))
    (cur (V c (Pipeline.arrRef spec1 6) : S1x64.Idx → EReal) 0) f

namespace reg1_aux

/-! ## What each case's stores leave in the three output buffers -/

section Pieces
variable {F : FTy → Type} [FloatOps F]

/-- The offsets of every load and store of the body: the origin. -/
theorem hz : (![0, 0] : Fin 2 → Nat) = fun _ => 0 := funext fun a => by
  match a with
  | ⟨0, _⟩ => rfl
  | ⟨1, _⟩ => rfl

/-- A later point leaves in the row buffer the layer of the block it was handed. -/
theorem piece_B_out (c : Dev nD) (i : grid1.Coords) (a1 : Memref sig .tc .vmem S8000x64 .f32) (w1 : a1.IsWhole) (a2 : Memref sig .tc .vmem S1x64 .f32) (w2 : a2.IsWhole) (a3 : Memref sig .tc .vmem S1x64 .f32) (w3 : a3.IsWhole) (a4 : Memref sig .tc .vmem S1x64 .f32) (w4 : a4.IsWhole) (a5 : Memref sig .tc .vmem S1x64 .f32) (w5 : a5.IsWhole) (a6 : Memref sig .tc .vmem S64x64 .f32) (w6 : a6.IsWhole) (a7 : Memref sig .tc .vmem S1x64 .f32) (w7 : a7.IsWhole) (a8 : Memref sig .tc .vmem S8000x64 .f32) (w8 : a8.IsWhole) (a9 : Memref sig .tc .vmem S1x64 .f32) (w9 : a9.IsWhole) (a10 : Memref sig .tc .vmem S1x64 .f32) (w10 : a10.IsWhole) (hc : ¬cond1_0 i) (x0 : Vec F S8000x64 .f32) (x1 x2 x3 x4 : Vec F S1x64 .f32) (x5 : Vec F S64x64 .f32) (x6 : Vec F S1x64 .f32) (xo8 xo9 : Vec F S1x64 .f32) :
    out1_B_7 c i a1 w1 a2 w2 a3 w3 a4 w4 a5 w5 a6 w6 a7 w7 a8 w8 a9 w9 a10 w10 hc x0 x1 x2 x3 x4 x5 x6 xo8 xo9 = k1_pay5 x0 x1 x2 x3 x4 x5 x6 := by
  unfold out1_B_7
  rw [View.read_writes_eq_canon _ _ _ (cover1_B_7 c i a1 w1 a2 w2 a3 w3 a4 w4 a5 w5 a6 w6 a7 w7 a8 w8 a9 w9 a10 w10 hc x0 x1 x2 x3 x4 x5 x6 xo8 xo9)]
  unfold kernelRun1_B
  dsimp only
  sl_unfold_words
  rw [View.canon_unit_zero hz]
  simp only [View.readAt_eq_ld, w1.read_unread, w2.read_unread, w3.read_unread, w4.read_unread, w5.read_unread, w6.read_unread, w7.read_unread, View.ld_unit_zero (S := S8000x64) hz, View.ld_unit_zero (S := S1x64) hz, View.ld_unit_zero (S := S64x64) hz]

/-- A later point adds the block's column sums onto what the first accumulator held. -/
theorem piece_B_sum (c : Dev nD) (i : grid1.Coords) (a1 : Memref sig .tc .vmem S8000x64 .f32) (w1 : a1.IsWhole) (a2 : Memref sig .tc .vmem S1x64 .f32) (w2 : a2.IsWhole) (a3 : Memref sig .tc .vmem S1x64 .f32) (w3 : a3.IsWhole) (a4 : Memref sig .tc .vmem S1x64 .f32) (w4 : a4.IsWhole) (a5 : Memref sig .tc .vmem S1x64 .f32) (w5 : a5.IsWhole) (a6 : Memref sig .tc .vmem S64x64 .f32) (w6 : a6.IsWhole) (a7 : Memref sig .tc .vmem S1x64 .f32) (w7 : a7.IsWhole) (a8 : Memref sig .tc .vmem S8000x64 .f32) (w8 : a8.IsWhole) (a9 : Memref sig .tc .vmem S1x64 .f32) (w9 : a9.IsWhole) (a10 : Memref sig .tc .vmem S1x64 .f32) (w10 : a10.IsWhole) (hc : ¬cond1_0 i) (x0 : Vec F S8000x64 .f32) (x1 x2 x3 x4 : Vec F S1x64 .f32) (x5 : Vec F S64x64 .f32) (x6 : Vec F S1x64 .f32) (xo8 xo9 : Vec F S1x64 .f32) :
    out1_B_8 c i a1 w1 a2 w2 a3 w3 a4 w4 a5 w5 a6 w6 a7 w7 a8 w8 a9 w9 a10 w10 hc x0 x1 x2 x3 x4 x5 x6 xo8 xo9 = k1_pay1 (k1_pay5 x0 x1 x2 x3 x4 x5 x6) xo8 := by
  unfold out1_B_8
  rw [View.read_writes_eq_canon _ _ _ (cover1_B_8 c i a1 w1 a2 w2 a3 w3 a4 w4 a5 w5 a6 w6 a7 w7 a8 w8 a9 w9 a10 w10 hc x0 x1 x2 x3 x4 x5 x6 xo8 xo9)]
  unfold kernelRun1_B
  dsimp only
  sl_unfold_words
  rw [View.canon_unit_zero hz]
  simp only [View.readAt_eq_ld, w1.read_unread, w2.read_unread, w3.read_unread, w4.read_unread, w5.read_unread, w6.read_unread, w7.read_unread, View.ld_unit_zero (S := S8000x64) hz, View.ld_unit_zero (S := S1x64) hz, View.ld_unit_zero (S := S64x64) hz, w9.read_unread]

/-- A later point adds the block's column sums of squares onto what the second accumulator held. -/
theorem piece_B_sumsq (c : Dev nD) (i : grid1.Coords) (a1 : Memref sig .tc .vmem S8000x64 .f32) (w1 : a1.IsWhole) (a2 : Memref sig .tc .vmem S1x64 .f32) (w2 : a2.IsWhole) (a3 : Memref sig .tc .vmem S1x64 .f32) (w3 : a3.IsWhole) (a4 : Memref sig .tc .vmem S1x64 .f32) (w4 : a4.IsWhole) (a5 : Memref sig .tc .vmem S1x64 .f32) (w5 : a5.IsWhole) (a6 : Memref sig .tc .vmem S64x64 .f32) (w6 : a6.IsWhole) (a7 : Memref sig .tc .vmem S1x64 .f32) (w7 : a7.IsWhole) (a8 : Memref sig .tc .vmem S8000x64 .f32) (w8 : a8.IsWhole) (a9 : Memref sig .tc .vmem S1x64 .f32) (w9 : a9.IsWhole) (a10 : Memref sig .tc .vmem S1x64 .f32) (w10 : a10.IsWhole) (hc : ¬cond1_0 i) (x0 : Vec F S8000x64 .f32) (x1 x2 x3 x4 : Vec F S1x64 .f32) (x5 : Vec F S64x64 .f32) (x6 : Vec F S1x64 .f32) (xo8 xo9 : Vec F S1x64 .f32) :
    out1_B_9 c i a1 w1 a2 w2 a3 w3 a4 w4 a5 w5 a6 w6 a7 w7 a8 w8 a9 w9 a10 w10 hc x0 x1 x2 x3 x4 x5 x6 xo8 xo9 = k1_pay2 (k1_pay5 x0 x1 x2 x3 x4 x5 x6) xo9 := by
  unfold out1_B_9
  rw [View.read_writes_eq_canon _ _ _ (cover1_B_9 c i a1 w1 a2 w2 a3 w3 a4 w4 a5 w5 a6 w6 a7 w7 a8 w8 a9 w9 a10 w10 hc x0 x1 x2 x3 x4 x5 x6 xo8 xo9)]
  unfold kernelRun1_B
  dsimp only
  sl_unfold_words
  rw [View.canon_unit_zero hz]
  simp only [View.readAt_eq_ld, w1.read_unread, w2.read_unread, w3.read_unread, w4.read_unread, w5.read_unread, w6.read_unread, w7.read_unread, View.ld_unit_zero (S := S8000x64) hz, View.ld_unit_zero (S := S1x64) hz, View.ld_unit_zero (S := S64x64) hz, w10.read_unread]

/-- The first point leaves in the row buffer the layer of the block it was handed. -/
theorem piece_A_out (c : Dev nD) (i : grid1.Coords) (a1 : Memref sig .tc .vmem S8000x64 .f32) (w1 : a1.IsWhole) (a2 : Memref sig .tc .vmem S1x64 .f32) (w2 : a2.IsWhole) (a3 : Memref sig .tc .vmem S1x64 .f32) (w3 : a3.IsWhole) (a4 : Memref sig .tc .vmem S1x64 .f32) (w4 : a4.IsWhole) (a5 : Memref sig .tc .vmem S1x64 .f32) (w5 : a5.IsWhole) (a6 : Memref sig .tc .vmem S64x64 .f32) (w6 : a6.IsWhole) (a7 : Memref sig .tc .vmem S1x64 .f32) (w7 : a7.IsWhole) (a8 : Memref sig .tc .vmem S8000x64 .f32) (w8 : a8.IsWhole) (a9 : Memref sig .tc .vmem S1x64 .f32) (w9 : a9.IsWhole) (a10 : Memref sig .tc .vmem S1x64 .f32) (w10 : a10.IsWhole) (hc : cond1_0 i) (x0 : Vec F S8000x64 .f32) (x1 x2 x3 x4 : Vec F S1x64 .f32) (x5 : Vec F S64x64 .f32) (x6 : Vec F S1x64 .f32) :
    out1_A_7 c i a1 w1 a2 w2 a3 w3 a4 w4 a5 w5 a6 w6 a7 w7 a8 w8 a9 w9 a10 w10 hc x0 x1 x2 x3 x4 x5 x6 = k1_pay5 x0 x1 x2 x3 x4 x5 x6 := by
  unfold out1_A_7
  rw [View.read_writes_eq_canon _ _ _ (cover1_A_7 c i a1 w1 a2 w2 a3 w3 a4 w4 a5 w5 a6 w6 a7 w7 a8 w8 a9 w9 a10 w10 hc x0 x1 x2 x3 x4 x5 x6)]
  unfold kernelRun1_A
  dsimp only
  sl_unfold_words
  rw [View.canon_unit_zero hz]
  simp only [View.readAt_eq_ld, w1.read_unread, w2.read_unread, w3.read_unread, w4.read_unread, w5.read_unread, w6.read_unread, w7.read_unread, View.ld_unit_zero (S := S8000x64) hz, View.ld_unit_zero (S := S1x64) hz, View.ld_unit_zero (S := S64x64) hz]

/-- The first point clears the first accumulator, reads the zero row back and adds the block's column sums. -/
theorem piece_A_sum (c : Dev nD) (i : grid1.Coords) (a1 : Memref sig .tc .vmem S8000x64 .f32) (w1 : a1.IsWhole) (a2 : Memref sig .tc .vmem S1x64 .f32) (w2 : a2.IsWhole) (a3 : Memref sig .tc .vmem S1x64 .f32) (w3 : a3.IsWhole) (a4 : Memref sig .tc .vmem S1x64 .f32) (w4 : a4.IsWhole) (a5 : Memref sig .tc .vmem S1x64 .f32) (w5 : a5.IsWhole) (a6 : Memref sig .tc .vmem S64x64 .f32) (w6 : a6.IsWhole) (a7 : Memref sig .tc .vmem S1x64 .f32) (w7 : a7.IsWhole) (a8 : Memref sig .tc .vmem S8000x64 .f32) (w8 : a8.IsWhole) (a9 : Memref sig .tc .vmem S1x64 .f32) (w9 : a9.IsWhole) (a10 : Memref sig .tc .vmem S1x64 .f32) (w10 : a10.IsWhole) (hc : cond1_0 i) (x0 : Vec F S8000x64 .f32) (x1 x2 x3 x4 : Vec F S1x64 .f32) (x5 : Vec F S64x64 .f32) (x6 : Vec F S1x64 .f32) :
    out1_A_8 c i a1 w1 a2 w2 a3 w3 a4 w4 a5 w5 a6 w6 a7 w7 a8 w8 a9 w9 a10 w10 hc x0 x1 x2 x3 x4 x5 x6 = k1_pay1 (k1_pay5 x0 x1 x2 x3 x4 x5 x6) (k1_pay3 (F := F)) := by
  unfold out1_A_8
  rw [View.read_writes_eq_canon _ _ _ (cover1_A_8 c i a1 w1 a2 w2 a3 w3 a4 w4 a5 w5 a6 w6 a7 w7 a8 w8 a9 w9 a10 w10 hc x0 x1 x2 x3 x4 x5 x6)]
  unfold kernelRun1_A
  dsimp only
  sl_unfold_words
  rw [View.canon_cons_unit_zero (S := S1x64) hz, View.readCov_unit_zero (S := S1x64) _ hz]
  simp only [View.readAt_eq_ld, w1.read_unread, w2.read_unread, w3.read_unread, w4.read_unread, w5.read_unread, w6.read_unread, w7.read_unread, View.ld_unit_zero (S := S8000x64) hz, View.ld_unit_zero (S := S1x64) hz, View.ld_unit_zero (S := S64x64) hz]

/-- The first point clears the second accumulator, reads the zero row back and adds the block's column sums of squares. -/
theorem piece_A_sumsq (c : Dev nD) (i : grid1.Coords) (a1 : Memref sig .tc .vmem S8000x64 .f32) (w1 : a1.IsWhole) (a2 : Memref sig .tc .vmem S1x64 .f32) (w2 : a2.IsWhole) (a3 : Memref sig .tc .vmem S1x64 .f32) (w3 : a3.IsWhole) (a4 : Memref sig .tc .vmem S1x64 .f32) (w4 : a4.IsWhole) (a5 : Memref sig .tc .vmem S1x64 .f32) (w5 : a5.IsWhole) (a6 : Memref sig .tc .vmem S64x64 .f32) (w6 : a6.IsWhole) (a7 : Memref sig .tc .vmem S1x64 .f32) (w7 : a7.IsWhole) (a8 : Memref sig .tc .vmem S8000x64 .f32) (w8 : a8.IsWhole) (a9 : Memref sig .tc .vmem S1x64 .f32) (w9 : a9.IsWhole) (a10 : Memref sig .tc .vmem S1x64 .f32) (w10 : a10.IsWhole) (hc : cond1_0 i) (x0 : Vec F S8000x64 .f32) (x1 x2 x3 x4 : Vec F S1x64 .f32) (x5 : Vec F S64x64 .f32) (x6 : Vec F S1x64 .f32) :
    out1_A_9 c i a1 w1 a2 w2 a3 w3 a4 w4 a5 w5 a6 w6 a7 w7 a8 w8 a9 w9 a10 w10 hc x0 x1 x2 x3 x4 x5 x6 = k1_pay2 (k1_pay5 x0 x1 x2 x3 x4 x5 x6) (k1_pay4 (F := F)) := by
  unfold out1_A_9
  rw [View.read_writes_eq_canon _ _ _ (cover1_A_9 c i a1 w1 a2 w2 a3 w3 a4 w4 a5 w5 a6 w6 a7 w7 a8 w8 a9 w9 a10 w10 hc x0 x1 x2 x3 x4 x5 x6)]
  unfold kernelRun1_A
  dsimp only
  sl_unfold_words
  rw [View.canon_cons_unit_zero (S := S1x64) hz, View.readCov_unit_zero (S := S1x64) _ hz]
  simp only [View.readAt_eq_ld, w1.read_unread, w2.read_unread, w3.read_unread, w4.read_unread, w5.read_unread, w6.read_unread, w7.read_unread, View.ld_unit_zero (S := S8000x64) hz, View.ld_unit_zero (S := S1x64) hz, View.ld_unit_zero (S := S64x64) hz]

end Pieces

/-! ## The body's arithmetic, entry by entry, on the extended reals -/

section Payloads

/-- A one-row array spread over the block's rows reads, in every row, its own column. -/
theorem spread_apply (v : FVec Ideal S1x64 .f32) (p : Fin 8000) (k : Fin 64) :
    broadcastTo S8000x64 v broadcasts_S1x64_S8000x64 (ix2 p k) = v (ix2 0 k) :=
  broadcastTo_1b_ab_apply v broadcasts_S1x64_S8000x64 p k

/-- The product's left operand at (row, contraction index): the output's row. -/
theorem lhs_row (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- Its column: the contraction coordinate. -/
theorem lhs_col (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- The right operand's row: the contraction coordinate. -/
theorem rhs_row (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- Its column: the output's column. -/
theorem rhs_col (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The block product into a zero accumulator, at (p, f): row p of the left against column f of the right. -/
theorem product_apply (L : FVec Ideal S8000x64 .bf16) (R : FVec Ideal S64x64 .bf16) (p : Fin 8000) (f : Fin 64) :
    FloatOps.matmul dot_S8000x64_S64x64_S8000x64_1_0_0_1_n_n none L R (constant S8000x64 .f32 0x00000000#32) (ix2 p f)
      = ∑ k : Fin 64, L (ix2 p k) * R (ix2 k f) := by
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p f) ((contrEquiv1 dot_S8000x64_S64x64_S8000x64_1_0_0_1_n_n 64 rfl rfl).symm k) = ix2 p k := funext fun a => Fin.ext (by
    match a with
    | ⟨0, _⟩ => exact lhs_row _ _
    | ⟨1, _⟩ => exact (lhs_col _ _).trans hk)
  have er : dot_S8000x64_S64x64_S8000x64_1_0_0_1_n_n.rhsIdx (ix2 p f) ((contrEquiv1 dot_S8000x64_S64x64_S8000x64_1_0_0_1_n_n 64 rfl rfl).symm k) = ix2 k f := funext fun a => Fin.ext (by
    match a with
    | ⟨0, _⟩ => exact (rhs_row _ _).trans hk
    | ⟨1, _⟩ => exact rhs_col _ _)
  rw [el, er]

/-- The block's rows normalised, as the body forms them before the product. -/
def normBlk (x0 : FVec Ideal S8000x64 .f32) (x1 x2 x3 x4 : FVec Ideal S1x64 .f32) : FVec Ideal S8000x64 .f32 :=
  addf (mulf (subf (shapeCast S8000x64 x0 shapeCasts_S8000x64_S8000x64)
        (broadcastTo S8000x64 (shapeCast S1x64 x1 shapeCasts_S1x64_S1x64) broadcasts_S1x64_S8000x64))
      (broadcastTo S8000x64 (mulf (shapeCast S1x64 x3 shapeCasts_S1x64_S1x64)
        (rsqrt (addf (shapeCast S1x64 x2 shapeCasts_S1x64_S1x64) (broadcast S1x64 (Scalar.ofBits .f32 0x3727C5AC#32)))))
        broadcasts_S1x64_S8000x64))
    (broadcastTo S8000x64 (shapeCast S1x64 x4 shapeCasts_S1x64_S1x64) broadcasts_S1x64_S8000x64)

/-- Entry (p, k) of the normalised block is the normalised row p at k. -/
theorem normBlk_apply (x0 : FVec Ideal S8000x64 .f32) (x1 x2 x3 x4 : FVec Ideal S1x64 .f32) (p : Fin 8000) (k : Fin 64) :
    normBlk x0 x1 x2 x3 x4 (ix2 p k) = normRowK (cur x0 p) (cur x1 0) (cur x2 0) (cur x3 0) (cur x4 0) k := by
  unfold normBlk
  simp only [shapeCast_self]
  show (x0 (ix2 p k) - broadcastTo S8000x64 x1 broadcasts_S1x64_S8000x64 (ix2 p k))
      * broadcastTo S8000x64 (mulf x3 (rsqrt (addf x2 (broadcast S1x64 (Scalar.ofBits .f32 0x3727C5AC#32)))))
          broadcasts_S1x64_S8000x64 (ix2 p k)
      + broadcastTo S8000x64 x4 broadcasts_S1x64_S8000x64 (ix2 p k) = _
  rw [spread_apply, spread_apply, spread_apply]
  rfl

/-- The body's row payload is: the normalised block times the weights, plus the bias row, rectified. -/
theorem pay_out_eq (x0 : FVec Ideal S8000x64 .f32) (x1 x2 x3 x4 : FVec Ideal S1x64 .f32) (x5 : FVec Ideal S64x64 .f32)
    (x6 : FVec Ideal S1x64 .f32) :
    k1_pay5 (F := Ideal) x0 x1 x2 x3 x4 x5 x6
      = maximumf (addf (matmul dot_S8000x64_S64x64_S8000x64_1_0_0_1_n_n none (truncf .bf16 (normBlk x0 x1 x2 x3 x4) bitsLt_bf16_f32)
            (truncf .bf16 x5 bitsLt_bf16_f32) (constant S8000x64 .f32 0x00000000#32))
          (broadcastTo S8000x64 (shapeCast S1x64 x6 shapeCasts_S1x64_S1x64) broadcasts_S1x64_S8000x64))
        (broadcast S8000x64 (Scalar.ofBits .f32 0x00000000#32)) := rfl

/-- Entry (p, f) of the body's row payload is the layer of row p at f. -/
theorem pay_out_apply (x0 : FVec Ideal S8000x64 .f32) (x1 x2 x3 x4 : FVec Ideal S1x64 .f32) (x5 : FVec Ideal S64x64 .f32)
    (x6 : FVec Ideal S1x64 .f32) (p : Fin 8000) (f : Fin 64) :
    k1_pay5 (F := Ideal) x0 x1 x2 x3 x4 x5 x6 (ix2 p f)
      = bnStageRowK (cur x0 p) (cur x1 0) (cur x2 0) (cur x3 0) (cur x4 0) (cur x5) (cur x6 0) f := by
  rw [pay_out_eq]
  show max (FloatOps.matmul dot_S8000x64_S64x64_S8000x64_1_0_0_1_n_n none (truncf .bf16 (normBlk x0 x1 x2 x3 x4) bitsLt_bf16_f32)
          (truncf .bf16 x5 bitsLt_bf16_f32) (constant S8000x64 .f32 0x00000000#32) (ix2 p f)
        + broadcastTo S8000x64 (shapeCast S1x64 x6 shapeCasts_S1x64_S1x64) broadcasts_S1x64_S8000x64 (ix2 p f))
      (Ideal.ofBits .f32 0x00000000#32) = _
  rw [product_apply, shapeCast_self, spread_apply, Ideal.ofBits_zero_f32]
  unfold bnStageRowK relu dotRow
  refine congrArg (fun s => max (s + x6 (ix2 0 f)) 0) (Finset.sum_congr rfl fun k _ => ?_)
  show normBlk x0 x1 x2 x3 x4 (ix2 p k) * x5 (ix2 k f) = _
  rw [normBlk_apply]

/-- The first accumulator's payload at column f: what it held plus the block's column sum. -/
theorem pay_sum_apply (y : FVec Ideal S8000x64 .f32) (acc : FVec Ideal S1x64 .f32) (f : Fin 64) :
    k1_pay1 (F := Ideal) y acc (ix2 0 f) = acc (ix2 0 f) + ∑ r : Fin 8000, y (ix2 r f) := by
  unfold k1_pay1
  show shapeCast S1x64 acc shapeCasts_S1x64_S1x64 (ix2 0 f)
      + shapeCast S1x64 (multiReduction .add [0] S64 y 0x00000000#32 reduces_S8000x64_S64 (.inl rfl) rfl)
          shapeCasts_S64_S1x64 (ix2 0 f) = _
  rw [shapeCast_self, shapeCast_a_1a_apply]
  refine congrArg (acc (ix2 0 f) + ·) ?_
  refine (Ideal.multiReduction_add_single y 0x00000000#32 reduces_S8000x64_S64 (.inl rfl) rfl (ix1 f)).trans ?_
  refine Finset.sum_congr rfl fun r _ => congrArg y (funext fun a => ?_)
  match a with
  | ⟨0, _⟩ => rfl
  | ⟨1, _⟩ => rfl

/-- The second accumulator's payload at column f: what it held plus the block's column sum of squares. -/
theorem pay_sumsq_apply (y : FVec Ideal S8000x64 .f32) (acc : FVec Ideal S1x64 .f32) (f : Fin 64) :
    k1_pay2 (F := Ideal) y acc (ix2 0 f) = acc (ix2 0 f) + ∑ r : Fin 8000, y (ix2 r f) * y (ix2 r f) := by
  unfold k1_pay2
  show shapeCast S1x64 acc shapeCasts_S1x64_S1x64 (ix2 0 f)
      + shapeCast S1x64 (multiReduction .add [0] S64 (mulf y y) 0x00000000#32 reduces_S8000x64_S64 (.inl rfl) rfl)
          shapeCasts_S64_S1x64 (ix2 0 f) = _
  rw [shapeCast_self, shapeCast_a_1a_apply]
  refine congrArg (acc (ix2 0 f) + ·) ?_
  refine (Ideal.multiReduction_add_single (mulf y y) 0x00000000#32 reduces_S8000x64_S64 (.inl rfl) rfl (ix1 f)).trans ?_
  refine Finset.sum_congr rfl fun r _ => ?_
  refine congrArg (fun j => y j * y j) (funext fun a => ?_)
  match a with
  | ⟨0, _⟩ => rfl
  | ⟨1, _⟩ => rfl

/-- The rows the first point stores into the two accumulators are zero. -/
theorem zero_sum_apply (j : S1x64.Idx) : k1_pay3 (F := Ideal) j = 0 := Ideal.ofBits_zero_f32
theorem zero_sumsq_apply (j : S1x64.Idx) : k1_pay4 (F := Ideal) j = 0 := Ideal.ofBits_zero_f32

end Payloads

/-! ## The blocks a point is handed -/

section Blocks

/-- Point t's row block is block t of the row array; every other window's block index never moves. -/
theorem idx_rows : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx_out : ∀ t : Fin cfg1.N, win1_7.index t (0 : Fin 2) = t.val ∧ win1_7.index t (1 : Fin 2) = 0 :=
  (by decide +kernel : ∀ t : Fin grid1.N, win1_7.index t (0 : Fin 2) = t.val ∧ win1_7.index t (1 : Fin 2) = 0)
theorem idx_fixedb : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx_fixedc : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx_fixedd : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx_fixede : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx_fixedf : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx_fixedg : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx_fixedi : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)
theorem idx_fixedj : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)

/-- The blocks point t is handed, at their literal types. -/
abbrev rowsBlk (c : Dev nD) (t : Fin cfg1.N) : FVec Ideal S8000x64 .f32 := iblk1 V c 0 t
abbrev meanBlk (c : Dev nD) (t : Fin cfg1.N) : FVec Ideal S1x64 .f32 := iblk1 V c 1 t
abbrev varBlk (c : Dev nD) (t : Fin cfg1.N) : FVec Ideal S1x64 .f32 := iblk1 V c 2 t
abbrev scaleBlk (c : Dev nD) (t : Fin cfg1.N) : FVec Ideal S1x64 .f32 := iblk1 V c 3 t
abbrev shiftBlk (c : Dev nD) (t : Fin cfg1.N) : FVec Ideal S1x64 .f32 := iblk1 V c 4 t
abbrev weightBlk (c : Dev nD) (t : Fin cfg1.N) : FVec Ideal S64x64 .f32 := iblk1 V c 5 t
abbrev biasBlk (c : Dev nD) (t : Fin cfg1.N) : FVec Ideal S1x64 .f32 := iblk1 V c 6 t

/-- Entry x of point t's row block is the row array's entry in row 8000 t + x₀. -/
theorem rowsBlk_apply (c : Dev nD) (t : Fin cfg1.N) (x : S8000x64.Idx) (k : S1000000x64.Idx)
    (hk0 : (k 0).val = 8000 * t.val + (x 0).val) (hk1 : (k 1).val = (x 1).val) :
    rowsBlk V c t x = (V c (Pipeline.arrRef spec1 0) : S1000000x64.Idx → EReal) k := by
  obtain ⟨e0, e1⟩ := idx_rows t
  show iblk1 V c 0 t x = _
  unfold iblk1
  rw [View.read_apply]
  show V c (Pipeline.arrRef spec1 0) _ = V c (Pipeline.arrRef spec1 0) _
  congr 1
  funext a
  apply Fin.ext
  match a with
  | ⟨0, _⟩ => show win1_0.index t 0 * 8000 + 1 * (x 0).val = (k 0).val; rw [e0, hk0]; omega
  | ⟨1, _⟩ => show win1_0.index t 1 * 64 + 1 * (x 1).val = (k 1).val; rw [e1, hk1]; omega

/-- Every point is handed the mean row whole. -/
theorem meanBlk_eq (c : Dev nD) (t : Fin cfg1.N) :
    meanBlk V c t = (V c (Pipeline.arrRef spec1 1) : S1x64.Idx → EReal) := by
  obtain ⟨e0, e1⟩ := idx_fixedb t
  funext x
  show iblk1 V c 1 t x = _
  unfold iblk1
  rw [View.read_apply]
  show V c (Pipeline.arrRef spec1 1) _ = V c (Pipeline.arrRef spec1 1) _
  congr 1
  funext a
  apply Fin.ext
  match a with
  | ⟨0, _⟩ => show win1_1.index t 0 * 1 + 1 * (x 0).val = (x 0).val; rw [e0]; omega
  | ⟨1, _⟩ => show win1_1.index t 1 * 64 + 1 * (x 1).val = (x 1).val; rw [e1]; omega

/-- Every point is handed the variance row whole. -/
theorem varBlk_eq (c : Dev nD) (t : Fin cfg1.N) :
    varBlk V c t = (V c (Pipeline.arrRef spec1 2) : S1x64.Idx → EReal) := by
  obtain ⟨e0, e1⟩ := idx_fixedc t
  funext x
  show iblk1 V c 2 t x = _
  unfold iblk1
  rw [View.read_apply]
  show V c (Pipeline.arrRef spec1 2) _ = V c (Pipeline.arrRef spec1 2) _
  congr 1
  funext a
  apply Fin.ext
  match a with
  | ⟨0, _⟩ => show win1_2.index t 0 * 1 + 1 * (x 0).val = (x 0).val; rw [e0]; omega
  | ⟨1, _⟩ => show win1_2.index t 1 * 64 + 1 * (x 1).val = (x 1).val; rw [e1]; omega

/-- Every point is handed the scale row whole. -/
theorem scaleBlk_eq (c : Dev nD) (t : Fin cfg1.N) :
    scaleBlk V c t = (V c (Pipeline.arrRef spec1 3) : S1x64.Idx → EReal) := by
  obtain ⟨e0, e1⟩ := idx_fixedd t
  funext x
  show iblk1 V c 3 t x = _
  unfold iblk1
  rw [View.read_apply]
  show V c (Pipeline.arrRef spec1 3) _ = V c (Pipeline.arrRef spec1 3) _
  congr 1
  funext a
  apply Fin.ext
  match a with
  | ⟨0, _⟩ => show win1_3.index t 0 * 1 + 1 * (x 0).val = (x 0).val; rw [e0]; omega
  | ⟨1, _⟩ => show win1_3.index t 1 * 64 + 1 * (x 1).val = (x 1).val; rw [e1]; omega

/-- Every point is handed the shift row whole. -/
theorem shiftBlk_eq (c : Dev nD) (t : Fin cfg1.N) :
    shiftBlk V c t = (V c (Pipeline.arrRef spec1 4) : S1x64.Idx → EReal) := by
  obtain ⟨e0, e1⟩ := idx_fixede t
  funext x
  show iblk1 V c 4 t x = _
  unfold iblk1
  rw [View.read_apply]
  show V c (Pipeline.arrRef spec1 4) _ = V c (Pipeline.arrRef spec1 4) _
  congr 1
  funext a
  apply Fin.ext
  match a with
  | ⟨0, _⟩ => show win1_4.index t 0 * 1 + 1 * (x 0).val = (x 0).val; rw [e0]; omega
  | ⟨1, _⟩ => show win1_4.index t 1 * 64 + 1 * (x 1).val = (x 1).val; rw [e1]; omega

/-- Every point is handed the weight matrix whole. -/
theorem weightBlk_eq (c : Dev nD) (t : Fin cfg1.N) :
    weightBlk V c t = (V c (Pipeline.arrRef spec1 5) : S64x64.Idx → EReal) := by
  obtain ⟨e0, e1⟩ := idx_fixedf t
  funext x
  show iblk1 V c 5 t x = _
  unfold iblk1
  rw [View.read_apply]
  show V c (Pipeline.arrRef spec1 5) _ = V c (Pipeline.arrRef spec1 5) _
  congr 1
  funext a
  apply Fin.ext
  match a with
  | ⟨0, _⟩ => show win1_5.index t 0 * 64 + 1 * (x 0).val = (x 0).val; rw [e0]; omega
  | ⟨1, _⟩ => show win1_5.index t 1 * 64 + 1 * (x 1).val = (x 1).val; rw [e1]; omega

/-- Every point is handed the bias row whole. -/
theorem biasBlk_eq (c : Dev nD) (t : Fin cfg1.N) :
    biasBlk V c t = (V c (Pipeline.arrRef spec1 6) : S1x64.Idx → EReal) := by
  obtain ⟨e0, e1⟩ := idx_fixedg t
  funext x
  show iblk1 V c 6 t x = _
  unfold iblk1
  rw [View.read_apply]
  show V c (Pipeline.arrRef spec1 6) _ = V c (Pipeline.arrRef spec1 6) _
  congr 1
  funext a
  apply Fin.ext
  match a with
  | ⟨0, _⟩ => show win1_6.index t 0 * 1 + 1 * (x 0).val = (x 0).val; rw [e0]; omega
  | ⟨1, _⟩ => show win1_6.index t 1 * 64 + 1 * (x 1).val = (x 1).val; rw [e1]; omega

/-- The body's row payload on point t's blocks, at (p, f), is the layer of row 8000 t + p at f. -/
theorem out_entry (c : Dev nD) (t : Fin cfg1.N) (p : Fin 8000) (f : Fin 64) (e : Fin nE)
    (he : e.val = 8000 * t.val + p.val) :
    k1_pay5 (F := Ideal) (rowsBlk V c t) (meanBlk V c t) (varBlk V c t) (scaleBlk V c t) (shiftBlk V c t) (weightBlk V c t) (biasBlk V c t) (ix2 p f) = h2Of V c e f := by
  refine (pay_out_apply (rowsBlk V c t) (meanBlk V c t) (varBlk V c t) (scaleBlk V c t) (shiftBlk V c t) (weightBlk V c t) (biasBlk V c t) p f).trans ?_
  unfold h2Of
  rw [meanBlk_eq, varBlk_eq, scaleBlk_eq, shiftBlk_eq, weightBlk_eq, biasBlk_eq]
  refine congrArg (fun r => bnStageRowK r _ _ _ _ _ _ f) (funext fun k => ?_)
  exact rowsBlk_apply V c t (ix2 p k) (ix2 e k) he rfl

end Blocks

/-! ## What the three buffers hold after each point -/

section Run

/-- After any point the row buffer holds the layer of the block the point was handed. -/
theorem out_at (c : Dev nD) (t : Fin cfg1.N) :
    (outsAt1 V c t.val t.isLt).1 = k1_pay5 (F := Ideal) (rowsBlk V c t) (meanBlk V c t) (varBlk V c t) (scaleBlk V c t) (shiftBlk V c t) (weightBlk V c t) (biasBlk V c t) := by
  by_cases h0 : t.val % 125 = 0
  · rw [outsAt1_A V c t h0]
    dsimp only
    exact piece_A_out (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t)
      ((hcond1_0 t).mpr h0) (rowsBlk V c t) (meanBlk V c t) (varBlk V c t) (scaleBlk V c t) (shiftBlk V c t) (weightBlk V c t) (biasBlk V c t)
  · rw [outsAt1_B V c t h0]
    dsimp only
    exact piece_B_out (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t)
      (fun hh => h0 ((hcond1_0 t).mp hh)) (rowsBlk V c t) (meanBlk V c t) (varBlk V c t) (scaleBlk V c t) (shiftBlk V c t) (weightBlk V c t) (biasBlk V c t)
      (outsAt1 V c (t.val - 1) (Nat.lt_of_le_of_lt (Nat.sub_le _ _) t.isLt)).2.1 (outsAt1 V c (t.val - 1) (Nat.lt_of_le_of_lt (Nat.sub_le _ _) t.isLt)).2.2

/-- Row n of the layer at column f; zero past the last row. -/
def rowAt (c : Dev nD) (n : ℕ) (f : Fin 64) : EReal := if h : n < nE then h2Of V c ⟨n, h⟩ f else 0

/-- Block s's column sum, and its column sum of squares: over rows 8000 s … 8000 s + 7999. -/
def blkSum (c : Dev nD) (s : ℕ) (f : Fin 64) : EReal := ∑ r : Fin 8000, rowAt V c (8000 * s + r.val) f
def blkSumSq (c : Dev nD) (s : ℕ) (f : Fin 64) : EReal :=
  ∑ r : Fin 8000, rowAt V c (8000 * s + r.val) f * rowAt V c (8000 * s + r.val) f

/-- The column sums of the body's row payload on point t's blocks are block t's. -/
theorem blk_sum_eq (c : Dev nD) (t : Fin cfg1.N) (f : Fin 64) :
    ∑ r : Fin 8000, k1_pay5 (F := Ideal) (rowsBlk V c t) (meanBlk V c t) (varBlk V c t) (scaleBlk V c t) (shiftBlk V c t) (weightBlk V c t) (biasBlk V c t) (ix2 r f) = blkSum V c t.val f := by
  have hN : t.val < 125 := lt_of_lt_of_eq t.isLt N_1
  unfold blkSum
  refine Finset.sum_congr rfl fun r _ => ?_
  have hr : 8000 * t.val + r.val < nE := by have := r.isLt; show _ < 1000000; omega
  rw [rowAt, dif_pos hr]
  exact out_entry V c t r f ⟨_, hr⟩ rfl

theorem blk_sumsq_eq (c : Dev nD) (t : Fin cfg1.N) (f : Fin 64) :
    ∑ r : Fin 8000, k1_pay5 (F := Ideal) (rowsBlk V c t) (meanBlk V c t) (varBlk V c t) (scaleBlk V c t) (shiftBlk V c t) (weightBlk V c t) (biasBlk V c t) (ix2 r f)
        * k1_pay5 (F := Ideal) (rowsBlk V c t) (meanBlk V c t) (varBlk V c t) (scaleBlk V c t) (shiftBlk V c t) (weightBlk V c t) (biasBlk V c t) (ix2 r f) = blkSumSq V c t.val f := by
  have hN : t.val < 125 := lt_of_lt_of_eq t.isLt N_1
  unfold blkSumSq
  refine Finset.sum_congr rfl fun r _ => ?_
  have hr : 8000 * t.val + r.val < nE := by have := r.isLt; show _ < 1000000; omega
  rw [rowAt, dif_pos hr, out_entry V c t r f ⟨_, hr⟩ rfl]

/-- After point n the first accumulator holds the column sums of blocks 0 … n: zero plus block 0's at the first point, one more block's at each later one. -/
theorem acc_sum (c : Dev nD) : ∀ (n : ℕ) (h : n < cfg1.N) (f : Fin 64),
    (outsAt1 V c n h).2.1 (ix2 0 f) = ∑ s ∈ Finset.range (n + 1), blkSum V c s f
  | 0, h, f => by
    rw [outsAt1_A V c ⟨0, h⟩ rfl]
    dsimp only
    refine (congrFun (piece_A_sum (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩)
      ((hcond1_0 ⟨0, h⟩).mpr rfl) (rowsBlk V c ⟨0, h⟩) (meanBlk V c ⟨0, h⟩) (varBlk V c ⟨0, h⟩) (scaleBlk V c ⟨0, h⟩) (shiftBlk V c ⟨0, h⟩) (weightBlk V c ⟨0, h⟩) (biasBlk V c ⟨0, h⟩)) (ix2 0 f)).trans ?_
    refine (pay_sum_apply (k1_pay5 (F := Ideal) (rowsBlk V c ⟨0, h⟩) (meanBlk V c ⟨0, h⟩) (varBlk V c ⟨0, h⟩) (scaleBlk V c ⟨0, h⟩) (shiftBlk V c ⟨0, h⟩) (weightBlk V c ⟨0, h⟩) (biasBlk V c ⟨0, h⟩)) _ f).trans ?_
    rw [zero_sum_apply, zero_add, Finset.sum_range_one]
    exact blk_sum_eq V c ⟨0, h⟩ f
  | n + 1, h, f => by
    have hN : n + 1 < 125 := lt_of_lt_of_eq h N_1
    have hB : ¬(⟨n + 1, h⟩ : Fin cfg1.N).val % 125 = 0 := by dsimp only; omega
    rw [outsAt1_B V c ⟨n + 1, h⟩ hB]
    dsimp only
    refine (congrFun (piece_B_sum (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩)
      (fun hh => hB ((hcond1_0 ⟨n + 1, h⟩).mp hh)) (rowsBlk V c ⟨n + 1, h⟩) (meanBlk V c ⟨n + 1, h⟩) (varBlk V c ⟨n + 1, h⟩) (scaleBlk V c ⟨n + 1, h⟩) (shiftBlk V c ⟨n + 1, h⟩) (weightBlk V c ⟨n + 1, h⟩) (biasBlk V c ⟨n + 1, h⟩)
      (outsAt1 V c n (Nat.lt_of_succ_lt h)).2.1 (outsAt1 V c n (Nat.lt_of_succ_lt h)).2.2) (ix2 0 f)).trans ?_
    refine (pay_sum_apply (k1_pay5 (F := Ideal) (rowsBlk V c ⟨n + 1, h⟩) (meanBlk V c ⟨n + 1, h⟩) (varBlk V c ⟨n + 1, h⟩) (scaleBlk V c ⟨n + 1, h⟩) (shiftBlk V c ⟨n + 1, h⟩) (weightBlk V c ⟨n + 1, h⟩) (biasBlk V c ⟨n + 1, h⟩)) _ f).trans ?_
    rw [Finset.sum_range_succ _ (n + 1)]
    exact congrArg₂ (· + ·) (acc_sum c n (Nat.lt_of_succ_lt h) f) (blk_sum_eq V c ⟨n + 1, h⟩ f)

/-- After point n the second accumulator holds the column sums of squares of blocks 0 … n. -/
theorem acc_sumsq (c : Dev nD) : ∀ (n : ℕ) (h : n < cfg1.N) (f : Fin 64),
    (outsAt1 V c n h).2.2 (ix2 0 f) = ∑ s ∈ Finset.range (n + 1), blkSumSq V c s f
  | 0, h, f => by
    rw [outsAt1_A V c ⟨0, h⟩ rfl]
    dsimp only
    refine (congrFun (piece_A_sumsq (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩)
      ((hcond1_0 ⟨0, h⟩).mpr rfl) (rowsBlk V c ⟨0, h⟩) (meanBlk V c ⟨0, h⟩) (varBlk V c ⟨0, h⟩) (scaleBlk V c ⟨0, h⟩) (shiftBlk V c ⟨0, h⟩) (weightBlk V c ⟨0, h⟩) (biasBlk V c ⟨0, h⟩)) (ix2 0 f)).trans ?_
    refine (pay_sumsq_apply (k1_pay5 (F := Ideal) (rowsBlk V c ⟨0, h⟩) (meanBlk V c ⟨0, h⟩) (varBlk V c ⟨0, h⟩) (scaleBlk V c ⟨0, h⟩) (shiftBlk V c ⟨0, h⟩) (weightBlk V c ⟨0, h⟩) (biasBlk V c ⟨0, h⟩)) _ f).trans ?_
    rw [zero_sumsq_apply, zero_add, Finset.sum_range_one]
    exact blk_sumsq_eq V c ⟨0, h⟩ f
  | n + 1, h, f => by
    have hN : n + 1 < 125 := lt_of_lt_of_eq h N_1
    have hB : ¬(⟨n + 1, h⟩ : Fin cfg1.N).val % 125 = 0 := by dsimp only; omega
    rw [outsAt1_B V c ⟨n + 1, h⟩ hB]
    dsimp only
    refine (congrFun (piece_B_sumsq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩)
      (fun hh => hB ((hcond1_0 ⟨n + 1, h⟩).mp hh)) (rowsBlk V c ⟨n + 1, h⟩) (meanBlk V c ⟨n + 1, h⟩) (varBlk V c ⟨n + 1, h⟩) (scaleBlk V c ⟨n + 1, h⟩) (shiftBlk V c ⟨n + 1, h⟩) (weightBlk V c ⟨n + 1, h⟩) (biasBlk V c ⟨n + 1, h⟩)
      (outsAt1 V c n (Nat.lt_of_succ_lt h)).2.1 (outsAt1 V c n (Nat.lt_of_succ_lt h)).2.2) (ix2 0 f)).trans ?_
    refine (pay_sumsq_apply (k1_pay5 (F := Ideal) (rowsBlk V c ⟨n + 1, h⟩) (meanBlk V c ⟨n + 1, h⟩) (varBlk V c ⟨n + 1, h⟩) (scaleBlk V c ⟨n + 1, h⟩) (shiftBlk V c ⟨n + 1, h⟩) (weightBlk V c ⟨n + 1, h⟩) (biasBlk V c ⟨n + 1, h⟩)) _ f).trans ?_
    rw [Finset.sum_range_succ _ (n + 1)]
    exact congrArg₂ (· + ·) (acc_sumsq c n (Nat.lt_of_succ_lt h) f) (blk_sumsq_eq V c ⟨n + 1, h⟩ f)

end Run

/-! ## From the blocks to the arrays -/

section Final

/-- N blocks of B consecutive terms are the first N B terms. -/
theorem sum_range_blocks (g : ℕ → EReal) (B : ℕ) : ∀ N : ℕ,
    ∑ s ∈ Finset.range N, ∑ r ∈ Finset.range B, g (B * s + r) = ∑ e ∈ Finset.range (N * B), g e
  | 0 => by rw [Nat.zero_mul, Finset.sum_range_zero, Finset.sum_range_zero]
  | N + 1 => by
    rw [Finset.sum_range_succ, sum_range_blocks g B N, Nat.add_mul, Nat.one_mul, Finset.sum_range_add,
      Nat.mul_comm B N]

/-- 125 blocks of 8000 rows are the 1,000,000 rows. -/
theorem blocks_total (g : ℕ → EReal) :
    ∑ s ∈ Finset.range 125, ∑ r : Fin 8000, g (8000 * s + r.val) = ∑ e : Fin nE, g e.val := by
  have e1 : ∀ s, ∑ r : Fin 8000, g (8000 * s + r.val) = ∑ r ∈ Finset.range 8000, g (8000 * s + r) :=
    fun s => (Finset.sum_range fun r => g (8000 * s + r)).symm
  rw [Finset.sum_congr rfl fun s _ => e1 s, sum_range_blocks g 8000 125, show 125 * 8000 = nE from by norm_num,
    Finset.sum_range]

/-- The blocks' column sums add up to the column sums of all the rows. -/
theorem sum_total (c : Dev nD) (f : Fin 64) :
    ∑ s ∈ Finset.range 125, blkSum V c s f = colSum (h2Of V c) f := by
  unfold blkSum colSum
  refine (blocks_total fun n => rowAt V c n f).trans ?_
  refine Finset.sum_congr rfl fun e _ => ?_
  show rowAt V c e.val f = _
  rw [rowAt, dif_pos e.isLt]

/-- The blocks' column sums of squares add up to the column sums of squares of all the rows. -/
theorem sumsq_total (c : Dev nD) (f : Fin 64) :
    ∑ s ∈ Finset.range 125, blkSumSq V c s f = colSumSq (h2Of V c) f := by
  unfold blkSumSq colSumSq
  refine (blocks_total fun n => rowAt V c n f * rowAt V c n f).trans ?_
  refine Finset.sum_congr rfl fun e _ => ?_
  show rowAt V c e.val f * rowAt V c e.val f = _
  rw [rowAt, dif_pos e.isLt]

/-- The row payload on point t's blocks at a block index, as the layer at the array index it is written to. -/
theorem out_entry_idx (c : Dev nD) (t : Fin cfg1.N) (j : S8000x64.Idx) (i : S1000000x64.Idx)
    (h0 : (i 0).val = 8000 * t.val + (j 0).val) (h1 : (i 1).val = (j 1).val) :
    k1_pay5 (F := Ideal) (rowsBlk V c t) (meanBlk V c t) (varBlk V c t) (scaleBlk V c t) (shiftBlk V c t) (weightBlk V c t) (biasBlk V c t) j = h2Of V c (i 0) (i 1) := by
  obtain ⟨p, f, rfl⟩ : ∃ (p : Fin 8000) (f : Fin 64), j = ix2 p f := ⟨j 0, j 1, eq_ix2 j⟩
  have hf : i 1 = f := Fin.ext h1
  exact (out_entry V c t p f (i 0) h0).trans (congrArg (h2Of V c (i 0)) hf.symm)

/-- An index of the row array is in point t's block iff each coordinate is in the block's range. -/
theorem mem_blk_out (t : Fin cfg1.N) (i : S1000000x64.Idx) :
    i ∈ ((cfg1.win 7).blk t).view.set ↔ ∀ a : Fin 2, win1_7.index t a * S8000x64.size a ≤ (i a).val
      ∧ (i a).val < win1_7.index t a * S8000x64.size a + S8000x64.size a := by
  show i ∈ ((View.whole (Pipeline.arrRef spec1 7)).slice (win1_7.rect t)).set ↔ _
  rw [View.set_slice_whole, Rect.mem_set_unit]
  exact Iff.rfl

/-- What point t writes back to the row array is block t of the layer. -/
theorem flushed_out (c : Dev nD) (t : Fin cfg1.N) :
    (dat1 V c).flushed 7 t
      = ((cfg1.win 7).blk t).view.read (Elt Ideal) (fun i : S1000000x64.Idx => h2Of V c (i 0) (i 1)) := by
  obtain ⟨e0, e1⟩ := idx_out t
  show (cfg1.win 7).cut (grid1.coords t) ((dat1 V c).after 7 t) = _
  rw [after1_7, out_at]
  funext j
  show k1_pay5 (F := Ideal) (rowsBlk V c t) (meanBlk V c t) (varBlk V c t) (scaleBlk V c t) (shiftBlk V c t) (weightBlk V c t) (biasBlk V c t) j
    = h2Of V c ((((cfg1.win 7).blk t).view.emb j) 0) ((((cfg1.win 7).blk t).view.emb j) 1)
  have h0 : ((((cfg1.win 7).blk t).view.emb j) 0).val = 8000 * t.val + (j 0).val := by
    show win1_7.index t 0 * 8000 + 1 * (j 0).val = _
    rw [e0]; omega
  have h1 : ((((cfg1.win 7).blk t).view.emb j) 1).val = (j 1).val := by
    show win1_7.index t 1 * 64 + 1 * (j 1).val = _
    rw [e1]; omega
  exact out_entry_idx V c t j _ h0 h1

/-- Row r lies in the block of point r / 8000. -/
theorem cover_out (i : S1000000x64.Idx) :
    ∃ t : Fin cfg1.N, (cfg1.win 7).flush t = true ∧ i ∈ ((cfg1.win 7).blk t).view.set := by
  have hi0 : (i 0).val < 1000000 := idx2_lt0 i
  have hi1 : (i 1).val < 64 := idx2_lt1 i
  have hq : (i 0).val / 8000 < cfg1.N := by rw [show cfg1.N = 125 from N_1]; omega
  obtain ⟨e0, e1⟩ := idx_out ⟨(i 0).val / 8000, hq⟩
  have e0' : win1_7.index ⟨(i 0).val / 8000, hq⟩ 0 = (i 0).val / 8000 := e0
  refine ⟨⟨(i 0).val / 8000, hq⟩, flush1_7 _, ?_⟩
  rw [mem_blk_out]
  intro a
  match a with
  | ⟨0, _⟩ =>
    show win1_7.index _ 0 * 8000 ≤ (i 0).val ∧ (i 0).val < win1_7.index _ 0 * 8000 + 8000
    rw [e0']; omega
  | ⟨1, _⟩ =>
    show win1_7.index _ 1 * 64 ≤ (i 1).val ∧ (i 1).val < win1_7.index _ 1 * 64 + 64
    rw [e1]; omega

/-- At the last point the first accumulator holds the column sums of all the rows. -/
theorem acc_sum_final (c : Dev nD) (t : Fin cfg1.N) (ht : t.val = 124) (j : S1x64.Idx) (f : Fin 64)
    (hf : f.val = (j 1).val) : (outsAt1 V c t.val t.isLt).2.1 j = colSum (h2Of V c) f := by
  obtain ⟨u, g, rfl⟩ : ∃ (u : Fin 1) (g : Fin 64), j = ix2 u g := ⟨j 0, j 1, eq_ix2 j⟩
  obtain rfl : u = 0 := Subsingleton.elim _ _
  obtain rfl : f = g := Fin.ext hf
  have hlast : t.val + 1 = 125 := by omega
  rw [acc_sum V c t.val t.isLt f, hlast]
  exact sum_total V c f

/-- An index of the one-row array is in point t's block iff each coordinate is in the block's range. -/
theorem mem_blk_acc_sum (t : Fin cfg1.N) (i : S1x64.Idx) :
    i ∈ ((cfg1.win 8).blk t).view.set ↔ ∀ a : Fin 2, win1_8.index t a * S1x64.size a ≤ (i a).val
      ∧ (i a).val < win1_8.index t a * S1x64.size a + S1x64.size a := by
  show i ∈ ((View.whole (Pipeline.arrRef spec1 8)).slice (win1_8.rect t)).set ↔ _
  rw [View.set_slice_whole, Rect.mem_set_unit]
  exact Iff.rfl

/-- What a point writes back of the first accumulator is the block, through the window, of any row that the buffer holds
    entry by entry: the block is the whole one-row array. -/
theorem flushed_acc_sum_of (c : Dev nD) (t : Fin cfg1.N) (G : Fin 64 → EReal)
    (hG : ∀ (j : S1x64.Idx) (f : Fin 64), f.val = (j 1).val → (outsAt1 V c t.val t.isLt).2.1 j = G f) :
    (dat1 V c).flushed 8 t = ((cfg1.win 8).blk t).view.read (Elt Ideal) (fun i : S1x64.Idx => G (i 1)) := by
  obtain ⟨e0, e1⟩ := idx_fixedi t
  show (cfg1.win 8).cut (grid1.coords t) ((dat1 V c).after 8 t) = _
  rw [after1_8]
  funext j
  show (outsAt1 V c t.val t.isLt).2.1 j = G ((((cfg1.win 8).blk t).view.emb j) 1)
  refine hG j _ ?_
  show win1_8.index t 1 * 64 + 1 * (j 1).val = _
  rw [e1]; omega

/-- The one write-back of the first accumulator, after the last point, writes the column sums. -/
theorem flushed_acc_sum (c : Dev nD) (t : Fin cfg1.N) (hf : (cfg1.win 8).flush t = true) :
    (dat1 V c).flushed 8 t
      = ((cfg1.win 8).blk t).view.read (Elt Ideal) (fun i : S1x64.Idx => colSum (h2Of V c) (i 1)) := by
  have hN : t.val < 125 := lt_of_lt_of_eq t.isLt N_1
  have ht : t.val = 124 := by have := (flush1_8 t).mp hf; omega
  exact flushed_acc_sum_of V c t (colSum (h2Of V c)) fun j f hjf => acc_sum_final V c t ht j f hjf

/-- The last point's block covers the one-row array. -/
theorem cover_acc_sum (i : S1x64.Idx) :
    ∃ t : Fin cfg1.N, (cfg1.win 8).flush t = true ∧ i ∈ ((cfg1.win 8).blk t).view.set := by
  have hi0 : (i 0).val < 1 := idx2_lt0 i
  have hi1 : (i 1).val < 64 := idx2_lt1 i
  have hq : 124 < cfg1.N := by rw [show cfg1.N = 125 from N_1]; decide
  obtain ⟨e0, e1⟩ := idx_fixedi ⟨124, hq⟩
  refine ⟨⟨124, hq⟩, (flush1_8 _).mpr rfl, ?_⟩
  rw [mem_blk_acc_sum]
  intro a
  match a with
  | ⟨0, _⟩ =>
    show win1_8.index _ 0 * 1 ≤ (i 0).val ∧ (i 0).val < win1_8.index _ 0 * 1 + 1
    rw [e0]; omega
  | ⟨1, _⟩ =>
    show win1_8.index _ 1 * 64 ≤ (i 1).val ∧ (i 1).val < win1_8.index _ 1 * 64 + 64
    rw [e1]; omega

/-- At the last point the second accumulator holds the column sums of squares of all the rows. -/
theorem acc_sumsq_final (c : Dev nD) (t : Fin cfg1.N) (ht : t.val = 124) (j : S1x64.Idx) (f : Fin 64)
    (hf : f.val = (j 1).val) : (outsAt1 V c t.val t.isLt).2.2 j = colSumSq (h2Of V c) f := by
  obtain ⟨u, g, rfl⟩ : ∃ (u : Fin 1) (g : Fin 64), j = ix2 u g := ⟨j 0, j 1, eq_ix2 j⟩
  obtain rfl : u = 0 := Subsingleton.elim _ _
  obtain rfl : f = g := Fin.ext hf
  have hlast : t.val + 1 = 125 := by omega
  rw [acc_sumsq V c t.val t.isLt f, hlast]
  exact sumsq_total V c f

/-- An index of the one-row array is in point t's block iff each coordinate is in the block's range. -/
theorem mem_blk_acc_sumsq (t : Fin cfg1.N) (i : S1x64.Idx) :
    i ∈ ((cfg1.win 9).blk t).view.set ↔ ∀ a : Fin 2, win1_9.index t a * S1x64.size a ≤ (i a).val
      ∧ (i a).val < win1_9.index t a * S1x64.size a + S1x64.size a := by
  show i ∈ ((View.whole (Pipeline.arrRef spec1 9)).slice (win1_9.rect t)).set ↔ _
  rw [View.set_slice_whole, Rect.mem_set_unit]
  exact Iff.rfl

/-- What a point writes back of the second accumulator is the block, through the window, of any row that the buffer holds
    entry by entry: the block is the whole one-row array. -/
theorem flushed_acc_sumsq_of (c : Dev nD) (t : Fin cfg1.N) (G : Fin 64 → EReal)
    (hG : ∀ (j : S1x64.Idx) (f : Fin 64), f.val = (j 1).val → (outsAt1 V c t.val t.isLt).2.2 j = G f) :
    (dat1 V c).flushed 9 t = ((cfg1.win 9).blk t).view.read (Elt Ideal) (fun i : S1x64.Idx => G (i 1)) := by
  obtain ⟨e0, e1⟩ := idx_fixedj t
  show (cfg1.win 9).cut (grid1.coords t) ((dat1 V c).after 9 t) = _
  rw [after1_9]
  funext j
  show (outsAt1 V c t.val t.isLt).2.2 j = G ((((cfg1.win 9).blk t).view.emb j) 1)
  refine hG j _ ?_
  show win1_9.index t 1 * 64 + 1 * (j 1).val = _
  rw [e1]; omega

/-- The one write-back of the second accumulator, after the last point, writes the column sums of squares. -/
theorem flushed_acc_sumsq (c : Dev nD) (t : Fin cfg1.N) (hf : (cfg1.win 9).flush t = true) :
    (dat1 V c).flushed 9 t
      = ((cfg1.win 9).blk t).view.read (Elt Ideal) (fun i : S1x64.Idx => colSumSq (h2Of V c) (i 1)) := by
  have hN : t.val < 125 := lt_of_lt_of_eq t.isLt N_1
  have ht : t.val = 124 := by have := (flush1_9 t).mp hf; omega
  exact flushed_acc_sumsq_of V c t (colSumSq (h2Of V c)) fun j f hjf => acc_sumsq_final V c t ht j f hjf

/-- The last point's block covers the one-row array. -/
theorem cover_acc_sumsq (i : S1x64.Idx) :
    ∃ t : Fin cfg1.N, (cfg1.win 9).flush t = true ∧ i ∈ ((cfg1.win 9).blk t).view.set := by
  have hi0 : (i 0).val < 1 := idx2_lt0 i
  have hi1 : (i 1).val < 64 := idx2_lt1 i
  have hq : 124 < cfg1.N := by rw [show cfg1.N = 125 from N_1]; decide
  obtain ⟨e0, e1⟩ := idx_fixedj ⟨124, hq⟩
  refine ⟨⟨124, hq⟩, (flush1_9 _).mpr rfl, ?_⟩
  rw [mem_blk_acc_sumsq]
  intro a
  match a with
  | ⟨0, _⟩ =>
    show win1_9.index _ 0 * 1 ≤ (i 0).val ∧ (i 0).val < win1_9.index _ 0 * 1 + 1
    rw [e0]; omega
  | ⟨1, _⟩ =>
    show win1_9.index _ 1 * 64 ≤ (i 1).val ∧ (i 1).val < win1_9.index _ 1 * 64 + 64
    rw [e1]; omega

end Final

end reg1_aux

open reg1_aux

/-- The row array (window 7) ends at the layer of every row. -/
theorem reg1_out (c : Dev nD) :
    ((dat1 V c).arrAt 7 cfg1.N : S1000000x64.Idx → EReal) = fun i => h2Of V c (i 0) (i 1) :=
  (dat1 V c).arrAt_eq_of_cover 7 (fun i : S1000000x64.Idx => h2Of V c (i 0) (i 1)) (fun t _ => flushed_out V c t)
    cover_out

/-- The first accumulator (window 8) ends at the column sums. -/
theorem reg1_sum (c : Dev nD) :
    ((dat1 V c).arrAt 8 cfg1.N : S1x64.Idx → EReal) = fun i => colSum (h2Of V c) (i 1) :=
  (dat1 V c).arrAt_eq_of_cover 8 (fun i : S1x64.Idx => colSum (h2Of V c) (i 1)) (flushed_acc_sum V c) cover_acc_sum

/-- The second accumulator (window 9) ends at the column sums of squares. -/
theorem reg1_sumsq (c : Dev nD) :
    ((dat1 V c).arrAt 9 cfg1.N : S1x64.Idx → EReal) = fun i => colSumSq (h2Of V c) (i 1) :=
  (dat1 V c).arrAt_eq_of_cover 9 (fun i : S1x64.Idx => colSumSq (h2Of V c) (i 1)) (flushed_acc_sumsq V c)
    cover_acc_sumsq

end Cert.KernelIdeal.Val

end
-- ==== Proof.KReg2.lean ====
/-
  Region 2's arrays after its 125 grid points, as functions of the arrays it is entered with. Point t stages rows
  8000 t … 8000 t + 7999 of the previous layer's rows and the whole mean, variance, scale, shift, weight and bias rows; it
  normalises the block's rows, multiplies, adds the bias, rectifies and writes the block, and adds the block's column
  sums, and column sums of squares, into two one-row accumulators that point 0 first clears and that are written back
  once, after the last point.
-/
import proofs.«419507_j7499012898893_1_alg».proof.Proof.Gen.KernelIdeal.Frame
import proofs.«419507_j7499012898893_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

-- The buffer contents a region is entered with: every statement here holds for any of them.
variable (V : (c : Dev nD) → (b : Ref sig .tc) → Buf (Elt Ideal) ((c : Thread nD τ).loc b))

/-- The layer of row `e`, from the arrays region 2 is entered with (windows 0–6: rows, mean, variance, scale, shift,
    weights, bias). -/
def h3Of (c : Dev nD) (e : Fin nE) (f : Fin 64) : EReal :=
  bnStageRowK (cur (V c (Pipeline.arrRef spec2 0) : S1000000x64.Idx → EReal) e)
    (cur (V c (Pipeline.arrRef spec2 1) : S1x64.Idx → EReal) 0)
    (cur (V c (Pipeline.arrRef spec2 2) : S1x64.Idx → EReal) 0)
    (cur (V c (Pipeline.arrRef spec2 3) : S1x64.Idx → EReal) 0)
    (cur (V c (Pipeline.arrRef spec2 4) : S1x64.Idx → EReal) 0)
    (cur (V c (Pipeline.arrRef spec2 5) : S64x64.Idx → EReal))
    (cur (V c (Pipeline.arrRef spec2 6) : S1x64.Idx → EReal) 0) f

namespace reg2_aux

/-! ## What each case's stores leave in the three output buffers -/

section Pieces
variable {F : FTy → Type} [FloatOps F]

/-- The offsets of every load and store of the body: the origin. -/
theorem hz : (![0, 0] : Fin 2 → Nat) = fun _ => 0 := funext fun a => by
  match a with
  | ⟨0, _⟩ => rfl
  | ⟨1, _⟩ => rfl

/-- A later point leaves in the row buffer the layer of the block it was handed. -/
theorem piece_B_out (c : Dev nD) (i : grid2.Coords) (a1 : Memref sig .tc .vmem S8000x64 .f32) (w1 : a1.IsWhole) (a2 : Memref sig .tc .vmem S1x64 .f32) (w2 : a2.IsWhole) (a3 : Memref sig .tc .vmem S1x64 .f32) (w3 : a3.IsWhole) (a4 : Memref sig .tc .vmem S1x64 .f32) (w4 : a4.IsWhole) (a5 : Memref sig .tc .vmem S1x64 .f32) (w5 : a5.IsWhole) (a6 : Memref sig .tc .vmem S64x64 .f32) (w6 : a6.IsWhole) (a7 : Memref sig .tc .vmem S1x64 .f32) (w7 : a7.IsWhole) (a8 : Memref sig .tc .vmem S8000x64 .f32) (w8 : a8.IsWhole) (a9 : Memref sig .tc .vmem S1x64 .f32) (w9 : a9.IsWhole) (a10 : Memref sig .tc .vmem S1x64 .f32) (w10 : a10.IsWhole) (hc : ¬cond2_0 i) (x0 : Vec F S8000x64 .f32) (x1 x2 x3 x4 : Vec F S1x64 .f32) (x5 : Vec F S64x64 .f32) (x6 : Vec F S1x64 .f32) (xo8 xo9 : Vec F S1x64 .f32) :
    out2_B_7 c i a1 w1 a2 w2 a3 w3 a4 w4 a5 w5 a6 w6 a7 w7 a8 w8 a9 w9 a10 w10 hc x0 x1 x2 x3 x4 x5 x6 xo8 xo9 = k2_pay5 x0 x1 x2 x3 x4 x5 x6 := by
  unfold out2_B_7
  rw [View.read_writes_eq_canon _ _ _ (cover2_B_7 c i a1 w1 a2 w2 a3 w3 a4 w4 a5 w5 a6 w6 a7 w7 a8 w8 a9 w9 a10 w10 hc x0 x1 x2 x3 x4 x5 x6 xo8 xo9)]
  unfold kernelRun2_B
  dsimp only
  sl_unfold_words
  rw [View.canon_unit_zero hz]
  simp only [View.readAt_eq_ld, w1.read_unread, w2.read_unread, w3.read_unread, w4.read_unread, w5.read_unread, w6.read_unread, w7.read_unread, View.ld_unit_zero (S := S8000x64) hz, View.ld_unit_zero (S := S1x64) hz, View.ld_unit_zero (S := S64x64) hz]

/-- A later point adds the block's column sums onto what the first accumulator held. -/
theorem piece_B_sum (c : Dev nD) (i : grid2.Coords) (a1 : Memref sig .tc .vmem S8000x64 .f32) (w1 : a1.IsWhole) (a2 : Memref sig .tc .vmem S1x64 .f32) (w2 : a2.IsWhole) (a3 : Memref sig .tc .vmem S1x64 .f32) (w3 : a3.IsWhole) (a4 : Memref sig .tc .vmem S1x64 .f32) (w4 : a4.IsWhole) (a5 : Memref sig .tc .vmem S1x64 .f32) (w5 : a5.IsWhole) (a6 : Memref sig .tc .vmem S64x64 .f32) (w6 : a6.IsWhole) (a7 : Memref sig .tc .vmem S1x64 .f32) (w7 : a7.IsWhole) (a8 : Memref sig .tc .vmem S8000x64 .f32) (w8 : a8.IsWhole) (a9 : Memref sig .tc .vmem S1x64 .f32) (w9 : a9.IsWhole) (a10 : Memref sig .tc .vmem S1x64 .f32) (w10 : a10.IsWhole) (hc : ¬cond2_0 i) (x0 : Vec F S8000x64 .f32) (x1 x2 x3 x4 : Vec F S1x64 .f32) (x5 : Vec F S64x64 .f32) (x6 : Vec F S1x64 .f32) (xo8 xo9 : Vec F S1x64 .f32) :
    out2_B_8 c i a1 w1 a2 w2 a3 w3 a4 w4 a5 w5 a6 w6 a7 w7 a8 w8 a9 w9 a10 w10 hc x0 x1 x2 x3 x4 x5 x6 xo8 xo9 = k2_pay1 (k2_pay5 x0 x1 x2 x3 x4 x5 x6) xo8 := by
  unfold out2_B_8
  rw [View.read_writes_eq_canon _ _ _ (cover2_B_8 c i a1 w1 a2 w2 a3 w3 a4 w4 a5 w5 a6 w6 a7 w7 a8 w8 a9 w9 a10 w10 hc x0 x1 x2 x3 x4 x5 x6 xo8 xo9)]
  unfold kernelRun2_B
  dsimp only
  sl_unfold_words
  rw [View.canon_unit_zero hz]
  simp only [View.readAt_eq_ld, w1.read_unread, w2.read_unread, w3.read_unread, w4.read_unread, w5.read_unread, w6.read_unread, w7.read_unread, View.ld_unit_zero (S := S8000x64) hz, View.ld_unit_zero (S := S1x64) hz, View.ld_unit_zero (S := S64x64) hz, w9.read_unread]

/-- A later point adds the block's column sums of squares onto what the second accumulator held. -/
theorem piece_B_sumsq (c : Dev nD) (i : grid2.Coords) (a1 : Memref sig .tc .vmem S8000x64 .f32) (w1 : a1.IsWhole) (a2 : Memref sig .tc .vmem S1x64 .f32) (w2 : a2.IsWhole) (a3 : Memref sig .tc .vmem S1x64 .f32) (w3 : a3.IsWhole) (a4 : Memref sig .tc .vmem S1x64 .f32) (w4 : a4.IsWhole) (a5 : Memref sig .tc .vmem S1x64 .f32) (w5 : a5.IsWhole) (a6 : Memref sig .tc .vmem S64x64 .f32) (w6 : a6.IsWhole) (a7 : Memref sig .tc .vmem S1x64 .f32) (w7 : a7.IsWhole) (a8 : Memref sig .tc .vmem S8000x64 .f32) (w8 : a8.IsWhole) (a9 : Memref sig .tc .vmem S1x64 .f32) (w9 : a9.IsWhole) (a10 : Memref sig .tc .vmem S1x64 .f32) (w10 : a10.IsWhole) (hc : ¬cond2_0 i) (x0 : Vec F S8000x64 .f32) (x1 x2 x3 x4 : Vec F S1x64 .f32) (x5 : Vec F S64x64 .f32) (x6 : Vec F S1x64 .f32) (xo8 xo9 : Vec F S1x64 .f32) :
    out2_B_9 c i a1 w1 a2 w2 a3 w3 a4 w4 a5 w5 a6 w6 a7 w7 a8 w8 a9 w9 a10 w10 hc x0 x1 x2 x3 x4 x5 x6 xo8 xo9 = k2_pay2 (k2_pay5 x0 x1 x2 x3 x4 x5 x6) xo9 := by
  unfold out2_B_9
  rw [View.read_writes_eq_canon _ _ _ (cover2_B_9 c i a1 w1 a2 w2 a3 w3 a4 w4 a5 w5 a6 w6 a7 w7 a8 w8 a9 w9 a10 w10 hc x0 x1 x2 x3 x4 x5 x6 xo8 xo9)]
  unfold kernelRun2_B
  dsimp only
  sl_unfold_words
  rw [View.canon_unit_zero hz]
  simp only [View.readAt_eq_ld, w1.read_unread, w2.read_unread, w3.read_unread, w4.read_unread, w5.read_unread, w6.read_unread, w7.read_unread, View.ld_unit_zero (S := S8000x64) hz, View.ld_unit_zero (S := S1x64) hz, View.ld_unit_zero (S := S64x64) hz, w10.read_unread]

/-- The first point leaves in the row buffer the layer of the block it was handed. -/
theorem piece_A_out (c : Dev nD) (i : grid2.Coords) (a1 : Memref sig .tc .vmem S8000x64 .f32) (w1 : a1.IsWhole) (a2 : Memref sig .tc .vmem S1x64 .f32) (w2 : a2.IsWhole) (a3 : Memref sig .tc .vmem S1x64 .f32) (w3 : a3.IsWhole) (a4 : Memref sig .tc .vmem S1x64 .f32) (w4 : a4.IsWhole) (a5 : Memref sig .tc .vmem S1x64 .f32) (w5 : a5.IsWhole) (a6 : Memref sig .tc .vmem S64x64 .f32) (w6 : a6.IsWhole) (a7 : Memref sig .tc .vmem S1x64 .f32) (w7 : a7.IsWhole) (a8 : Memref sig .tc .vmem S8000x64 .f32) (w8 : a8.IsWhole) (a9 : Memref sig .tc .vmem S1x64 .f32) (w9 : a9.IsWhole) (a10 : Memref sig .tc .vmem S1x64 .f32) (w10 : a10.IsWhole) (hc : cond2_0 i) (x0 : Vec F S8000x64 .f32) (x1 x2 x3 x4 : Vec F S1x64 .f32) (x5 : Vec F S64x64 .f32) (x6 : Vec F S1x64 .f32) :
    out2_A_7 c i a1 w1 a2 w2 a3 w3 a4 w4 a5 w5 a6 w6 a7 w7 a8 w8 a9 w9 a10 w10 hc x0 x1 x2 x3 x4 x5 x6 = k2_pay5 x0 x1 x2 x3 x4 x5 x6 := by
  unfold out2_A_7
  rw [View.read_writes_eq_canon _ _ _ (cover2_A_7 c i a1 w1 a2 w2 a3 w3 a4 w4 a5 w5 a6 w6 a7 w7 a8 w8 a9 w9 a10 w10 hc x0 x1 x2 x3 x4 x5 x6)]
  unfold kernelRun2_A
  dsimp only
  sl_unfold_words
  rw [View.canon_unit_zero hz]
  simp only [View.readAt_eq_ld, w1.read_unread, w2.read_unread, w3.read_unread, w4.read_unread, w5.read_unread, w6.read_unread, w7.read_unread, View.ld_unit_zero (S := S8000x64) hz, View.ld_unit_zero (S := S1x64) hz, View.ld_unit_zero (S := S64x64) hz]

/-- The first point clears the first accumulator, reads the zero row back and adds the block's column sums. -/
theorem piece_A_sum (c : Dev nD) (i : grid2.Coords) (a1 : Memref sig .tc .vmem S8000x64 .f32) (w1 : a1.IsWhole) (a2 : Memref sig .tc .vmem S1x64 .f32) (w2 : a2.IsWhole) (a3 : Memref sig .tc .vmem S1x64 .f32) (w3 : a3.IsWhole) (a4 : Memref sig .tc .vmem S1x64 .f32) (w4 : a4.IsWhole) (a5 : Memref sig .tc .vmem S1x64 .f32) (w5 : a5.IsWhole) (a6 : Memref sig .tc .vmem S64x64 .f32) (w6 : a6.IsWhole) (a7 : Memref sig .tc .vmem S1x64 .f32) (w7 : a7.IsWhole) (a8 : Memref sig .tc .vmem S8000x64 .f32) (w8 : a8.IsWhole) (a9 : Memref sig .tc .vmem S1x64 .f32) (w9 : a9.IsWhole) (a10 : Memref sig .tc .vmem S1x64 .f32) (w10 : a10.IsWhole) (hc : cond2_0 i) (x0 : Vec F S8000x64 .f32) (x1 x2 x3 x4 : Vec F S1x64 .f32) (x5 : Vec F S64x64 .f32) (x6 : Vec F S1x64 .f32) :
    out2_A_8 c i a1 w1 a2 w2 a3 w3 a4 w4 a5 w5 a6 w6 a7 w7 a8 w8 a9 w9 a10 w10 hc x0 x1 x2 x3 x4 x5 x6 = k2_pay1 (k2_pay5 x0 x1 x2 x3 x4 x5 x6) (k2_pay3 (F := F)) := by
  unfold out2_A_8
  rw [View.read_writes_eq_canon _ _ _ (cover2_A_8 c i a1 w1 a2 w2 a3 w3 a4 w4 a5 w5 a6 w6 a7 w7 a8 w8 a9 w9 a10 w10 hc x0 x1 x2 x3 x4 x5 x6)]
  unfold kernelRun2_A
  dsimp only
  sl_unfold_words
  rw [View.canon_cons_unit_zero (S := S1x64) hz, View.readCov_unit_zero (S := S1x64) _ hz]
  simp only [View.readAt_eq_ld, w1.read_unread, w2.read_unread, w3.read_unread, w4.read_unread, w5.read_unread, w6.read_unread, w7.read_unread, View.ld_unit_zero (S := S8000x64) hz, View.ld_unit_zero (S := S1x64) hz, View.ld_unit_zero (S := S64x64) hz]

/-- The first point clears the second accumulator, reads the zero row back and adds the block's column sums of squares. -/
theorem piece_A_sumsq (c : Dev nD) (i : grid2.Coords) (a1 : Memref sig .tc .vmem S8000x64 .f32) (w1 : a1.IsWhole) (a2 : Memref sig .tc .vmem S1x64 .f32) (w2 : a2.IsWhole) (a3 : Memref sig .tc .vmem S1x64 .f32) (w3 : a3.IsWhole) (a4 : Memref sig .tc .vmem S1x64 .f32) (w4 : a4.IsWhole) (a5 : Memref sig .tc .vmem S1x64 .f32) (w5 : a5.IsWhole) (a6 : Memref sig .tc .vmem S64x64 .f32) (w6 : a6.IsWhole) (a7 : Memref sig .tc .vmem S1x64 .f32) (w7 : a7.IsWhole) (a8 : Memref sig .tc .vmem S8000x64 .f32) (w8 : a8.IsWhole) (a9 : Memref sig .tc .vmem S1x64 .f32) (w9 : a9.IsWhole) (a10 : Memref sig .tc .vmem S1x64 .f32) (w10 : a10.IsWhole) (hc : cond2_0 i) (x0 : Vec F S8000x64 .f32) (x1 x2 x3 x4 : Vec F S1x64 .f32) (x5 : Vec F S64x64 .f32) (x6 : Vec F S1x64 .f32) :
    out2_A_9 c i a1 w1 a2 w2 a3 w3 a4 w4 a5 w5 a6 w6 a7 w7 a8 w8 a9 w9 a10 w10 hc x0 x1 x2 x3 x4 x5 x6 = k2_pay2 (k2_pay5 x0 x1 x2 x3 x4 x5 x6) (k2_pay4 (F := F)) := by
  unfold out2_A_9
  rw [View.read_writes_eq_canon _ _ _ (cover2_A_9 c i a1 w1 a2 w2 a3 w3 a4 w4 a5 w5 a6 w6 a7 w7 a8 w8 a9 w9 a10 w10 hc x0 x1 x2 x3 x4 x5 x6)]
  unfold kernelRun2_A
  dsimp only
  sl_unfold_words
  rw [View.canon_cons_unit_zero (S := S1x64) hz, View.readCov_unit_zero (S := S1x64) _ hz]
  simp only [View.readAt_eq_ld, w1.read_unread, w2.read_unread, w3.read_unread, w4.read_unread, w5.read_unread, w6.read_unread, w7.read_unread, View.ld_unit_zero (S := S8000x64) hz, View.ld_unit_zero (S := S1x64) hz, View.ld_unit_zero (S := S64x64) hz]

end Pieces

/-! ## The body's arithmetic, entry by entry, on the extended reals -/

section Payloads

/-- A one-row array spread over the block's rows reads, in every row, its own column. -/
theorem spread_apply (v : FVec Ideal S1x64 .f32) (p : Fin 8000) (k : Fin 64) :
    broadcastTo S8000x64 v broadcasts_S1x64_S8000x64 (ix2 p k) = v (ix2 0 k) :=
  broadcastTo_1b_ab_apply v broadcasts_S1x64_S8000x64 p k

/-- The product's left operand at (row, contraction index): the output's row. -/
theorem lhs_row (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- Its column: the contraction coordinate. -/
theorem lhs_col (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- The right operand's row: the contraction coordinate. -/
theorem rhs_row (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- Its column: the output's column. -/
theorem rhs_col (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The block product into a zero accumulator, at (p, f): row p of the left against column f of the right. -/
theorem product_apply (L : FVec Ideal S8000x64 .bf16) (R : FVec Ideal S64x64 .bf16) (p : Fin 8000) (f : Fin 64) :
    FloatOps.matmul dot_S8000x64_S64x64_S8000x64_1_0_0_1_n_n none L R (constant S8000x64 .f32 0x00000000#32) (ix2 p f)
      = ∑ k : Fin 64, L (ix2 p k) * R (ix2 k f) := by
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p f) ((contrEquiv1 dot_S8000x64_S64x64_S8000x64_1_0_0_1_n_n 64 rfl rfl).symm k) = ix2 p k := funext fun a => Fin.ext (by
    match a with
    | ⟨0, _⟩ => exact lhs_row _ _
    | ⟨1, _⟩ => exact (lhs_col _ _).trans hk)
  have er : dot_S8000x64_S64x64_S8000x64_1_0_0_1_n_n.rhsIdx (ix2 p f) ((contrEquiv1 dot_S8000x64_S64x64_S8000x64_1_0_0_1_n_n 64 rfl rfl).symm k) = ix2 k f := funext fun a => Fin.ext (by
    match a with
    | ⟨0, _⟩ => exact (rhs_row _ _).trans hk
    | ⟨1, _⟩ => exact rhs_col _ _)
  rw [el, er]

/-- The block's rows normalised, as the body forms them before the product. -/
def normBlk (x0 : FVec Ideal S8000x64 .f32) (x1 x2 x3 x4 : FVec Ideal S1x64 .f32) : FVec Ideal S8000x64 .f32 :=
  addf (mulf (subf (shapeCast S8000x64 x0 shapeCasts_S8000x64_S8000x64)
        (broadcastTo S8000x64 (shapeCast S1x64 x1 shapeCasts_S1x64_S1x64) broadcasts_S1x64_S8000x64))
      (broadcastTo S8000x64 (mulf (shapeCast S1x64 x3 shapeCasts_S1x64_S1x64)
        (rsqrt (addf (shapeCast S1x64 x2 shapeCasts_S1x64_S1x64) (broadcast S1x64 (Scalar.ofBits .f32 0x3727C5AC#32)))))
        broadcasts_S1x64_S8000x64))
    (broadcastTo S8000x64 (shapeCast S1x64 x4 shapeCasts_S1x64_S1x64) broadcasts_S1x64_S8000x64)

/-- Entry (p, k) of the normalised block is the normalised row p at k. -/
theorem normBlk_apply (x0 : FVec Ideal S8000x64 .f32) (x1 x2 x3 x4 : FVec Ideal S1x64 .f32) (p : Fin 8000) (k : Fin 64) :
    normBlk x0 x1 x2 x3 x4 (ix2 p k) = normRowK (cur x0 p) (cur x1 0) (cur x2 0) (cur x3 0) (cur x4 0) k := by
  unfold normBlk
  simp only [shapeCast_self]
  show (x0 (ix2 p k) - broadcastTo S8000x64 x1 broadcasts_S1x64_S8000x64 (ix2 p k))
      * broadcastTo S8000x64 (mulf x3 (rsqrt (addf x2 (broadcast S1x64 (Scalar.ofBits .f32 0x3727C5AC#32)))))
          broadcasts_S1x64_S8000x64 (ix2 p k)
      + broadcastTo S8000x64 x4 broadcasts_S1x64_S8000x64 (ix2 p k) = _
  rw [spread_apply, spread_apply, spread_apply]
  rfl

/-- The body's row payload is: the normalised block times the weights, plus the bias row, rectified. -/
theorem pay_out_eq (x0 : FVec Ideal S8000x64 .f32) (x1 x2 x3 x4 : FVec Ideal S1x64 .f32) (x5 : FVec Ideal S64x64 .f32)
    (x6 : FVec Ideal S1x64 .f32) :
    k2_pay5 (F := Ideal) x0 x1 x2 x3 x4 x5 x6
      = maximumf (addf (matmul dot_S8000x64_S64x64_S8000x64_1_0_0_1_n_n none (truncf .bf16 (normBlk x0 x1 x2 x3 x4) bitsLt_bf16_f32)
            (truncf .bf16 x5 bitsLt_bf16_f32) (constant S8000x64 .f32 0x00000000#32))
          (broadcastTo S8000x64 (shapeCast S1x64 x6 shapeCasts_S1x64_S1x64) broadcasts_S1x64_S8000x64))
        (broadcast S8000x64 (Scalar.ofBits .f32 0x00000000#32)) := rfl

/-- Entry (p, f) of the body's row payload is the layer of row p at f. -/
theorem pay_out_apply (x0 : FVec Ideal S8000x64 .f32) (x1 x2 x3 x4 : FVec Ideal S1x64 .f32) (x5 : FVec Ideal S64x64 .f32)
    (x6 : FVec Ideal S1x64 .f32) (p : Fin 8000) (f : Fin 64) :
    k2_pay5 (F := Ideal) x0 x1 x2 x3 x4 x5 x6 (ix2 p f)
      = bnStageRowK (cur x0 p) (cur x1 0) (cur x2 0) (cur x3 0) (cur x4 0) (cur x5) (cur x6 0) f := by
  rw [pay_out_eq]
  show max (FloatOps.matmul dot_S8000x64_S64x64_S8000x64_1_0_0_1_n_n none (truncf .bf16 (normBlk x0 x1 x2 x3 x4) bitsLt_bf16_f32)
          (truncf .bf16 x5 bitsLt_bf16_f32) (constant S8000x64 .f32 0x00000000#32) (ix2 p f)
        + broadcastTo S8000x64 (shapeCast S1x64 x6 shapeCasts_S1x64_S1x64) broadcasts_S1x64_S8000x64 (ix2 p f))
      (Ideal.ofBits .f32 0x00000000#32) = _
  rw [product_apply, shapeCast_self, spread_apply, Ideal.ofBits_zero_f32]
  unfold bnStageRowK relu dotRow
  refine congrArg (fun s => max (s + x6 (ix2 0 f)) 0) (Finset.sum_congr rfl fun k _ => ?_)
  show normBlk x0 x1 x2 x3 x4 (ix2 p k) * x5 (ix2 k f) = _
  rw [normBlk_apply]

/-- The first accumulator's payload at column f: what it held plus the block's column sum. -/
theorem pay_sum_apply (y : FVec Ideal S8000x64 .f32) (acc : FVec Ideal S1x64 .f32) (f : Fin 64) :
    k2_pay1 (F := Ideal) y acc (ix2 0 f) = acc (ix2 0 f) + ∑ r : Fin 8000, y (ix2 r f) := by
  unfold k2_pay1
  show shapeCast S1x64 acc shapeCasts_S1x64_S1x64 (ix2 0 f)
      + shapeCast S1x64 (multiReduction .add [0] S64 y 0x00000000#32 reduces_S8000x64_S64 (.inl rfl) rfl)
          shapeCasts_S64_S1x64 (ix2 0 f) = _
  rw [shapeCast_self, shapeCast_a_1a_apply]
  refine congrArg (acc (ix2 0 f) + ·) ?_
  refine (Ideal.multiReduction_add_single y 0x00000000#32 reduces_S8000x64_S64 (.inl rfl) rfl (ix1 f)).trans ?_
  refine Finset.sum_congr rfl fun r _ => congrArg y (funext fun a => ?_)
  match a with
  | ⟨0, _⟩ => rfl
  | ⟨1, _⟩ => rfl

/-- The second accumulator's payload at column f: what it held plus the block's column sum of squares. -/
theorem pay_sumsq_apply (y : FVec Ideal S8000x64 .f32) (acc : FVec Ideal S1x64 .f32) (f : Fin 64) :
    k2_pay2 (F := Ideal) y acc (ix2 0 f) = acc (ix2 0 f) + ∑ r : Fin 8000, y (ix2 r f) * y (ix2 r f) := by
  unfold k2_pay2
  show shapeCast S1x64 acc shapeCasts_S1x64_S1x64 (ix2 0 f)
      + shapeCast S1x64 (multiReduction .add [0] S64 (mulf y y) 0x00000000#32 reduces_S8000x64_S64 (.inl rfl) rfl)
          shapeCasts_S64_S1x64 (ix2 0 f) = _
  rw [shapeCast_self, shapeCast_a_1a_apply]
  refine congrArg (acc (ix2 0 f) + ·) ?_
  refine (Ideal.multiReduction_add_single (mulf y y) 0x00000000#32 reduces_S8000x64_S64 (.inl rfl) rfl (ix1 f)).trans ?_
  refine Finset.sum_congr rfl fun r _ => ?_
  refine congrArg (fun j => y j * y j) (funext fun a => ?_)
  match a with
  | ⟨0, _⟩ => rfl
  | ⟨1, _⟩ => rfl

/-- The rows the first point stores into the two accumulators are zero. -/
theorem zero_sum_apply (j : S1x64.Idx) : k2_pay3 (F := Ideal) j = 0 := Ideal.ofBits_zero_f32
theorem zero_sumsq_apply (j : S1x64.Idx) : k2_pay4 (F := Ideal) j = 0 := Ideal.ofBits_zero_f32

end Payloads

/-! ## The blocks a point is handed -/

section Blocks

/-- Point t's row block is block t of the row array; every other window's block index never moves. -/
theorem idx_rows : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx_out : ∀ t : Fin cfg2.N, win2_7.index t (0 : Fin 2) = t.val ∧ win2_7.index t (1 : Fin 2) = 0 :=
  (by decide +kernel : ∀ t : Fin grid2.N, win2_7.index t (0 : Fin 2) = t.val ∧ win2_7.index t (1 : Fin 2) = 0)
theorem idx_fixedb : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem idx_fixedc : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx_fixedd : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx_fixede : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx_fixedf : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idx_fixedg : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
theorem idx_fixedi : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
theorem idx_fixedj : ∀ t : Fin cfg2.N, win2_9.index t (0 : Fin 2) = 0 ∧ win2_9.index t (1 : Fin 2) = 0 :=
  (by decide +kernel : ∀ t : Fin grid2.N, win2_9.index t (0 : Fin 2) = 0 ∧ win2_9.index t (1 : Fin 2) = 0)

/-- The blocks point t is handed, at their literal types. -/
abbrev rowsBlk (c : Dev nD) (t : Fin cfg2.N) : FVec Ideal S8000x64 .f32 := iblk2 V c 0 t
abbrev meanBlk (c : Dev nD) (t : Fin cfg2.N) : FVec Ideal S1x64 .f32 := iblk2 V c 1 t
abbrev varBlk (c : Dev nD) (t : Fin cfg2.N) : FVec Ideal S1x64 .f32 := iblk2 V c 2 t
abbrev scaleBlk (c : Dev nD) (t : Fin cfg2.N) : FVec Ideal S1x64 .f32 := iblk2 V c 3 t
abbrev shiftBlk (c : Dev nD) (t : Fin cfg2.N) : FVec Ideal S1x64 .f32 := iblk2 V c 4 t
abbrev weightBlk (c : Dev nD) (t : Fin cfg2.N) : FVec Ideal S64x64 .f32 := iblk2 V c 5 t
abbrev biasBlk (c : Dev nD) (t : Fin cfg2.N) : FVec Ideal S1x64 .f32 := iblk2 V c 6 t

/-- Entry x of point t's row block is the row array's entry in row 8000 t + x₀. -/
theorem rowsBlk_apply (c : Dev nD) (t : Fin cfg2.N) (x : S8000x64.Idx) (k : S1000000x64.Idx)
    (hk0 : (k 0).val = 8000 * t.val + (x 0).val) (hk1 : (k 1).val = (x 1).val) :
    rowsBlk V c t x = (V c (Pipeline.arrRef spec2 0) : S1000000x64.Idx → EReal) k := by
  obtain ⟨e0, e1⟩ := idx_rows t
  show iblk2 V c 0 t x = _
  unfold iblk2
  rw [View.read_apply]
  show V c (Pipeline.arrRef spec2 0) _ = V c (Pipeline.arrRef spec2 0) _
  congr 1
  funext a
  apply Fin.ext
  match a with
  | ⟨0, _⟩ => show win2_0.index t 0 * 8000 + 1 * (x 0).val = (k 0).val; rw [e0, hk0]; omega
  | ⟨1, _⟩ => show win2_0.index t 1 * 64 + 1 * (x 1).val = (k 1).val; rw [e1, hk1]; omega

/-- Every point is handed the mean row whole. -/
theorem meanBlk_eq (c : Dev nD) (t : Fin cfg2.N) :
    meanBlk V c t = (V c (Pipeline.arrRef spec2 1) : S1x64.Idx → EReal) := by
  obtain ⟨e0, e1⟩ := idx_fixedb t
  funext x
  show iblk2 V c 1 t x = _
  unfold iblk2
  rw [View.read_apply]
  show V c (Pipeline.arrRef spec2 1) _ = V c (Pipeline.arrRef spec2 1) _
  congr 1
  funext a
  apply Fin.ext
  match a with
  | ⟨0, _⟩ => show win2_1.index t 0 * 1 + 1 * (x 0).val = (x 0).val; rw [e0]; omega
  | ⟨1, _⟩ => show win2_1.index t 1 * 64 + 1 * (x 1).val = (x 1).val; rw [e1]; omega

/-- Every point is handed the variance row whole. -/
theorem varBlk_eq (c : Dev nD) (t : Fin cfg2.N) :
    varBlk V c t = (V c (Pipeline.arrRef spec2 2) : S1x64.Idx → EReal) := by
  obtain ⟨e0, e1⟩ := idx_fixedc t
  funext x
  show iblk2 V c 2 t x = _
  unfold iblk2
  rw [View.read_apply]
  show V c (Pipeline.arrRef spec2 2) _ = V c (Pipeline.arrRef spec2 2) _
  congr 1
  funext a
  apply Fin.ext
  match a with
  | ⟨0, _⟩ => show win2_2.index t 0 * 1 + 1 * (x 0).val = (x 0).val; rw [e0]; omega
  | ⟨1, _⟩ => show win2_2.index t 1 * 64 + 1 * (x 1).val = (x 1).val; rw [e1]; omega

/-- Every point is handed the scale row whole. -/
theorem scaleBlk_eq (c : Dev nD) (t : Fin cfg2.N) :
    scaleBlk V c t = (V c (Pipeline.arrRef spec2 3) : S1x64.Idx → EReal) := by
  obtain ⟨e0, e1⟩ := idx_fixedd t
  funext x
  show iblk2 V c 3 t x = _
  unfold iblk2
  rw [View.read_apply]
  show V c (Pipeline.arrRef spec2 3) _ = V c (Pipeline.arrRef spec2 3) _
  congr 1
  funext a
  apply Fin.ext
  match a with
  | ⟨0, _⟩ => show win2_3.index t 0 * 1 + 1 * (x 0).val = (x 0).val; rw [e0]; omega
  | ⟨1, _⟩ => show win2_3.index t 1 * 64 + 1 * (x 1).val = (x 1).val; rw [e1]; omega

/-- Every point is handed the shift row whole. -/
theorem shiftBlk_eq (c : Dev nD) (t : Fin cfg2.N) :
    shiftBlk V c t = (V c (Pipeline.arrRef spec2 4) : S1x64.Idx → EReal) := by
  obtain ⟨e0, e1⟩ := idx_fixede t
  funext x
  show iblk2 V c 4 t x = _
  unfold iblk2
  rw [View.read_apply]
  show V c (Pipeline.arrRef spec2 4) _ = V c (Pipeline.arrRef spec2 4) _
  congr 1
  funext a
  apply Fin.ext
  match a with
  | ⟨0, _⟩ => show win2_4.index t 0 * 1 + 1 * (x 0).val = (x 0).val; rw [e0]; omega
  | ⟨1, _⟩ => show win2_4.index t 1 * 64 + 1 * (x 1).val = (x 1).val; rw [e1]; omega

/-- Every point is handed the weight matrix whole. -/
theorem weightBlk_eq (c : Dev nD) (t : Fin cfg2.N) :
    weightBlk V c t = (V c (Pipeline.arrRef spec2 5) : S64x64.Idx → EReal) := by
  obtain ⟨e0, e1⟩ := idx_fixedf t
  funext x
  show iblk2 V c 5 t x = _
  unfold iblk2
  rw [View.read_apply]
  show V c (Pipeline.arrRef spec2 5) _ = V c (Pipeline.arrRef spec2 5) _
  congr 1
  funext a
  apply Fin.ext
  match a with
  | ⟨0, _⟩ => show win2_5.index t 0 * 64 + 1 * (x 0).val = (x 0).val; rw [e0]; omega
  | ⟨1, _⟩ => show win2_5.index t 1 * 64 + 1 * (x 1).val = (x 1).val; rw [e1]; omega

/-- Every point is handed the bias row whole. -/
theorem biasBlk_eq (c : Dev nD) (t : Fin cfg2.N) :
    biasBlk V c t = (V c (Pipeline.arrRef spec2 6) : S1x64.Idx → EReal) := by
  obtain ⟨e0, e1⟩ := idx_fixedg t
  funext x
  show iblk2 V c 6 t x = _
  unfold iblk2
  rw [View.read_apply]
  show V c (Pipeline.arrRef spec2 6) _ = V c (Pipeline.arrRef spec2 6) _
  congr 1
  funext a
  apply Fin.ext
  match a with
  | ⟨0, _⟩ => show win2_6.index t 0 * 1 + 1 * (x 0).val = (x 0).val; rw [e0]; omega
  | ⟨1, _⟩ => show win2_6.index t 1 * 64 + 1 * (x 1).val = (x 1).val; rw [e1]; omega

/-- The body's row payload on point t's blocks, at (p, f), is the layer of row 8000 t + p at f. -/
theorem out_entry (c : Dev nD) (t : Fin cfg2.N) (p : Fin 8000) (f : Fin 64) (e : Fin nE)
    (he : e.val = 8000 * t.val + p.val) :
    k2_pay5 (F := Ideal) (rowsBlk V c t) (meanBlk V c t) (varBlk V c t) (scaleBlk V c t) (shiftBlk V c t) (weightBlk V c t) (biasBlk V c t) (ix2 p f) = h3Of V c e f := by
  refine (pay_out_apply (rowsBlk V c t) (meanBlk V c t) (varBlk V c t) (scaleBlk V c t) (shiftBlk V c t) (weightBlk V c t) (biasBlk V c t) p f).trans ?_
  unfold h3Of
  rw [meanBlk_eq, varBlk_eq, scaleBlk_eq, shiftBlk_eq, weightBlk_eq, biasBlk_eq]
  refine congrArg (fun r => bnStageRowK r _ _ _ _ _ _ f) (funext fun k => ?_)
  exact rowsBlk_apply V c t (ix2 p k) (ix2 e k) he rfl

end Blocks

/-! ## What the three buffers hold after each point -/

section Run

/-- After any point the row buffer holds the layer of the block the point was handed. -/
theorem out_at (c : Dev nD) (t : Fin cfg2.N) :
    (outsAt2 V c t.val t.isLt).1 = k2_pay5 (F := Ideal) (rowsBlk V c t) (meanBlk V c t) (varBlk V c t) (scaleBlk V c t) (shiftBlk V c t) (weightBlk V c t) (biasBlk V c t) := by
  by_cases h0 : t.val % 125 = 0
  · rw [outsAt2_A V c t h0]
    dsimp only
    exact piece_A_out (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t)
      ((hcond2_0 t).mpr h0) (rowsBlk V c t) (meanBlk V c t) (varBlk V c t) (scaleBlk V c t) (shiftBlk V c t) (weightBlk V c t) (biasBlk V c t)
  · rw [outsAt2_B V c t h0]
    dsimp only
    exact piece_B_out (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t)
      (fun hh => h0 ((hcond2_0 t).mp hh)) (rowsBlk V c t) (meanBlk V c t) (varBlk V c t) (scaleBlk V c t) (shiftBlk V c t) (weightBlk V c t) (biasBlk V c t)
      (outsAt2 V c (t.val - 1) (Nat.lt_of_le_of_lt (Nat.sub_le _ _) t.isLt)).2.1 (outsAt2 V c (t.val - 1) (Nat.lt_of_le_of_lt (Nat.sub_le _ _) t.isLt)).2.2

/-- Row n of the layer at column f; zero past the last row. -/
def rowAt (c : Dev nD) (n : ℕ) (f : Fin 64) : EReal := if h : n < nE then h3Of V c ⟨n, h⟩ f else 0

/-- Block s's column sum, and its column sum of squares: over rows 8000 s … 8000 s + 7999. -/
def blkSum (c : Dev nD) (s : ℕ) (f : Fin 64) : EReal := ∑ r : Fin 8000, rowAt V c (8000 * s + r.val) f
def blkSumSq (c : Dev nD) (s : ℕ) (f : Fin 64) : EReal :=
  ∑ r : Fin 8000, rowAt V c (8000 * s + r.val) f * rowAt V c (8000 * s + r.val) f

/-- The column sums of the body's row payload on point t's blocks are block t's. -/
theorem blk_sum_eq (c : Dev nD) (t : Fin cfg2.N) (f : Fin 64) :
    ∑ r : Fin 8000, k2_pay5 (F := Ideal) (rowsBlk V c t) (meanBlk V c t) (varBlk V c t) (scaleBlk V c t) (shiftBlk V c t) (weightBlk V c t) (biasBlk V c t) (ix2 r f) = blkSum V c t.val f := by
  have hN : t.val < 125 := lt_of_lt_of_eq t.isLt N_2
  unfold blkSum
  refine Finset.sum_congr rfl fun r _ => ?_
  have hr : 8000 * t.val + r.val < nE := by have := r.isLt; show _ < 1000000; omega
  rw [rowAt, dif_pos hr]
  exact out_entry V c t r f ⟨_, hr⟩ rfl

theorem blk_sumsq_eq (c : Dev nD) (t : Fin cfg2.N) (f : Fin 64) :
    ∑ r : Fin 8000, k2_pay5 (F := Ideal) (rowsBlk V c t) (meanBlk V c t) (varBlk V c t) (scaleBlk V c t) (shiftBlk V c t) (weightBlk V c t) (biasBlk V c t) (ix2 r f)
        * k2_pay5 (F := Ideal) (rowsBlk V c t) (meanBlk V c t) (varBlk V c t) (scaleBlk V c t) (shiftBlk V c t) (weightBlk V c t) (biasBlk V c t) (ix2 r f) = blkSumSq V c t.val f := by
  have hN : t.val < 125 := lt_of_lt_of_eq t.isLt N_2
  unfold blkSumSq
  refine Finset.sum_congr rfl fun r _ => ?_
  have hr : 8000 * t.val + r.val < nE := by have := r.isLt; show _ < 1000000; omega
  rw [rowAt, dif_pos hr, out_entry V c t r f ⟨_, hr⟩ rfl]

/-- After point n the first accumulator holds the column sums of blocks 0 … n: zero plus block 0's at the first point, one more block's at each later one. -/
theorem acc_sum (c : Dev nD) : ∀ (n : ℕ) (h : n < cfg2.N) (f : Fin 64),
    (outsAt2 V c n h).2.1 (ix2 0 f) = ∑ s ∈ Finset.range (n + 1), blkSum V c s f
  | 0, h, f => by
    rw [outsAt2_A V c ⟨0, h⟩ rfl]
    dsimp only
    refine (congrFun (piece_A_sum (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) (ms2_8 ⟨0, h⟩) (hs2_8 ⟨0, h⟩) (ms2_9 ⟨0, h⟩) (hs2_9 ⟨0, h⟩)
      ((hcond2_0 ⟨0, h⟩).mpr rfl) (rowsBlk V c ⟨0, h⟩) (meanBlk V c ⟨0, h⟩) (varBlk V c ⟨0, h⟩) (scaleBlk V c ⟨0, h⟩) (shiftBlk V c ⟨0, h⟩) (weightBlk V c ⟨0, h⟩) (biasBlk V c ⟨0, h⟩)) (ix2 0 f)).trans ?_
    refine (pay_sum_apply (k2_pay5 (F := Ideal) (rowsBlk V c ⟨0, h⟩) (meanBlk V c ⟨0, h⟩) (varBlk V c ⟨0, h⟩) (scaleBlk V c ⟨0, h⟩) (shiftBlk V c ⟨0, h⟩) (weightBlk V c ⟨0, h⟩) (biasBlk V c ⟨0, h⟩)) _ f).trans ?_
    rw [zero_sum_apply, zero_add, Finset.sum_range_one]
    exact blk_sum_eq V c ⟨0, h⟩ f
  | n + 1, h, f => by
    have hN : n + 1 < 125 := lt_of_lt_of_eq h N_2
    have hB : ¬(⟨n + 1, h⟩ : Fin cfg2.N).val % 125 = 0 := by dsimp only; omega
    rw [outsAt2_B V c ⟨n + 1, h⟩ hB]
    dsimp only
    refine (congrFun (piece_B_sum (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) (ms2_9 ⟨n + 1, h⟩) (hs2_9 ⟨n + 1, h⟩)
      (fun hh => hB ((hcond2_0 ⟨n + 1, h⟩).mp hh)) (rowsBlk V c ⟨n + 1, h⟩) (meanBlk V c ⟨n + 1, h⟩) (varBlk V c ⟨n + 1, h⟩) (scaleBlk V c ⟨n + 1, h⟩) (shiftBlk V c ⟨n + 1, h⟩) (weightBlk V c ⟨n + 1, h⟩) (biasBlk V c ⟨n + 1, h⟩)
      (outsAt2 V c n (Nat.lt_of_succ_lt h)).2.1 (outsAt2 V c n (Nat.lt_of_succ_lt h)).2.2) (ix2 0 f)).trans ?_
    refine (pay_sum_apply (k2_pay5 (F := Ideal) (rowsBlk V c ⟨n + 1, h⟩) (meanBlk V c ⟨n + 1, h⟩) (varBlk V c ⟨n + 1, h⟩) (scaleBlk V c ⟨n + 1, h⟩) (shiftBlk V c ⟨n + 1, h⟩) (weightBlk V c ⟨n + 1, h⟩) (biasBlk V c ⟨n + 1, h⟩)) _ f).trans ?_
    rw [Finset.sum_range_succ _ (n + 1)]
    exact congrArg₂ (· + ·) (acc_sum c n (Nat.lt_of_succ_lt h) f) (blk_sum_eq V c ⟨n + 1, h⟩ f)

/-- After point n the second accumulator holds the column sums of squares of blocks 0 … n. -/
theorem acc_sumsq (c : Dev nD) : ∀ (n : ℕ) (h : n < cfg2.N) (f : Fin 64),
    (outsAt2 V c n h).2.2 (ix2 0 f) = ∑ s ∈ Finset.range (n + 1), blkSumSq V c s f
  | 0, h, f => by
    rw [outsAt2_A V c ⟨0, h⟩ rfl]
    dsimp only
    refine (congrFun (piece_A_sumsq (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) (ms2_8 ⟨0, h⟩) (hs2_8 ⟨0, h⟩) (ms2_9 ⟨0, h⟩) (hs2_9 ⟨0, h⟩)
      ((hcond2_0 ⟨0, h⟩).mpr rfl) (rowsBlk V c ⟨0, h⟩) (meanBlk V c ⟨0, h⟩) (varBlk V c ⟨0, h⟩) (scaleBlk V c ⟨0, h⟩) (shiftBlk V c ⟨0, h⟩) (weightBlk V c ⟨0, h⟩) (biasBlk V c ⟨0, h⟩)) (ix2 0 f)).trans ?_
    refine (pay_sumsq_apply (k2_pay5 (F := Ideal) (rowsBlk V c ⟨0, h⟩) (meanBlk V c ⟨0, h⟩) (varBlk V c ⟨0, h⟩) (scaleBlk V c ⟨0, h⟩) (shiftBlk V c ⟨0, h⟩) (weightBlk V c ⟨0, h⟩) (biasBlk V c ⟨0, h⟩)) _ f).trans ?_
    rw [zero_sumsq_apply, zero_add, Finset.sum_range_one]
    exact blk_sumsq_eq V c ⟨0, h⟩ f
  | n + 1, h, f => by
    have hN : n + 1 < 125 := lt_of_lt_of_eq h N_2
    have hB : ¬(⟨n + 1, h⟩ : Fin cfg2.N).val % 125 = 0 := by dsimp only; omega
    rw [outsAt2_B V c ⟨n + 1, h⟩ hB]
    dsimp only
    refine (congrFun (piece_B_sumsq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) (ms2_9 ⟨n + 1, h⟩) (hs2_9 ⟨n + 1, h⟩)
      (fun hh => hB ((hcond2_0 ⟨n + 1, h⟩).mp hh)) (rowsBlk V c ⟨n + 1, h⟩) (meanBlk V c ⟨n + 1, h⟩) (varBlk V c ⟨n + 1, h⟩) (scaleBlk V c ⟨n + 1, h⟩) (shiftBlk V c ⟨n + 1, h⟩) (weightBlk V c ⟨n + 1, h⟩) (biasBlk V c ⟨n + 1, h⟩)
      (outsAt2 V c n (Nat.lt_of_succ_lt h)).2.1 (outsAt2 V c n (Nat.lt_of_succ_lt h)).2.2) (ix2 0 f)).trans ?_
    refine (pay_sumsq_apply (k2_pay5 (F := Ideal) (rowsBlk V c ⟨n + 1, h⟩) (meanBlk V c ⟨n + 1, h⟩) (varBlk V c ⟨n + 1, h⟩) (scaleBlk V c ⟨n + 1, h⟩) (shiftBlk V c ⟨n + 1, h⟩) (weightBlk V c ⟨n + 1, h⟩) (biasBlk V c ⟨n + 1, h⟩)) _ f).trans ?_
    rw [Finset.sum_range_succ _ (n + 1)]
    exact congrArg₂ (· + ·) (acc_sumsq c n (Nat.lt_of_succ_lt h) f) (blk_sumsq_eq V c ⟨n + 1, h⟩ f)

end Run

/-! ## From the blocks to the arrays -/

section Final

/-- N blocks of B consecutive terms are the first N B terms. -/
theorem sum_range_blocks (g : ℕ → EReal) (B : ℕ) : ∀ N : ℕ,
    ∑ s ∈ Finset.range N, ∑ r ∈ Finset.range B, g (B * s + r) = ∑ e ∈ Finset.range (N * B), g e
  | 0 => by rw [Nat.zero_mul, Finset.sum_range_zero, Finset.sum_range_zero]
  | N + 1 => by
    rw [Finset.sum_range_succ, sum_range_blocks g B N, Nat.add_mul, Nat.one_mul, Finset.sum_range_add,
      Nat.mul_comm B N]

/-- 125 blocks of 8000 rows are the 1,000,000 rows. -/
theorem blocks_total (g : ℕ → EReal) :
    ∑ s ∈ Finset.range 125, ∑ r : Fin 8000, g (8000 * s + r.val) = ∑ e : Fin nE, g e.val := by
  have e1 : ∀ s, ∑ r : Fin 8000, g (8000 * s + r.val) = ∑ r ∈ Finset.range 8000, g (8000 * s + r) :=
    fun s => (Finset.sum_range fun r => g (8000 * s + r)).symm
  rw [Finset.sum_congr rfl fun s _ => e1 s, sum_range_blocks g 8000 125, show 125 * 8000 = nE from by norm_num,
    Finset.sum_range]

/-- The blocks' column sums add up to the column sums of all the rows. -/
theorem sum_total (c : Dev nD) (f : Fin 64) :
    ∑ s ∈ Finset.range 125, blkSum V c s f = colSum (h3Of V c) f := by
  unfold blkSum colSum
  refine (blocks_total fun n => rowAt V c n f).trans ?_
  refine Finset.sum_congr rfl fun e _ => ?_
  show rowAt V c e.val f = _
  rw [rowAt, dif_pos e.isLt]

/-- The blocks' column sums of squares add up to the column sums of squares of all the rows. -/
theorem sumsq_total (c : Dev nD) (f : Fin 64) :
    ∑ s ∈ Finset.range 125, blkSumSq V c s f = colSumSq (h3Of V c) f := by
  unfold blkSumSq colSumSq
  refine (blocks_total fun n => rowAt V c n f * rowAt V c n f).trans ?_
  refine Finset.sum_congr rfl fun e _ => ?_
  show rowAt V c e.val f * rowAt V c e.val f = _
  rw [rowAt, dif_pos e.isLt]

/-- The row payload on point t's blocks at a block index, as the layer at the array index it is written to. -/
theorem out_entry_idx (c : Dev nD) (t : Fin cfg2.N) (j : S8000x64.Idx) (i : S1000000x64.Idx)
    (h0 : (i 0).val = 8000 * t.val + (j 0).val) (h1 : (i 1).val = (j 1).val) :
    k2_pay5 (F := Ideal) (rowsBlk V c t) (meanBlk V c t) (varBlk V c t) (scaleBlk V c t) (shiftBlk V c t) (weightBlk V c t) (biasBlk V c t) j = h3Of V c (i 0) (i 1) := by
  obtain ⟨p, f, rfl⟩ : ∃ (p : Fin 8000) (f : Fin 64), j = ix2 p f := ⟨j 0, j 1, eq_ix2 j⟩
  have hf : i 1 = f := Fin.ext h1
  exact (out_entry V c t p f (i 0) h0).trans (congrArg (h3Of V c (i 0)) hf.symm)

/-- An index of the row array is in point t's block iff each coordinate is in the block's range. -/
theorem mem_blk_out (t : Fin cfg2.N) (i : S1000000x64.Idx) :
    i ∈ ((cfg2.win 7).blk t).view.set ↔ ∀ a : Fin 2, win2_7.index t a * S8000x64.size a ≤ (i a).val
      ∧ (i a).val < win2_7.index t a * S8000x64.size a + S8000x64.size a := by
  show i ∈ ((View.whole (Pipeline.arrRef spec2 7)).slice (win2_7.rect t)).set ↔ _
  rw [View.set_slice_whole, Rect.mem_set_unit]
  exact Iff.rfl

/-- What point t writes back to the row array is block t of the layer. -/
theorem flushed_out (c : Dev nD) (t : Fin cfg2.N) :
    (dat2 V c).flushed 7 t
      = ((cfg2.win 7).blk t).view.read (Elt Ideal) (fun i : S1000000x64.Idx => h3Of V c (i 0) (i 1)) := by
  obtain ⟨e0, e1⟩ := idx_out t
  show (cfg2.win 7).cut (grid2.coords t) ((dat2 V c).after 7 t) = _
  rw [after2_7, out_at]
  funext j
  show k2_pay5 (F := Ideal) (rowsBlk V c t) (meanBlk V c t) (varBlk V c t) (scaleBlk V c t) (shiftBlk V c t) (weightBlk V c t) (biasBlk V c t) j
    = h3Of V c ((((cfg2.win 7).blk t).view.emb j) 0) ((((cfg2.win 7).blk t).view.emb j) 1)
  have h0 : ((((cfg2.win 7).blk t).view.emb j) 0).val = 8000 * t.val + (j 0).val := by
    show win2_7.index t 0 * 8000 + 1 * (j 0).val = _
    rw [e0]; omega
  have h1 : ((((cfg2.win 7).blk t).view.emb j) 1).val = (j 1).val := by
    show win2_7.index t 1 * 64 + 1 * (j 1).val = _
    rw [e1]; omega
  exact out_entry_idx V c t j _ h0 h1

/-- Row r lies in the block of point r / 8000. -/
theorem cover_out (i : S1000000x64.Idx) :
    ∃ t : Fin cfg2.N, (cfg2.win 7).flush t = true ∧ i ∈ ((cfg2.win 7).blk t).view.set := by
  have hi0 : (i 0).val < 1000000 := idx2_lt0 i
  have hi1 : (i 1).val < 64 := idx2_lt1 i
  have hq : (i 0).val / 8000 < cfg2.N := by rw [show cfg2.N = 125 from N_2]; omega
  obtain ⟨e0, e1⟩ := idx_out ⟨(i 0).val / 8000, hq⟩
  have e0' : win2_7.index ⟨(i 0).val / 8000, hq⟩ 0 = (i 0).val / 8000 := e0
  refine ⟨⟨(i 0).val / 8000, hq⟩, flush2_7 _, ?_⟩
  rw [mem_blk_out]
  intro a
  match a with
  | ⟨0, _⟩ =>
    show win2_7.index _ 0 * 8000 ≤ (i 0).val ∧ (i 0).val < win2_7.index _ 0 * 8000 + 8000
    rw [e0']; omega
  | ⟨1, _⟩ =>
    show win2_7.index _ 1 * 64 ≤ (i 1).val ∧ (i 1).val < win2_7.index _ 1 * 64 + 64
    rw [e1]; omega

/-- At the last point the first accumulator holds the column sums of all the rows. -/
theorem acc_sum_final (c : Dev nD) (t : Fin cfg2.N) (ht : t.val = 124) (j : S1x64.Idx) (f : Fin 64)
    (hf : f.val = (j 1).val) : (outsAt2 V c t.val t.isLt).2.1 j = colSum (h3Of V c) f := by
  obtain ⟨u, g, rfl⟩ : ∃ (u : Fin 1) (g : Fin 64), j = ix2 u g := ⟨j 0, j 1, eq_ix2 j⟩
  obtain rfl : u = 0 := Subsingleton.elim _ _
  obtain rfl : f = g := Fin.ext hf
  have hlast : t.val + 1 = 125 := by omega
  rw [acc_sum V c t.val t.isLt f, hlast]
  exact sum_total V c f

/-- An index of the one-row array is in point t's block iff each coordinate is in the block's range. -/
theorem mem_blk_acc_sum (t : Fin cfg2.N) (i : S1x64.Idx) :
    i ∈ ((cfg2.win 8).blk t).view.set ↔ ∀ a : Fin 2, win2_8.index t a * S1x64.size a ≤ (i a).val
      ∧ (i a).val < win2_8.index t a * S1x64.size a + S1x64.size a := by
  show i ∈ ((View.whole (Pipeline.arrRef spec2 8)).slice (win2_8.rect t)).set ↔ _
  rw [View.set_slice_whole, Rect.mem_set_unit]
  exact Iff.rfl

/-- What a point writes back of the first accumulator is the block, through the window, of any row that the buffer holds
    entry by entry: the block is the whole one-row array. -/
theorem flushed_acc_sum_of (c : Dev nD) (t : Fin cfg2.N) (G : Fin 64 → EReal)
    (hG : ∀ (j : S1x64.Idx) (f : Fin 64), f.val = (j 1).val → (outsAt2 V c t.val t.isLt).2.1 j = G f) :
    (dat2 V c).flushed 8 t = ((cfg2.win 8).blk t).view.read (Elt Ideal) (fun i : S1x64.Idx => G (i 1)) := by
  obtain ⟨e0, e1⟩ := idx_fixedi t
  show (cfg2.win 8).cut (grid2.coords t) ((dat2 V c).after 8 t) = _
  rw [after2_8]
  funext j
  show (outsAt2 V c t.val t.isLt).2.1 j = G ((((cfg2.win 8).blk t).view.emb j) 1)
  refine hG j _ ?_
  show win2_8.index t 1 * 64 + 1 * (j 1).val = _
  rw [e1]; omega

/-- The one write-back of the first accumulator, after the last point, writes the column sums. -/
theorem flushed_acc_sum (c : Dev nD) (t : Fin cfg2.N) (hf : (cfg2.win 8).flush t = true) :
    (dat2 V c).flushed 8 t
      = ((cfg2.win 8).blk t).view.read (Elt Ideal) (fun i : S1x64.Idx => colSum (h3Of V c) (i 1)) := by
  have hN : t.val < 125 := lt_of_lt_of_eq t.isLt N_2
  have ht : t.val = 124 := by have := (flush2_8 t).mp hf; omega
  exact flushed_acc_sum_of V c t (colSum (h3Of V c)) fun j f hjf => acc_sum_final V c t ht j f hjf

/-- The last point's block covers the one-row array. -/
theorem cover_acc_sum (i : S1x64.Idx) :
    ∃ t : Fin cfg2.N, (cfg2.win 8).flush t = true ∧ i ∈ ((cfg2.win 8).blk t).view.set := by
  have hi0 : (i 0).val < 1 := idx2_lt0 i
  have hi1 : (i 1).val < 64 := idx2_lt1 i
  have hq : 124 < cfg2.N := by rw [show cfg2.N = 125 from N_2]; decide
  obtain ⟨e0, e1⟩ := idx_fixedi ⟨124, hq⟩
  refine ⟨⟨124, hq⟩, (flush2_8 _).mpr rfl, ?_⟩
  rw [mem_blk_acc_sum]
  intro a
  match a with
  | ⟨0, _⟩ =>
    show win2_8.index _ 0 * 1 ≤ (i 0).val ∧ (i 0).val < win2_8.index _ 0 * 1 + 1
    rw [e0]; omega
  | ⟨1, _⟩ =>
    show win2_8.index _ 1 * 64 ≤ (i 1).val ∧ (i 1).val < win2_8.index _ 1 * 64 + 64
    rw [e1]; omega

/-- At the last point the second accumulator holds the column sums of squares of all the rows. -/
theorem acc_sumsq_final (c : Dev nD) (t : Fin cfg2.N) (ht : t.val = 124) (j : S1x64.Idx) (f : Fin 64)
    (hf : f.val = (j 1).val) : (outsAt2 V c t.val t.isLt).2.2 j = colSumSq (h3Of V c) f := by
  obtain ⟨u, g, rfl⟩ : ∃ (u : Fin 1) (g : Fin 64), j = ix2 u g := ⟨j 0, j 1, eq_ix2 j⟩
  obtain rfl : u = 0 := Subsingleton.elim _ _
  obtain rfl : f = g := Fin.ext hf
  have hlast : t.val + 1 = 125 := by omega
  rw [acc_sumsq V c t.val t.isLt f, hlast]
  exact sumsq_total V c f

/-- An index of the one-row array is in point t's block iff each coordinate is in the block's range. -/
theorem mem_blk_acc_sumsq (t : Fin cfg2.N) (i : S1x64.Idx) :
    i ∈ ((cfg2.win 9).blk t).view.set ↔ ∀ a : Fin 2, win2_9.index t a * S1x64.size a ≤ (i a).val
      ∧ (i a).val < win2_9.index t a * S1x64.size a + S1x64.size a := by
  show i ∈ ((View.whole (Pipeline.arrRef spec2 9)).slice (win2_9.rect t)).set ↔ _
  rw [View.set_slice_whole, Rect.mem_set_unit]
  exact Iff.rfl

/-- What a point writes back of the second accumulator is the block, through the window, of any row that the buffer holds
    entry by entry: the block is the whole one-row array. -/
theorem flushed_acc_sumsq_of (c : Dev nD) (t : Fin cfg2.N) (G : Fin 64 → EReal)
    (hG : ∀ (j : S1x64.Idx) (f : Fin 64), f.val = (j 1).val → (outsAt2 V c t.val t.isLt).2.2 j = G f) :
    (dat2 V c).flushed 9 t = ((cfg2.win 9).blk t).view.read (Elt Ideal) (fun i : S1x64.Idx => G (i 1)) := by
  obtain ⟨e0, e1⟩ := idx_fixedj t
  show (cfg2.win 9).cut (grid2.coords t) ((dat2 V c).after 9 t) = _
  rw [after2_9]
  funext j
  show (outsAt2 V c t.val t.isLt).2.2 j = G ((((cfg2.win 9).blk t).view.emb j) 1)
  refine hG j _ ?_
  show win2_9.index t 1 * 64 + 1 * (j 1).val = _
  rw [e1]; omega

/-- The one write-back of the second accumulator, after the last point, writes the column sums of squares. -/
theorem flushed_acc_sumsq (c : Dev nD) (t : Fin cfg2.N) (hf : (cfg2.win 9).flush t = true) :
    (dat2 V c).flushed 9 t
      = ((cfg2.win 9).blk t).view.read (Elt Ideal) (fun i : S1x64.Idx => colSumSq (h3Of V c) (i 1)) := by
  have hN : t.val < 125 := lt_of_lt_of_eq t.isLt N_2
  have ht : t.val = 124 := by have := (flush2_9 t).mp hf; omega
  exact flushed_acc_sumsq_of V c t (colSumSq (h3Of V c)) fun j f hjf => acc_sumsq_final V c t ht j f hjf

/-- The last point's block covers the one-row array. -/
theorem cover_acc_sumsq (i : S1x64.Idx) :
    ∃ t : Fin cfg2.N, (cfg2.win 9).flush t = true ∧ i ∈ ((cfg2.win 9).blk t).view.set := by
  have hi0 : (i 0).val < 1 := idx2_lt0 i
  have hi1 : (i 1).val < 64 := idx2_lt1 i
  have hq : 124 < cfg2.N := by rw [show cfg2.N = 125 from N_2]; decide
  obtain ⟨e0, e1⟩ := idx_fixedj ⟨124, hq⟩
  refine ⟨⟨124, hq⟩, (flush2_9 _).mpr rfl, ?_⟩
  rw [mem_blk_acc_sumsq]
  intro a
  match a with
  | ⟨0, _⟩ =>
    show win2_9.index _ 0 * 1 ≤ (i 0).val ∧ (i 0).val < win2_9.index _ 0 * 1 + 1
    rw [e0]; omega
  | ⟨1, _⟩ =>
    show win2_9.index _ 1 * 64 ≤ (i 1).val ∧ (i 1).val < win2_9.index _ 1 * 64 + 64
    rw [e1]; omega

end Final

end reg2_aux

open reg2_aux

/-- The row array (window 7) ends at the layer of every row. -/
theorem reg2_out (c : Dev nD) :
    ((dat2 V c).arrAt 7 cfg2.N : S1000000x64.Idx → EReal) = fun i => h3Of V c (i 0) (i 1) :=
  (dat2 V c).arrAt_eq_of_cover 7 (fun i : S1000000x64.Idx => h3Of V c (i 0) (i 1)) (fun t _ => flushed_out V c t)
    cover_out

/-- The first accumulator (window 8) ends at the column sums. -/
theorem reg2_sum (c : Dev nD) :
    ((dat2 V c).arrAt 8 cfg2.N : S1x64.Idx → EReal) = fun i => colSum (h3Of V c) (i 1) :=
  (dat2 V c).arrAt_eq_of_cover 8 (fun i : S1x64.Idx => colSum (h3Of V c) (i 1)) (flushed_acc_sum V c) cover_acc_sum

/-- The second accumulator (window 9) ends at the column sums of squares. -/
theorem reg2_sumsq (c : Dev nD) :
    ((dat2 V c).arrAt 9 cfg2.N : S1x64.Idx → EReal) = fun i => colSumSq (h3Of V c) (i 1) :=
  (dat2 V c).arrAt_eq_of_cover 9 (fun i : S1x64.Idx => colSumSq (h3Of V c) (i 1)) (flushed_acc_sumsq V c)
    cover_acc_sumsq

end Cert.KernelIdeal.Val

end
-- ==== Proof.KReg3.lean ====
/-
  The last region's result array after its 125 grid points: point t stages rows 8000 t … 8000 t + 7999 of the third
  layer's rows and the whole mean, variance, scale and shift rows, and writes the block's rows normalised. So the result
  array ends at every row normalised.
-/
import proofs.«419507_j7499012898893_1_alg».proof.Proof.Gen.KernelIdeal.Frame
import proofs.«419507_j7499012898893_1_alg».proof.Proof.Spec
import Idealize.ShloMosaic.Lib.Pipeline.Value

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

-- The buffer contents a region is entered with: every statement here holds for any of them.
variable (V : (c : Dev nD) → (b : Ref sig .tc) → Buf (Elt Ideal) ((c : Thread nD τ).loc b))

/-- Row `e` normalised, from the arrays region 3 is entered with (windows 0–4: rows, mean, variance, scale, shift). -/
def finalOf (c : Dev nD) (e : Fin nE) (f : Fin 64) : EReal :=
  normRowK (cur (V c (Pipeline.arrRef spec3 0) : S1000000x64.Idx → EReal) e)
    (cur (V c (Pipeline.arrRef spec3 1) : S1x64.Idx → EReal) 0)
    (cur (V c (Pipeline.arrRef spec3 2) : S1x64.Idx → EReal) 0)
    (cur (V c (Pipeline.arrRef spec3 3) : S1x64.Idx → EReal) 0)
    (cur (V c (Pipeline.arrRef spec3 4) : S1x64.Idx → EReal) 0) f

/-! ## The block's arithmetic at an entry -/

/-- A whole-buffer access starts at offset zero on both axes. -/
theorem reg3_hz : (![0, 0] : Fin 2 → Nat) = fun _ => 0 := funext fun a => by fin_cases a <;> rfl

/-- Entry (p, f) of the block the body writes: the row entry less the mean, times the scale over the root of the variance
    plus the small constant, plus the shift; the four [1,64] rows are read at column f whatever the row p. -/
theorem reg3_pay (x0 : FVec Ideal S8000x64 .f32) (x1 x2 x3 x4 : FVec Ideal S1x64 .f32) (p : Fin 8000) (f : Fin 64)
    (r m v g b : Fin 64 → EReal) (hr : x0 (ix2 p f) = r f) (hm : x1 (ix2 0 f) = m f) (hv : x2 (ix2 0 f) = v f)
    (hg : x3 (ix2 0 f) = g f) (hb : x4 (ix2 0 f) = b f) :
    k3_pay1 (F := Ideal) x0 x1 x2 x3 x4 (ix2 p f) = normRowK r m v g b f := by
  -- a [1,64] row broadcast over the 8000 rows is read at (0, f)
  have hk : ∀ a : Fin S1x64.rank, ((ix2 (0 : Fin 1) f : S1x64.Idx) a).val
      = if S1x64.size a = 1 then 0
        else ((ix2 p f : S8000x64.Idx) ⟨a.val + (S8000x64.rank - S1x64.rank), by have := a.isLt; omega⟩).val := by
    intro a
    match a with
    | ⟨0, _⟩ => rfl
    | ⟨1, _⟩ => rfl
  unfold k3_pay1
  simp only [shapeCast_self]
  rw [addf_apply, mulf_apply, subf_apply, broadcastTo_apply x1 _ (ix2 p f) (ix2 0 f) hk,
    broadcastTo_apply x4 _ (ix2 p f) (ix2 0 f) hk, broadcastTo_apply (mulf x3 _) _ (ix2 p f) (ix2 0 f) hk, mulf_apply]
  show (x0 (ix2 p f) - x1 (ix2 0 f)) * (x3 (ix2 0 f) * Ideal.rsqrt (x2 (ix2 0 f) + eps)) + x4 (ix2 0 f) = _
  rw [hr, hm, hv, hg, hb]
  rfl

/-! ## Where each window's block sits in its array -/

/-- The printed index maps over the 125 points: the row windows (0 and 5) are at block row t, column block 0; the four
    [1,64] windows are at block (0, 0) at every point. -/
theorem reg3_idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry (p, f) of point t's block of the row array is entry (8000 t + p, f) of the array. -/
theorem reg3_rows (c : Dev nD) (t : Fin cfg3.N) (p : Fin 8000) (f : Fin 64) (e : Fin nE)
    (he : e.val = 8000 * t.val + p.val) :
    (iblk3 V c 0 t : S8000x64.Idx → EReal) (ix2 p f) = cur (V c (Pipeline.arrRef spec3 0) : S1000000x64.Idx → EReal) e f := by
  obtain ⟨e0, e1, -⟩ := reg3_idx t
  show (V c (Pipeline.arrRef spec3 0) : S1000000x64.Idx → EReal) (((cfg3.win 0).blk t).view.emb (ix2 p f))
    = (V c (Pipeline.arrRef spec3 0) : S1000000x64.Idx → EReal) (ix2 e f)
  refine congrArg (V c (Pipeline.arrRef spec3 0) : S1000000x64.Idx → EReal) (funext fun a => Fin.ext ?_)
  match a with
  | ⟨0, _⟩ => show win3_0.index t (0 : Fin 2) * 8000 + 1 * p.val = e.val; omega
  | ⟨1, _⟩ => show win3_0.index t (1 : Fin 2) * 64 + 1 * f.val = f.val; omega

/-- The mean window's block at any point is the whole [1,64] array. -/
theorem reg3_row1 (c : Dev nD) (t : Fin cfg3.N) (f : Fin 64) :
    (iblk3 V c 1 t : S1x64.Idx → EReal) (ix2 0 f) = cur (V c (Pipeline.arrRef spec3 1) : S1x64.Idx → EReal) 0 f := by
  obtain ⟨-, -, e0, e1, -⟩ := reg3_idx t
  show (V c (Pipeline.arrRef spec3 1) : S1x64.Idx → EReal) (((cfg3.win 1).blk t).view.emb (ix2 0 f))
    = (V c (Pipeline.arrRef spec3 1) : S1x64.Idx → EReal) (ix2 0 f)
  refine congrArg (V c (Pipeline.arrRef spec3 1) : S1x64.Idx → EReal) (funext fun a => Fin.ext ?_)
  match a with
  | ⟨0, _⟩ => show win3_1.index t (0 : Fin 2) * 1 + 1 * 0 = 0; omega
  | ⟨1, _⟩ => show win3_1.index t (1 : Fin 2) * 64 + 1 * f.val = f.val; omega

/-- The variance window's block at any point is the whole [1,64] array. -/
theorem reg3_row2 (c : Dev nD) (t : Fin cfg3.N) (f : Fin 64) :
    (iblk3 V c 2 t : S1x64.Idx → EReal) (ix2 0 f) = cur (V c (Pipeline.arrRef spec3 2) : S1x64.Idx → EReal) 0 f := by
  obtain ⟨-, -, -, -, e0, e1, -⟩ := reg3_idx t
  show (V c (Pipeline.arrRef spec3 2) : S1x64.Idx → EReal) (((cfg3.win 2).blk t).view.emb (ix2 0 f))
    = (V c (Pipeline.arrRef spec3 2) : S1x64.Idx → EReal) (ix2 0 f)
  refine congrArg (V c (Pipeline.arrRef spec3 2) : S1x64.Idx → EReal) (funext fun a => Fin.ext ?_)
  match a with
  | ⟨0, _⟩ => show win3_2.index t (0 : Fin 2) * 1 + 1 * 0 = 0; omega
  | ⟨1, _⟩ => show win3_2.index t (1 : Fin 2) * 64 + 1 * f.val = f.val; omega

/-- The scale window's block at any point is the whole [1,64] array. -/
theorem reg3_row3 (c : Dev nD) (t : Fin cfg3.N) (f : Fin 64) :
    (iblk3 V c 3 t : S1x64.Idx → EReal) (ix2 0 f) = cur (V c (Pipeline.arrRef spec3 3) : S1x64.Idx → EReal) 0 f := by
  obtain ⟨-, -, -, -, -, -, e0, e1, -⟩ := reg3_idx t
  show (V c (Pipeline.arrRef spec3 3) : S1x64.Idx → EReal) (((cfg3.win 3).blk t).view.emb (ix2 0 f))
    = (V c (Pipeline.arrRef spec3 3) : S1x64.Idx → EReal) (ix2 0 f)
  refine congrArg (V c (Pipeline.arrRef spec3 3) : S1x64.Idx → EReal) (funext fun a => Fin.ext ?_)
  match a with
  | ⟨0, _⟩ => show win3_3.index t (0 : Fin 2) * 1 + 1 * 0 = 0; omega
  | ⟨1, _⟩ => show win3_3.index t (1 : Fin 2) * 64 + 1 * f.val = f.val; omega

/-- The shift window's block at any point is the whole [1,64] array. -/
theorem reg3_row4 (c : Dev nD) (t : Fin cfg3.N) (f : Fin 64) :
    (iblk3 V c 4 t : S1x64.Idx → EReal) (ix2 0 f) = cur (V c (Pipeline.arrRef spec3 4) : S1x64.Idx → EReal) 0 f := by
  obtain ⟨-, -, -, -, -, -, -, -, e0, e1, -⟩ := reg3_idx t
  show (V c (Pipeline.arrRef spec3 4) : S1x64.Idx → EReal) (((cfg3.win 4).blk t).view.emb (ix2 0 f))
    = (V c (Pipeline.arrRef spec3 4) : S1x64.Idx → EReal) (ix2 0 f)
  refine congrArg (V c (Pipeline.arrRef spec3 4) : S1x64.Idx → EReal) (funext fun a => Fin.ext ?_)
  match a with
  | ⟨0, _⟩ => show win3_4.index t (0 : Fin 2) * 1 + 1 * 0 = 0; omega
  | ⟨1, _⟩ => show win3_4.index t (1 : Fin 2) * 64 + 1 * f.val = f.val; omega

/-! ## What a point writes back, and the cover -/

/-- Point t writes back block t of the array of normalised rows. -/
theorem reg3_flushed (c : Dev nD) (t : Fin cfg3.N) :
    (dat3 V c).flushed 5 t
      = ((cfg3.win 5).blk t).view.read (Elt Ideal) (fun i : S1000000x64.Idx => finalOf V c (i 0) (i 1)) := by
  have ht : t.val < 125 := lt_of_lt_of_eq t.isLt N_3
  obtain ⟨-, -, -, -, -, -, -, -, -, -, e0, e1⟩ := reg3_idx t
  show (cfg3.win 5).cut (grid3.coords t) ((dat3 V c).after 5 t) = _
  rw [after3_5]
  unfold out3_5
  rw [View.canon_unit_zero reg3_hz]
  simp only [View.ld_unit_zero (S := S8000x64) reg3_hz, View.ld_unit_zero (S := S1x64) reg3_hz]
  funext j
  revert j
  show ∀ j : S8000x64.Idx, k3_pay1 (iblk3 V c 0 t) (iblk3 V c 1 t) (iblk3 V c 2 t) (iblk3 V c 3 t) (iblk3 V c 4 t) j
    = finalOf V c ((((cfg3.win 5).blk t).view.emb j) 0) ((((cfg3.win 5).blk t).view.emb j) 1)
  intro j
  obtain ⟨p, f, rfl⟩ : ∃ (p : Fin 8000) (f : Fin 64), j = ix2 p f := ⟨j 0, j 1, eq_ix2 j⟩
  have hlt : 8000 * t.val + p.val < 1000000 := by have := p.isLt; omega
  have hemb : (((cfg3.win 5).blk t).view.emb (ix2 p f) : S1000000x64.Idx)
      = ix2 (⟨8000 * t.val + p.val, hlt⟩ : Fin nE) f := by
    funext a; apply Fin.ext
    match a with
    | ⟨0, _⟩ => show win3_5.index t (0 : Fin 2) * 8000 + 1 * p.val = 8000 * t.val + p.val; omega
    | ⟨1, _⟩ => show win3_5.index t (1 : Fin 2) * 64 + 1 * f.val = f.val; omega
  rw [hemb]
  exact reg3_pay (iblk3 V c 0 t) (iblk3 V c 1 t) (iblk3 V c 2 t) (iblk3 V c 3 t) (iblk3 V c 4 t) p f
    (cur (V c (Pipeline.arrRef spec3 0) : S1000000x64.Idx → EReal) ⟨8000 * t.val + p.val, hlt⟩)
    (cur (V c (Pipeline.arrRef spec3 1) : S1x64.Idx → EReal) 0)
    (cur (V c (Pipeline.arrRef spec3 2) : S1x64.Idx → EReal) 0)
    (cur (V c (Pipeline.arrRef spec3 3) : S1x64.Idx → EReal) 0)
    (cur (V c (Pipeline.arrRef spec3 4) : S1x64.Idx → EReal) 0)
    (reg3_rows V c t p f _ rfl) (reg3_row1 V c t f) (reg3_row2 V c t f) (reg3_row3 V c t f) (reg3_row4 V c t f)

/-- An index of the result array is in point t's block iff each coordinate is in the block's range on its axis. -/
theorem reg3_mem (t : Fin cfg3.N) (i : S1000000x64.Idx) :
    i ∈ ((cfg3.win 5).blk t).view.set ↔ ∀ a : Fin 2, win3_5.index t a * S8000x64.size a ≤ (i a).val
      ∧ (i a).val < win3_5.index t a * S8000x64.size a + S8000x64.size a := by
  show i ∈ ((View.whole main_v36).slice (win3_5.rect t)).set ↔ _
  rw [View.set_slice_whole, Rect.mem_set_unit]
  exact Iff.rfl

/-- Row r of the result array is in the block of point r / 8000, which writes back. -/
theorem reg3_cover (i : S1000000x64.Idx) :
    ∃ t : Fin cfg3.N, (cfg3.win 5).flush t = true ∧ i ∈ ((cfg3.win 5).blk t).view.set := by
  have hi0 : (i 0).val < 1000000 := (i 0).isLt
  have hi1 : (i 1).val < 64 := (i 1).isLt
  obtain ⟨t, ht⟩ : ∃ t : Fin cfg3.N, t.val = (i 0).val / 8000 :=
    ⟨⟨(i 0).val / 8000, lt_of_lt_of_eq (by omega : (i 0).val / 8000 < 125) N_3.symm⟩, rfl⟩
  obtain ⟨-, -, -, -, -, -, -, -, -, -, e0, e1⟩ := reg3_idx t
  refine ⟨t, flush3_5 t, ?_⟩
  rw [reg3_mem]
  intro a
  match a with
  | ⟨0, _⟩ =>
    show win3_5.index t (0 : Fin 2) * 8000 ≤ (i 0).val ∧ (i 0).val < win3_5.index t (0 : Fin 2) * 8000 + 8000
    omega
  | ⟨1, _⟩ =>
    show win3_5.index t (1 : Fin 2) * 64 ≤ (i 1).val ∧ (i 1).val < win3_5.index t (1 : Fin 2) * 64 + 64
    omega

/-- The result array (window 5) ends at every row normalised. -/
theorem reg3_out (c : Dev nD) :
    ((dat3 V c).arrAt 5 cfg3.N : S1000000x64.Idx → EReal) = fun i => finalOf V c (i 0) (i 1) :=
  (dat3 V c).arrAt_eq_of_cover 5 (fun i : S1000000x64.Idx => finalOf V c (i 0) (i 1))
    (fun t _ => reg3_flushed V c t) reg3_cover

end Cert.KernelIdeal.Val

end
-- ==== Proof.KChain.lean ====
/-
  The program's result array as a function of its argument arrays: between regions the host divides each column sum by
  the number of rows and subtracts the squared mean from the mean of squares; each region is entered with the previous
  region's arrays and those rows; nothing else writes the buffers a later region reads.
-/
import proofs.«419507_j7499012898893_1_alg».proof.Proof.Gen.KernelIdeal.Frame
import proofs.«419507_j7499012898893_1_alg».proof.Proof.Spec
import proofs.«419507_j7499012898893_1_alg».proof.Proof.KReg0
import proofs.«419507_j7499012898893_1_alg».proof.Proof.KReg1
import proofs.«419507_j7499012898893_1_alg».proof.Proof.KReg2
import proofs.«419507_j7499012898893_1_alg».proof.Proof.KReg3
import Idealize.ShloMosaic.Lib.StableHlo.Run
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The argument arrays as launched on core `c`. -/
def argsOf (c : Dev nD) : Spec.Args :=
  Args.ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16))

namespace Chain

/-! ## Layout operations and the table's product read at an index -/

/-- A vector cast to a column reads, at row `i`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Sixty-four rows of the 256-row weight matrix cut from row `64 q` are its `q`-th part. -/
theorem slice_wPart (X : S256x64.Idx → EReal) (o : ℕ) (q : Fin 4) (ho : o = 64 * q.val) (h : S256x64.Slices ![o, 0] S64x64)
    (k f : Fin 64) : extractStridedSlice S64x64 ![o, 0] X h (ix2 k f) = wPart (cur X) q k f := by
  subst ho
  exact slice2_axis0_apply _ X h k f _ rfl

/-- The dimension numbers of the table's product: a [1024, 64] array against a [64, 64] array, the first's columns
    contracted with the second's rows. -/
abbrev tableDims := dot_S1024x64_S64x64_S1024x64_1_0_0_1_n_n

/-- In the table's product the left operand is read in the result's row … -/
theorem tableDims_lhs_row (j : S1024x64.Idx) (k : tableDims.contr.Idx) : (tableDims.lhsIdx j k 0).val = (j 0).val := rfl
/-- … and in the column the contraction index names; -/
theorem tableDims_lhs_col (j : S1024x64.Idx) (k : tableDims.contr.Idx) : (tableDims.lhsIdx j k 1).val = (k ⟨0, by decide⟩).val :=
  DotDims.lhsIdx_val_of_single (d := tableDims) (cl := 1) rfl j k
/-- the right operand in the row the contraction index names … -/
theorem tableDims_rhs_row (j : S1024x64.Idx) (k : tableDims.contr.Idx) : (tableDims.rhsIdx j k 0).val = (k ⟨0, by decide⟩).val :=
  DotDims.rhsIdx_val_of_single (d := tableDims) (cr := 0) rfl j k
/-- … and in the result's column. -/
theorem tableDims_rhs_col (j : S1024x64.Idx) (k : tableDims.contr.Idx) : (tableDims.rhsIdx j k 1).val = (j 1).val := rfl

/-- The host's product of the table by a weight block, entry by entry: the sum over the 64 contracted positions. -/
theorem dot_read (l : FVec Ideal S1024x64 .f32) (r : FVec Ideal S64x64 .f32) (g : Fin 1024) (f : Fin 64) :
    Host.dotGeneral (F := Ideal) dot_S1024x64_S64x64_S1024x64_1_0_0_1_n_n none l r (ix2 g f) = ∑ k : Fin 64, l (ix2 g k) * r (ix2 k f) := by
  show FloatOps.dotGeneral tableDims none _ l r (ix2 g f) = _
  rw [Ideal.dotGeneral_apply, ← Equiv.sum_comp (contrEquiv1 tableDims 64 rfl rfl).symm]
  refine Finset.sum_congr rfl fun k _ => ?_
  have hk := contrEquiv1_symm_val tableDims 64 rfl rfl k
  congr 2
  · funext a; refine Fin.ext ?_
    match a with
    | ⟨0, _⟩ => exact tableDims_lhs_row _ _
    | ⟨1, _⟩ => exact (tableDims_lhs_col _ _).trans hk
  · funext a; refine Fin.ext ?_
    match a with
    | ⟨0, _⟩ => exact (tableDims_rhs_row _ _).trans hk
    | ⟨1, _⟩ => exact tableDims_rhs_col _ _

/-! ## What each host stretch writes, and what it therefore keeps -/

/-- The references the first host stretch writes. -/
abbrev hostW0 : List (Ref sig .tc) :=
  [main_v0, main_v1, main_v2, main_v3, main_v4, main_v5, main_v6, main_v7, main_v8, main_v9, main_v10, main_v11, main_v12,
   main_v13, main_v14]
/-- The references the second host stretch writes. -/
abbrev hostW1 : List (Ref sig .tc) := [main_cst, main_v16, main_v17, main_cst_0, main_v18, main_v19, main_v20, main_v21]
/-- The references the third host stretch writes. -/
abbrev hostW2 : List (Ref sig .tc) := [main_cst_1, main_v23, main_v24, main_cst_2, main_v25, main_v26, main_v27, main_v28]
/-- The references the fourth host stretch writes. -/
abbrev hostW3 : List (Ref sig .tc) := [main_cst_3, main_v30, main_v31, main_cst_4, main_v32, main_v33, main_v34, main_v35]

theorem hostOps0_writes : (hostOps0 : List (HloOp τ sig (Elt Ideal))).Forall fun op => op.writes ⊆ (hostW0.map (Proc.devRef (τ := τ) .tc)).toFinset := by
  simp only [hostOps0, List.Forall, StableHlo.unary_writes, StableHlo.binary_writes, StableHlo.reshape_writes,
    Finset.singleton_subset_iff, List.mem_toFinset]
  repeat' apply And.intro
  all_goals exact List.mem_map_of_mem (by decide)
theorem hostOps1_writes : (hostOps1 : List (HloOp τ sig (Elt Ideal))).Forall fun op => op.writes ⊆ (hostW1.map (Proc.devRef (τ := τ) .tc)).toFinset := by
  simp only [hostOps1, List.Forall, StableHlo.nullary_writes, StableHlo.unary_writes, StableHlo.binary_writes,
    Finset.singleton_subset_iff, List.mem_toFinset]
  repeat' apply And.intro
  all_goals exact List.mem_map_of_mem (by decide)
theorem hostOps2_writes : (hostOps2 : List (HloOp τ sig (Elt Ideal))).Forall fun op => op.writes ⊆ (hostW2.map (Proc.devRef (τ := τ) .tc)).toFinset := by
  simp only [hostOps2, List.Forall, StableHlo.nullary_writes, StableHlo.unary_writes, StableHlo.binary_writes,
    Finset.singleton_subset_iff, List.mem_toFinset]
  repeat' apply And.intro
  all_goals exact List.mem_map_of_mem (by decide)
theorem hostOps3_writes : (hostOps3 : List (HloOp τ sig (Elt Ideal))).Forall fun op => op.writes ⊆ (hostW3.map (Proc.devRef (τ := τ) .tc)).toFinset := by
  simp only [hostOps3, List.Forall, StableHlo.nullary_writes, StableHlo.unary_writes, StableHlo.binary_writes,
    Finset.singleton_subset_iff, List.mem_toFinset]
  repeat' apply And.intro
  all_goals exact List.mem_map_of_mem (by decide)

/-- A buffer the first host stretch does not write holds its launch contents at region 0's entry. -/
theorem keep0 (c : Dev nD) (r : Ref sig .tc) (h : r ∉ hostW0) :
    W1 m ρ c (Proc.devRef .tc r) = m ((c : Thread nD τ).loc r) :=
  StableHlo.after_of_writes_sub hostOps0 _ hostOps0_writes h
theorem keep1 (c : Dev nD) (r : Ref sig .tc) (h : r ∉ hostW1) :
    W3 m ρ c (Proc.devRef .tc r) = W2 m ρ c (Proc.devRef .tc r) :=
  StableHlo.after_of_writes_sub hostOps1 _ hostOps1_writes h
theorem keep2 (c : Dev nD) (r : Ref sig .tc) (h : r ∉ hostW2) :
    W5 m ρ c (Proc.devRef .tc r) = W4 m ρ c (Proc.devRef .tc r) :=
  StableHlo.after_of_writes_sub hostOps2 _ hostOps2_writes h
theorem keep3 (c : Dev nD) (r : Ref sig .tc) (h : r ∉ hostW3) :
    W7 m ρ c (Proc.devRef .tc r) = W6 m ρ c (Proc.devRef .tc r) :=
  StableHlo.after_of_writes_sub hostOps3 _ hostOps3_writes h

/-! ## Region 0 is entered with the argument arrays -/

theorem in0_src (c : Dev nD) : cur (V1 m ρ c (Pipeline.arrRef spec0 0) : S1000000x64.Idx → EReal) = (argsOf m c).src :=
  congrArg (fun x : S1000000x64.Idx → EReal => cur x) (keep0 m ρ c main_arg0 (by decide))
theorem in0_dest (c : Dev nD) : cur (V1 m ρ c (Pipeline.arrRef spec0 1) : S1000000x64.Idx → EReal) = (argsOf m c).dest :=
  congrArg (fun x : S1000000x64.Idx → EReal => cur x) (keep0 m ρ c main_arg1 (by decide))
theorem in0_edge (c : Dev nD) : cur (V1 m ρ c (Pipeline.arrRef spec0 2) : S1000000x64.Idx → EReal) = (argsOf m c).edge :=
  congrArg (fun x : S1000000x64.Idx → EReal => cur x) (keep0 m ρ c main_arg2 (by decide))

/-- The graph ids as a column read the id vector. -/
theorem in0_batch (c : Dev nD) (e : Fin nE) :
    (V1 m ρ c (Pipeline.arrRef spec0 3) : S1000000x1.Idx → BitVec 32) (ix2 e 0) = (argsOf m c).batch e := by
  have e0 : (W1 m ρ c (Proc.devRef .tc main_v0) : S1000000x1.Idx → BitVec 32)
      = shapeCast S1000000x1 (m ((c : Thread nD τ).loc main_arg4) : S1000000.Idx → BitVec 32) shapeCasts_S1000000_S1000000x1 := by
    show StableHlo.after hostOps0 (W0 m ρ c) (Proc.devRef .tc main_v0) = _
    after_results
    rfl
  show (W1 m ρ c (Proc.devRef .tc main_v0) : S1000000x1.Idx → BitVec 32) (ix2 e 0) = _
  rw [e0]
  exact shapeCast_a_a1_apply _ _ e 0

/-- The multiplied table is the table of per-graph attributes against the last quarter of the first layer's weights. -/
theorem in0_table (c : Dev nD) : cur (V1 m ρ c (Pipeline.arrRef spec0 4) : S1024x64.Idx → EReal) = table (argsOf m c).ga (argsOf m c).W1 := by
  have e0 : (W1 m ρ c (Proc.devRef .tc main_v5) : S1024x64.Idx → EReal)
      = Host.dotGeneral (F := Ideal) (φ₁ := .f32) (φ₂ := .f32) dot_S1024x64_S64x64_S1024x64_1_0_0_1_n_n none
          (m ((c : Thread nD τ).loc main_arg3) : FVec Ideal S1024x64 .f32)
          (extractStridedSlice S64x64 ![192, 0] (m ((c : Thread nD τ).loc main_arg5) : FVec Ideal S256x64 .f32) slices_S256x64_S64x64_192_0) := by
    show StableHlo.after hostOps0 (W0 m ρ c) (Proc.devRef .tc main_v5) = _
    after_results
  funext g f
  refine (congrFun e0 (ix2 g f)).trans ((dot_read _ _ g f).trans ?_)
  unfold table dotRow
  refine Finset.sum_congr rfl fun k _ => ?_
  rw [slice_wPart _ 192 3 rfl]
  rfl

/-- The three weight blocks are the first three quarters of the first layer's weights. -/
theorem in0_ws (c : Dev nD) : cur (V1 m ρ c (Pipeline.arrRef spec0 5) : S64x64.Idx → EReal) = wPart (argsOf m c).W1 0 := by
  have e0 : (W1 m ρ c (Proc.devRef .tc main_v1) : S64x64.Idx → EReal)
      = extractStridedSlice S64x64 ![0, 0] (m ((c : Thread nD τ).loc main_arg5) : FVec Ideal S256x64 .f32) slices_S256x64_S64x64_0_0 := by
    show StableHlo.after hostOps0 (W0 m ρ c) (Proc.devRef .tc main_v1) = _
    after_results
  funext k f
  exact (congrFun e0 (ix2 k f)).trans (slice_wPart _ 0 0 rfl _ k f)
theorem in0_wd (c : Dev nD) : cur (V1 m ρ c (Pipeline.arrRef spec0 6) : S64x64.Idx → EReal) = wPart (argsOf m c).W1 1 := by
  have e0 : (W1 m ρ c (Proc.devRef .tc main_v2) : S64x64.Idx → EReal)
      = extractStridedSlice S64x64 ![64, 0] (m ((c : Thread nD τ).loc main_arg5) : FVec Ideal S256x64 .f32) slices_S256x64_S64x64_64_0 := by
    show StableHlo.after hostOps0 (W0 m ρ c) (Proc.devRef .tc main_v2) = _
    after_results
  funext k f
  exact (congrFun e0 (ix2 k f)).trans (slice_wPart _ 64 1 rfl _ k f)
theorem in0_we (c : Dev nD) : cur (V1 m ρ c (Pipeline.arrRef spec0 7) : S64x64.Idx → EReal) = wPart (argsOf m c).W1 2 := by
  have e0 : (W1 m ρ c (Proc.devRef .tc main_v3) : S64x64.Idx → EReal)
      = extractStridedSlice S64x64 ![128, 0] (m ((c : Thread nD τ).loc main_arg5) : FVec Ideal S256x64 .f32) slices_S256x64_S64x64_128_0 := by
    show StableHlo.after hostOps0 (W0 m ρ c) (Proc.devRef .tc main_v3) = _
    after_results
  funext k f
  exact (congrFun e0 (ix2 k f)).trans (slice_wPart _ 128 2 rfl _ k f)

/-- The first bias as a one-row array reads the bias vector. -/
theorem in0_b1 (c : Dev nD) : cur (V1 m ρ c (Pipeline.arrRef spec0 8) : S1x64.Idx → EReal) 0 = (argsOf m c).b1 := by
  have e0 : (W1 m ρ c (Proc.devRef .tc main_v6) : S1x64.Idx → EReal)
      = shapeCast S1x64 (m ((c : Thread nD τ).loc main_arg6) : S64.Idx → EReal) shapeCasts_S64_S1x64 := by
    show StableHlo.after hostOps0 (W0 m ρ c) (Proc.devRef .tc main_v6) = _
    after_results
    rfl
  funext f
  exact (congrFun e0 (ix2 0 f)).trans (shapeCast_a_1a_apply _ _ 0 f)

/-- Region 0's layer of its entry arrays is the kernel's first layer of the arguments. -/
theorem entry0 (c : Dev nD) : h1Of (V1 m ρ) c = kOut1 (argsOf m c) := by
  funext e f
  unfold h1Of kOut1
  rw [in0_src m ρ c, in0_dest m ρ c, in0_edge m ρ c, in0_batch m ρ c e, in0_table m ρ c, in0_ws m ρ c, in0_wd m ρ c,
    in0_we m ρ c, in0_b1 m ρ c]

/-! ## Between regions: a column sum to a mean, a column sum of squares to a variance -/

/-- A one-row array divided entry by entry by the number of rows. -/
def meanRow (s : FVec Ideal S1x64 .f32) : FVec Ideal S1x64 .f32 :=
  Host.divf (F := Ideal) s (broadcastInDim S1x64 ![] bcast_S_S1x64 (constant (F := Ideal) S_ .f32 0x49742400#32))

/-- The mean of squares minus the squared mean, from the two one-row sums. -/
def varRow (s sq : FVec Ideal S1x64 .f32) : FVec Ideal S1x64 .f32 :=
  subf (meanRow sq) (mulf (meanRow s) (meanRow s))

theorem meanRow_apply (s : FVec Ideal S1x64 .f32) (i : S1x64.Idx) : meanRow s i = Ideal.div (s i) nRows := by
  unfold meanRow
  rw [hostDivf_apply, broadcastInDim_scalar_apply, constant_apply]

theorem varRow_apply (s sq : FVec Ideal S1x64 .f32) (i : S1x64.Idx) :
    varRow s sq i = Ideal.div (sq i) nRows - Ideal.div (s i) nRows * Ideal.div (s i) nRows := by
  unfold varRow
  rw [subf_apply, mulf_apply, meanRow_apply, meanRow_apply]

/-- Column sums laid out as one row give the kernel's mean. -/
theorem meanRow_colSum (h : Fin nE → Fin 64 → EReal) (f : Fin 64) :
    meanRow (fun i => colSum h (i 1)) (ix2 0 f) = meanK (colSum h) f := by
  rw [meanRow_apply]; rfl

/-- Column sums and column sums of squares laid out as rows give the kernel's variance. -/
theorem varRow_colSum (h : Fin nE → Fin 64 → EReal) (f : Fin 64) :
    varRow (fun i => colSum h (i 1)) (fun i => colSumSq h (i 1)) (ix2 0 f) = varK (colSumSq h) (meanK (colSum h)) f := by
  rw [varRow_apply]; rfl

/-! ## Region 0's arrays at its exit -/

theorem out0_rows (c : Dev nD) :
    (W2 m ρ c (Proc.devRef .tc main_v15_0) : S1000000x64.Idx → EReal) = fun i => kOut1 (argsOf m c) (i 0) (i 1) :=
  (W2_arr m ρ c 9).trans ((reg0_out (V1 m ρ) c).trans (by rw [entry0 m ρ c]))
theorem out0_sum (c : Dev nD) :
    (W2 m ρ c (Proc.devRef .tc main_v15_1) : S1x64.Idx → EReal) = fun i => colSum (kOut1 (argsOf m c)) (i 1) :=
  (W2_arr m ρ c 10).trans ((reg0_sum (V1 m ρ) c).trans (by rw [entry0 m ρ c]))
theorem out0_sumsq (c : Dev nD) :
    (W2 m ρ c (Proc.devRef .tc main_v15_2) : S1x64.Idx → EReal) = fun i => colSumSq (kOut1 (argsOf m c)) (i 1) :=
  (W2_arr m ρ c 11).trans ((reg0_sumsq (V1 m ρ) c).trans (by rw [entry0 m ρ c]))

/-! ## Region 1 is entered with the first layer, its mean and variance, and the second layer's arguments -/

theorem in1_rows (c : Dev nD) : cur (V3 m ρ c (Pipeline.arrRef spec1 0) : S1000000x64.Idx → EReal) = kOut1 (argsOf m c) :=
  congrArg (fun x : S1000000x64.Idx → EReal => cur x) ((keep1 m ρ c main_v15_0 (by decide)).trans (out0_rows m ρ c))

theorem in1_mean (c : Dev nD) : cur (V3 m ρ c (Pipeline.arrRef spec1 1) : S1x64.Idx → EReal) 0 = kMean1 (argsOf m c) := by
  have e0 : (W3 m ρ c (Proc.devRef .tc main_v17) : S1x64.Idx → EReal)
      = meanRow (W2 m ρ c (Proc.devRef .tc main_v15_1)) := by
    show StableHlo.after hostOps1 (W2 m ρ c) (Proc.devRef .tc main_v17) = _
    after_results
    rfl
  funext f
  show (W3 m ρ c (Proc.devRef .tc main_v17) : S1x64.Idx → EReal) (ix2 0 f) = _
  rw [e0, out0_sum m ρ c]
  exact meanRow_colSum _ f

theorem in1_var (c : Dev nD) : cur (V3 m ρ c (Pipeline.arrRef spec1 2) : S1x64.Idx → EReal) 0 = kVar1 (argsOf m c) := by
  have e0 : (W3 m ρ c (Proc.devRef .tc main_v21) : S1x64.Idx → EReal)
      = varRow (W2 m ρ c (Proc.devRef .tc main_v15_1)) (W2 m ρ c (Proc.devRef .tc main_v15_2)) := by
    show StableHlo.after hostOps1 (W2 m ρ c) (Proc.devRef .tc main_v21) = _
    after_results
    rfl
  funext f
  show (W3 m ρ c (Proc.devRef .tc main_v21) : S1x64.Idx → EReal) (ix2 0 f) = _
  rw [e0, out0_sum m ρ c, out0_sumsq m ρ c]
  exact varRow_colSum _ f

/-- A scale, shift or bias vector made a one-row array by the first host stretch, read at the region that takes it. -/
theorem row_v7 (c : Dev nD) (f : Fin 64) :
    (W1 m ρ c (Proc.devRef .tc main_v7) : S1x64.Idx → EReal) (ix2 0 f) = (argsOf m c).b2 f := by
  have e0 : (W1 m ρ c (Proc.devRef .tc main_v7) : S1x64.Idx → EReal)
      = shapeCast S1x64 (m ((c : Thread nD τ).loc main_arg8) : S64.Idx → EReal) shapeCasts_S64_S1x64 := by
    show StableHlo.after hostOps0 (W0 m ρ c) (Proc.devRef .tc main_v7) = _
    after_results
    rfl
  exact (congrFun e0 (ix2 0 f)).trans (shapeCast_a_1a_apply _ _ 0 f)
theorem row_v8 (c : Dev nD) (f : Fin 64) :
    (W1 m ρ c (Proc.devRef .tc main_v8) : S1x64.Idx → EReal) (ix2 0 f) = (argsOf m c).b3 f := by
  have e0 : (W1 m ρ c (Proc.devRef .tc main_v8) : S1x64.Idx → EReal)
      = shapeCast S1x64 (m ((c : Thread nD τ).loc main_arg10) : S64.Idx → EReal) shapeCasts_S64_S1x64 := by
    show StableHlo.after hostOps0 (W0 m ρ c) (Proc.devRef .tc main_v8) = _
    after_results
    rfl
  exact (congrFun e0 (ix2 0 f)).trans (shapeCast_a_1a_apply _ _ 0 f)
theorem row_v9 (c : Dev nD) (f : Fin 64) :
    (W1 m ρ c (Proc.devRef .tc main_v9) : S1x64.Idx → EReal) (ix2 0 f) = (argsOf m c).g1 f := by
  have e0 : (W1 m ρ c (Proc.devRef .tc main_v9) : S1x64.Idx → EReal)
      = shapeCast S1x64 (m ((c : Thread nD τ).loc main_arg11) : S64.Idx → EReal) shapeCasts_S64_S1x64 := by
    show StableHlo.after hostOps0 (W0 m ρ c) (Proc.devRef .tc main_v9) = _
    after_results
    rfl
  exact (congrFun e0 (ix2 0 f)).trans (shapeCast_a_1a_apply _ _ 0 f)
theorem row_v10 (c : Dev nD) (f : Fin 64) :
    (W1 m ρ c (Proc.devRef .tc main_v10) : S1x64.Idx → EReal) (ix2 0 f) = (argsOf m c).be1 f := by
  have e0 : (W1 m ρ c (Proc.devRef .tc main_v10) : S1x64.Idx → EReal)
      = shapeCast S1x64 (m ((c : Thread nD τ).loc main_arg12) : S64.Idx → EReal) shapeCasts_S64_S1x64 := by
    show StableHlo.after hostOps0 (W0 m ρ c) (Proc.devRef .tc main_v10) = _
    after_results
    rfl
  exact (congrFun e0 (ix2 0 f)).trans (shapeCast_a_1a_apply _ _ 0 f)
theorem row_v11 (c : Dev nD) (f : Fin 64) :
    (W1 m ρ c (Proc.devRef .tc main_v11) : S1x64.Idx → EReal) (ix2 0 f) = (argsOf m c).g2 f := by
  have e0 : (W1 m ρ c (Proc.devRef .tc main_v11) : S1x64.Idx → EReal)
      = shapeCast S1x64 (m ((c : Thread nD τ).loc main_arg13) : S64.Idx → EReal) shapeCasts_S64_S1x64 := by
    show StableHlo.after hostOps0 (W0 m ρ c) (Proc.devRef .tc main_v11) = _
    after_results
    rfl
  exact (congrFun e0 (ix2 0 f)).trans (shapeCast_a_1a_apply _ _ 0 f)
theorem row_v12 (c : Dev nD) (f : Fin 64) :
    (W1 m ρ c (Proc.devRef .tc main_v12) : S1x64.Idx → EReal) (ix2 0 f) = (argsOf m c).be2 f := by
  have e0 : (W1 m ρ c (Proc.devRef .tc main_v12) : S1x64.Idx → EReal)
      = shapeCast S1x64 (m ((c : Thread nD τ).loc main_arg14) : S64.Idx → EReal) shapeCasts_S64_S1x64 := by
    show StableHlo.after hostOps0 (W0 m ρ c) (Proc.devRef .tc main_v12) = _
    after_results
    rfl
  exact (congrFun e0 (ix2 0 f)).trans (shapeCast_a_1a_apply _ _ 0 f)
theorem row_v13 (c : Dev nD) (f : Fin 64) :
    (W1 m ρ c (Proc.devRef .tc main_v13) : S1x64.Idx → EReal) (ix2 0 f) = (argsOf m c).g3 f := by
  have e0 : (W1 m ρ c (Proc.devRef .tc main_v13) : S1x64.Idx → EReal)
      = shapeCast S1x64 (m ((c : Thread nD τ).loc main_arg15) : S64.Idx → EReal) shapeCasts_S64_S1x64 := by
    show StableHlo.after hostOps0 (W0 m ρ c) (Proc.devRef .tc main_v13) = _
    after_results
    rfl
  exact (congrFun e0 (ix2 0 f)).trans (shapeCast_a_1a_apply _ _ 0 f)
theorem row_v14 (c : Dev nD) (f : Fin 64) :
    (W1 m ρ c (Proc.devRef .tc main_v14) : S1x64.Idx → EReal) (ix2 0 f) = (argsOf m c).be3 f := by
  have e0 : (W1 m ρ c (Proc.devRef .tc main_v14) : S1x64.Idx → EReal)
      = shapeCast S1x64 (m ((c : Thread nD τ).loc main_arg16) : S64.Idx → EReal) shapeCasts_S64_S1x64 := by
    show StableHlo.after hostOps0 (W0 m ρ c) (Proc.devRef .tc main_v14) = _
    after_results
    rfl
  exact (congrFun e0 (ix2 0 f)).trans (shapeCast_a_1a_apply _ _ 0 f)

/-- The second layer's scale, shift, weights and bias reach region 1 as launched: region 0 has no window on them and the
    second host stretch does not write them. -/
theorem in1_g1 (c : Dev nD) : cur (V3 m ρ c (Pipeline.arrRef spec1 3) : S1x64.Idx → EReal) 0 = (argsOf m c).g1 := by
  funext f
  exact (congrFun ((keep1 m ρ c main_v9 (by decide)).trans (W2_of_ne m ρ c main_v9 (by decide))) (ix2 0 f)).trans (row_v9 m ρ c f)
theorem in1_be1 (c : Dev nD) : cur (V3 m ρ c (Pipeline.arrRef spec1 4) : S1x64.Idx → EReal) 0 = (argsOf m c).be1 := by
  funext f
  exact (congrFun ((keep1 m ρ c main_v10 (by decide)).trans (W2_of_ne m ρ c main_v10 (by decide))) (ix2 0 f)).trans (row_v10 m ρ c f)
theorem in1_w (c : Dev nD) : cur (V3 m ρ c (Pipeline.arrRef spec1 5) : S64x64.Idx → EReal) = (argsOf m c).W2 :=
  congrArg (fun x : S64x64.Idx → EReal => cur x)
    ((keep1 m ρ c main_arg7 (by decide)).trans ((W2_of_ne m ρ c main_arg7 (by decide)).trans (keep0 m ρ c main_arg7 (by decide))))
theorem in1_b (c : Dev nD) : cur (V3 m ρ c (Pipeline.arrRef spec1 6) : S1x64.Idx → EReal) 0 = (argsOf m c).b2 := by
  funext f
  exact (congrFun ((keep1 m ρ c main_v7 (by decide)).trans (W2_of_ne m ρ c main_v7 (by decide))) (ix2 0 f)).trans (row_v7 m ρ c f)

/-- Region 1's layer of its entry arrays is the kernel's second layer of the arguments. -/
theorem entry1 (c : Dev nD) : h2Of (V3 m ρ) c = kOut2 (argsOf m c) := by
  funext e f
  unfold h2Of kOut2
  rw [in1_rows m ρ c, in1_mean m ρ c, in1_var m ρ c, in1_g1 m ρ c, in1_be1 m ρ c, in1_w m ρ c, in1_b m ρ c]

/-! ## Region 1's arrays at its exit -/

theorem out1_rows (c : Dev nD) :
    (W4 m ρ c (Proc.devRef .tc main_v22_0) : S1000000x64.Idx → EReal) = fun i => kOut2 (argsOf m c) (i 0) (i 1) :=
  (W4_arr m ρ c 7).trans ((reg1_out (V3 m ρ) c).trans (by rw [entry1 m ρ c]))
theorem out1_sum (c : Dev nD) :
    (W4 m ρ c (Proc.devRef .tc main_v22_1) : S1x64.Idx → EReal) = fun i => colSum (kOut2 (argsOf m c)) (i 1) :=
  (W4_arr m ρ c 8).trans ((reg1_sum (V3 m ρ) c).trans (by rw [entry1 m ρ c]))
theorem out1_sumsq (c : Dev nD) :
    (W4 m ρ c (Proc.devRef .tc main_v22_2) : S1x64.Idx → EReal) = fun i => colSumSq (kOut2 (argsOf m c)) (i 1) :=
  (W4_arr m ρ c 9).trans ((reg1_sumsq (V3 m ρ) c).trans (by rw [entry1 m ρ c]))

/-! ## Region 2 is entered with the second layer, its mean and variance, and the third layer's arguments -/

theorem in2_rows (c : Dev nD) : cur (V5 m ρ c (Pipeline.arrRef spec2 0) : S1000000x64.Idx → EReal) = kOut2 (argsOf m c) :=
  congrArg (fun x : S1000000x64.Idx → EReal => cur x) ((keep2 m ρ c main_v22_0 (by decide)).trans (out1_rows m ρ c))

theorem in2_mean (c : Dev nD) : cur (V5 m ρ c (Pipeline.arrRef spec2 1) : S1x64.Idx → EReal) 0 = kMean2 (argsOf m c) := by
  have e0 : (W5 m ρ c (Proc.devRef .tc main_v24) : S1x64.Idx → EReal)
      = meanRow (W4 m ρ c (Proc.devRef .tc main_v22_1)) := by
    show StableHlo.after hostOps2 (W4 m ρ c) (Proc.devRef .tc main_v24) = _
    after_results
    rfl
  funext f
  show (W5 m ρ c (Proc.devRef .tc main_v24) : S1x64.Idx → EReal) (ix2 0 f) = _
  rw [e0, out1_sum m ρ c]
  exact meanRow_colSum _ f

theorem in2_var (c : Dev nD) : cur (V5 m ρ c (Pipeline.arrRef spec2 2) : S1x64.Idx → EReal) 0 = kVar2 (argsOf m c) := by
  have e0 : (W5 m ρ c (Proc.devRef .tc main_v28) : S1x64.Idx → EReal)
      = varRow (W4 m ρ c (Proc.devRef .tc main_v22_1)) (W4 m ρ c (Proc.devRef .tc main_v22_2)) := by
    show StableHlo.after hostOps2 (W4 m ρ c) (Proc.devRef .tc main_v28) = _
    after_results
    rfl
  funext f
  show (W5 m ρ c (Proc.devRef .tc main_v28) : S1x64.Idx → EReal) (ix2 0 f) = _
  rw [e0, out1_sum m ρ c, out1_sumsq m ρ c]
  exact varRow_colSum _ f

/-- A buffer that no host stretch after the first writes and on which neither of the first two regions has a window is, at
    region 2's entry, what the first host stretch left. -/
theorem upto2 (c : Dev nD) (r : Ref sig .tc) (h1 : r ∉ hostW1) (h2 : r ∉ hostW2) (n0 : ∀ w, Pipeline.arrRef spec0 w ≠ r)
    (n1 : ∀ w, Pipeline.arrRef spec1 w ≠ r) : W5 m ρ c (Proc.devRef .tc r) = W1 m ρ c (Proc.devRef .tc r) :=
  (keep2 m ρ c r h2).trans ((W4_of_ne m ρ c r n1).trans ((keep1 m ρ c r h1).trans (W2_of_ne m ρ c r n0)))

theorem in2_g2 (c : Dev nD) : cur (V5 m ρ c (Pipeline.arrRef spec2 3) : S1x64.Idx → EReal) 0 = (argsOf m c).g2 := by
  funext f
  exact (congrFun (upto2 m ρ c main_v11 (by decide) (by decide) (by decide) (by decide)) (ix2 0 f)).trans (row_v11 m ρ c f)
theorem in2_be2 (c : Dev nD) : cur (V5 m ρ c (Pipeline.arrRef spec2 4) : S1x64.Idx → EReal) 0 = (argsOf m c).be2 := by
  funext f
  exact (congrFun (upto2 m ρ c main_v12 (by decide) (by decide) (by decide) (by decide)) (ix2 0 f)).trans (row_v12 m ρ c f)
theorem in2_w (c : Dev nD) : cur (V5 m ρ c (Pipeline.arrRef spec2 5) : S64x64.Idx → EReal) = (argsOf m c).W3 :=
  congrArg (fun x : S64x64.Idx → EReal => cur x)
    ((upto2 m ρ c main_arg9 (by decide) (by decide) (by decide) (by decide)).trans (keep0 m ρ c main_arg9 (by decide)))
theorem in2_b (c : Dev nD) : cur (V5 m ρ c (Pipeline.arrRef spec2 6) : S1x64.Idx → EReal) 0 = (argsOf m c).b3 := by
  funext f
  exact (congrFun (upto2 m ρ c main_v8 (by decide) (by decide) (by decide) (by decide)) (ix2 0 f)).trans (row_v8 m ρ c f)

/-- Region 2's layer of its entry arrays is the kernel's third layer of the arguments. -/
theorem entry2 (c : Dev nD) : h3Of (V5 m ρ) c = kOut3 (argsOf m c) := by
  funext e f
  unfold h3Of kOut3
  rw [in2_rows m ρ c, in2_mean m ρ c, in2_var m ρ c, in2_g2 m ρ c, in2_be2 m ρ c, in2_w m ρ c, in2_b m ρ c]

/-! ## Region 2's arrays at its exit -/

theorem out2_rows (c : Dev nD) :
    (W6 m ρ c (Proc.devRef .tc main_v29_0) : S1000000x64.Idx → EReal) = fun i => kOut3 (argsOf m c) (i 0) (i 1) :=
  (W6_arr m ρ c 7).trans ((reg2_out (V5 m ρ) c).trans (by rw [entry2 m ρ c]))
theorem out2_sum (c : Dev nD) :
    (W6 m ρ c (Proc.devRef .tc main_v29_1) : S1x64.Idx → EReal) = fun i => colSum (kOut3 (argsOf m c)) (i 1) :=
  (W6_arr m ρ c 8).trans ((reg2_sum (V5 m ρ) c).trans (by rw [entry2 m ρ c]))
theorem out2_sumsq (c : Dev nD) :
    (W6 m ρ c (Proc.devRef .tc main_v29_2) : S1x64.Idx → EReal) = fun i => colSumSq (kOut3 (argsOf m c)) (i 1) :=
  (W6_arr m ρ c 9).trans ((reg2_sumsq (V5 m ρ) c).trans (by rw [entry2 m ρ c]))

/-! ## Region 3 is entered with the third layer, its mean and variance, and the last scale and shift -/

theorem in3_rows (c : Dev nD) : cur (V7 m ρ c (Pipeline.arrRef spec3 0) : S1000000x64.Idx → EReal) = kOut3 (argsOf m c) :=
  congrArg (fun x : S1000000x64.Idx → EReal => cur x) ((keep3 m ρ c main_v29_0 (by decide)).trans (out2_rows m ρ c))

theorem in3_mean (c : Dev nD) : cur (V7 m ρ c (Pipeline.arrRef spec3 1) : S1x64.Idx → EReal) 0 = kMean3 (argsOf m c) := by
  have e0 : (W7 m ρ c (Proc.devRef .tc main_v31) : S1x64.Idx → EReal)
      = meanRow (W6 m ρ c (Proc.devRef .tc main_v29_1)) := by
    show StableHlo.after hostOps3 (W6 m ρ c) (Proc.devRef .tc main_v31) = _
    after_results
    rfl
  funext f
  show (W7 m ρ c (Proc.devRef .tc main_v31) : S1x64.Idx → EReal) (ix2 0 f) = _
  rw [e0, out2_sum m ρ c]
  exact meanRow_colSum _ f

theorem in3_var (c : Dev nD) : cur (V7 m ρ c (Pipeline.arrRef spec3 2) : S1x64.Idx → EReal) 0 = kVar3 (argsOf m c) := by
  have e0 : (W7 m ρ c (Proc.devRef .tc main_v35) : S1x64.Idx → EReal)
      = varRow (W6 m ρ c (Proc.devRef .tc main_v29_1)) (W6 m ρ c (Proc.devRef .tc main_v29_2)) := by
    show StableHlo.after hostOps3 (W6 m ρ c) (Proc.devRef .tc main_v35) = _
    after_results
    rfl
  funext f
  show (W7 m ρ c (Proc.devRef .tc main_v35) : S1x64.Idx → EReal) (ix2 0 f) = _
  rw [e0, out2_sum m ρ c, out2_sumsq m ρ c]
  exact varRow_colSum _ f

/-- The last scale and shift reach region 3 as the first host stretch left them. -/
theorem upto3 (c : Dev nD) (r : Ref sig .tc) (h1 : r ∉ hostW1) (h2 : r ∉ hostW2) (h3 : r ∉ hostW3)
    (n0 : ∀ w, Pipeline.arrRef spec0 w ≠ r) (n1 : ∀ w, Pipeline.arrRef spec1 w ≠ r) (n2 : ∀ w, Pipeline.arrRef spec2 w ≠ r) :
    W7 m ρ c (Proc.devRef .tc r) = W1 m ρ c (Proc.devRef .tc r) :=
  (keep3 m ρ c r h3).trans ((W6_of_ne m ρ c r n2).trans (upto2 m ρ c r h1 h2 n0 n1))

theorem in3_g3 (c : Dev nD) : cur (V7 m ρ c (Pipeline.arrRef spec3 3) : S1x64.Idx → EReal) 0 = (argsOf m c).g3 := by
  funext f
  exact (congrFun (upto3 m ρ c main_v13 (by decide) (by decide) (by decide) (by decide) (by decide) (by decide)) (ix2 0 f)).trans
    (row_v13 m ρ c f)
theorem in3_be3 (c : Dev nD) : cur (V7 m ρ c (Pipeline.arrRef spec3 4) : S1x64.Idx → EReal) 0 = (argsOf m c).be3 := by
  funext f
  exact (congrFun (upto3 m ρ c main_v14 (by decide) (by decide) (by decide) (by decide) (by decide) (by decide)) (ix2 0 f)).trans
    (row_v14 m ρ c f)

/-- Region 3's normalised rows of its entry arrays are the kernel's result of the arguments. -/
theorem entry3 (c : Dev nD) : finalOf (V7 m ρ) c = kFinal (argsOf m c) := by
  funext e f
  unfold finalOf kFinal
  rw [in3_rows m ρ c, in3_mean m ρ c, in3_var m ρ c, in3_g3 m ρ c, in3_be3 m ρ c]

end Chain

/-- The result array, at the last boundary's contents, is the kernel's function of the arguments. -/
theorem kernel_value (c : Dev nD) :
    (W8 m ρ c (Proc.devRef .tc main_v36) : S1000000x64.Idx → EReal) = fun i => kFinal (argsOf m c) (i 0) (i 1) :=
  (W8_arr m ρ c 5).trans ((reg3_out (V7 m ρ) c).trans (by rw [Chain.entry3 m ρ c]))

end Cert.KernelIdeal.Val

end
-- ==== Proof.RefOps.lean ====
/-
  The two layout operations of the reference read at an index: the gather of table rows (row e of the result is the table
  row at the start index of row e, read signed and clamped into the table) and the concatenation of four 64-column pieces
  along the column axis (column j comes from piece j / 64, at column j mod 64).
-/
import proofs.«419507_j7499012898893_1_alg».proof.Proof.Gen.ReferenceIdeal
import Idealize.ShloMosaic.Lib.Pipeline.Value
import Idealize.ShloMosaic.Lib.ValueIdx

noncomputable section

namespace Cert.ReferenceIdeal.RefOps

open Cert.ReferenceIdeal Cert.ReferenceIdeal.Gen
open Idealize.ShloMosaic Idealize.ShloMosaic.TcCoe Idealize.ShloMosaic.ValueIdx

/-- The gather's dimension numbers, under a short name. -/
local notation "gd" => gather_S1024x64_S1000000x1_S1000000x64_1_0_n_n_0_1_164

/-- The gather of table rows at row `e`, column `j`: the table at the start index of row `e`, read signed and clamped. -/
theorem gather_apply (x : S1024x64.Idx → EReal) (idx : S1000000x1.Idx → BitVec 32) (e : Fin 1000000) (j : Fin 64) :
    Host.gather gather_S1024x64_S1000000x1_S1000000x64_1_0_n_n_0_1_164 x idx (ix2 e j)
      = x (ix2 (⟨min (idx (ix2 e 0)).toInt.toNat 1023, by omega⟩ : Fin 1024) j) := by
  unfold Host.gather
  refine congrArg x (funext fun a => Fin.ext ?_)
  match a with
  | ⟨0, _⟩ =>
    -- the row axis is collapsed and indexed: no batching part, no offset part, the start index clamped into the table
    show GatherDims.start gd (ix2 e j) idx 0 + GatherDims.batchCoord gd (ix2 e j) 0
      + GatherDims.offCoord gd (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gd from List.mem_singleton.mpr rfl)]
    have hsi : GatherDims.siIdx gd (ix2 e j) ⟨List.idxOf (0 : Fin 2) (GatherDims.startIndexMap gd),
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis is the offset axis: no start index, no batching part, the result's column
    show GatherDims.start gd (ix2 e j) idx 1 + GatherDims.batchCoord gd (ix2 e j) 1
      + GatherDims.offCoord gd (ix2 e j) 1 = j.val
    have hs : GatherDims.start gd (ix2 e j) idx 1 = 0 := by
      unfold GatherDims.start
      exact dif_neg (fun h => absurd (List.mem_singleton.mp h) (by decide))
    have ho : GatherDims.offCoord gd (ix2 e j) 1 = j.val := by
      unfold GatherDims.offCoord
      rw [dif_pos ((GatherDims.mem_sKept _ _).mpr ⟨by decide, List.not_mem_nil⟩)]
      rfl
    rw [hs, GatherDims.batchCoord_eq_zero _ _ _ List.not_mem_nil, ho]
    omega

/-- The concatenation along the column axis at row `e`, column `j`. -/
theorem concat_apply (u0 u1 u2 u3 : S1000000x64.Idx → EReal) (e : Fin 1000000) (j : Fin 256) :
    concatenate S1000000x256 1 [⟨S1000000x64, u0⟩, ⟨S1000000x64, u1⟩, ⟨S1000000x64, u2⟩, ⟨S1000000x64, u3⟩]
        concatenates_S1000000x64_S1000000x64_S1000000x64_S1000000x64_S1000000x256_d1 (ix2 e j)
      = if h0 : j.val < 64 then u0 (ix2 e ⟨j.val, h0⟩)
        else if h1 : j.val < 128 then u1 (ix2 e ⟨j.val - 64, by omega⟩)
        else if h2 : j.val < 192 then u2 (ix2 e ⟨j.val - 128, by omega⟩)
        else u3 (ix2 e ⟨j.val - 192, by omega⟩) := by
  split_ifs with h0 h1 h2
  · exact concatenate_apply_piece _ _ _ (ix2 e j) 0 (by show 0 < 4; omega) S1000000x64 u0 rfl rfl 0 rfl
      (ix2 e ⟨j.val, h0⟩) (fun b hb => by
        match b with
        | ⟨0, _⟩ => rfl
        | ⟨1, _⟩ => exact absurd rfl hb)
      (by show 0 + j.val = j.val; omega)
  · exact concatenate_apply_piece _ _ _ (ix2 e j) 1 (by show 1 < 4; omega) S1000000x64 u1 rfl rfl 64 rfl
      (ix2 e ⟨j.val - 64, by omega⟩) (fun b hb => by
        match b with
        | ⟨0, _⟩ => rfl
        | ⟨1, _⟩ => exact absurd rfl hb)
      (by show 64 + (j.val - 64) = j.val; omega)
  · exact concatenate_apply_piece _ _ _ (ix2 e j) 2 (by show 2 < 4; omega) S1000000x64 u2 rfl rfl 128 rfl
      (ix2 e ⟨j.val - 128, by omega⟩) (fun b hb => by
        match b with
        | ⟨0, _⟩ => rfl
        | ⟨1, _⟩ => exact absurd rfl hb)
      (by show 128 + (j.val - 128) = j.val; omega)
  · exact concatenate_apply_piece _ _ _ (ix2 e j) 3 (by show 3 < 4; omega) S1000000x64 u3 rfl rfl 192 rfl
      (ix2 e ⟨j.val - 192, by omega⟩) (fun b hb => by
        match b with
        | ⟨0, _⟩ => rfl
        | ⟨1, _⟩ => exact absurd rfl hb)
      (by show 192 + (j.val - 192) = j.val; omega)

end Cert.ReferenceIdeal.RefOps

end
-- ==== Proof.RefRead.lean ====
/-
  The reference's run read as the reference's function of the arguments: the gather of the table row a graph id selects
  (a negative id counted from the end, then clamped into the table), the concatenation of the four 64-column pieces, and
  three times a linear layer, the rectifier, and the batch normalisation over the edge axis with the variance as the mean
  of squared deviations.
-/
import proofs.«419507_j7499012898893_1_alg».proof.Proof.Gen.ReferenceIdeal.Run
import proofs.«419507_j7499012898893_1_alg».proof.Proof.Gen.ReferenceIdeal.Read
import proofs.«419507_j7499012898893_1_alg».proof.Proof.Spec
import proofs.«419507_j7499012898893_1_alg».proof.Proof.RefOps
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.Spec
open Idealize.ShloMosaic Idealize.ShloMosaic.TcCoe Idealize.ShloMosaic.ValueIdx Idealize.SL.Sem
open scoped BigOperators

/-! ## Words and closed forms -/

section Stages
open Cert.ReferenceIdeal.Read

local macro "idx2_eq" : tactic => `(tactic| (funext a; match a with | ⟨0, _⟩ => rfl | ⟨1, _⟩ => rfl))
local macro "idx1_eq" : tactic => `(tactic| (funext a; match a with | ⟨0, _⟩ => rfl))

/-- A graph id below zero is counted from the end of the table: the compare with zero, the sum with 1024 and the select. -/
theorem select_wrap (b : BitVec 32) :
    Scalar.select (IntOp.cmpi .slt b 0#32) (IntOp.addi b 1024#32) b = if b.toInt < 0 then b + 1024#32 else b := by
  have z : (0#32 : BitVec 32).toInt = 0 := by decide
  by_cases h : b.toInt < 0
  · have hc : IntOp.cmpi .slt b 0#32 = 1#1 := IntOp.cmpi_slt.mpr (by rw [z]; exact h)
    rw [if_pos h, hc, select_one]; rfl
  · have hc : IntOp.cmpi .slt b 0#32 = 0#1 :=
      eq_zero_of_ne_one (fun hc => h (by have := IntOp.cmpi_slt.mp hc; rw [z] at this; exact this))
    rw [if_neg h, hc, select_zero]

/-- A product with a weight matrix, the bias and the maximum with the zero word: the linear layer and the rectifier. -/
theorem dense_closed {K : ℕ} (x : Fin K → EReal) (w : Fin K → Fin 64 → EReal) (b : Fin 64 → EReal) (f : Fin 64) :
    max ((∑ k, x k * w k f) + b f) (Ideal.ofBits .f32 0x00000000#32) = denseRow x w b f := by
  rw [Ideal.ofBits_zero_f32]; rfl

/-- A column sum that starts from the zero word, over the number of rows: the column mean. -/
theorem mean_closed (h : Fin nE → Fin 64 → EReal) (f : Fin 64) :
    Ideal.div (Ideal.ofBits .f32 0x00000000#32 + ∑ e, h e f) nRows = meanR h f := by
  rw [Ideal.ofBits_zero_f32, zero_add]; rfl

/-- The column sum of squared deviations that starts from the zero word, over the number of rows: the column variance. -/
theorem var_closed (h : Fin nE → Fin 64 → EReal) (mu : Fin 64 → EReal) (f : Fin 64) :
    Ideal.div (Ideal.ofBits .f32 0x00000000#32 + ∑ e, (h e f - mu f) * (h e f - mu f)) nRows = varR h mu f := by
  rw [Ideal.ofBits_zero_f32, zero_add]; rfl

/-! ## The stages at an index, over the argument arrays -/

variable (x0 x1 x2 : (⟨S1000000x64, .f32⟩ : BufTy).Contents (Elt Ideal)) (x3 : (⟨S1024x64, .f32⟩ : BufTy).Contents (Elt Ideal))
  (x4 : (⟨S1000000, .i32⟩ : BufTy).Contents (Elt Ideal)) (x5 : (⟨S256x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S64x64, .f32⟩ : BufTy).Contents (Elt Ideal))
  (x10 x11 x12 x13 x14 x15 x16 : (⟨S64, .f32⟩ : BufTy).Contents (Elt Ideal))

/-- The argument record of seventeen arrays. -/
abbrev recOf : Spec.Args := Args.ofArrays x0 x1 x2 x3 x4 x5 x6 x7 x8 x9 x10 x11 x12 x13 x14 x15 x16

local notation "𝔸" => (recOf x0 x1 x2 x3 x4 x5 x6 x7 x8 x9 x10 x11 x12 x13 x14 x15 x16)

/-! ### The table row of an edge and the concatenated row -/

/-- The start index of row `e`: the graph id, counted from the end when negative. -/
theorem v5_at (e : Fin 1000000) :
    val_main_v5 (F := Ideal) x4 (ix2 e (0 : Fin 1))
      = if (x4 (ix1 e)).toInt < 0 then x4 (ix1 e) + 1024#32 else x4 (ix1 e) := by
  have ei : idx_main_v5 (ix2 e (0 : Fin 1)) = ix1 e := by idx1_eq
  rw [val_main_v5_apply, ei, val_main_v4_apply, val_main_v1_apply, val_main_v3_apply, val_main_v0_apply, val_main_v2_apply,
    val_main_c_apply, val_main_c_0_apply]
  exact select_wrap _

/-- The gathered table row of edge `e`: the row its graph id selects, clamped into the table. -/
theorem v6_at (e : Fin 1000000) (q : Fin 64) :
    val_main_v6 (F := Ideal) x3 x4 (ix2 e q) = x3 (ix2 (gatherRow (x4 (ix1 e))) q) := by
  unfold val_main_v6
  refine (RefOps.gather_apply x3 (val_main_v5 (F := Ideal) x4) e q).trans (congrArg x3 ?_)
  refine congrArg (fun r : Fin 1024 => (ix2 r q : S1024x64.Idx)) (Fin.ext ?_)
  show min (val_main_v5 (F := Ideal) x4 (ix2 e (0 : Fin 1))).toInt.toNat 1023 = (gatherRow (x4 (ix1 e))).val
  rw [v5_at]; rfl

/-- The concatenated row of edge `e` at column `j`. -/
theorem v7_at (e : Fin 1000000) (j : Fin 256) :
    val_main_v7 (F := Ideal) x0 x1 x2 x3 x4 (ix2 e j) = comb 𝔸 e j := by
  unfold val_main_v7
  refine (RefOps.concat_apply x0 x1 x2 (val_main_v6 (F := Ideal) x3 x4) e j).trans ?_
  unfold comb
  by_cases h0 : j.val < 64
  · rw [dif_pos h0, dif_pos h0]; rfl
  · rw [dif_neg h0, dif_neg h0]
    by_cases h1 : j.val < 128
    · rw [dif_pos h1, dif_pos h1]; rfl
    · rw [dif_neg h1, dif_neg h1]
      by_cases h2 : j.val < 192
      · rw [dif_pos h2, dif_pos h2]; rfl
      · rw [dif_neg h2, dif_neg h2, v6_at]; rfl

/-! ### Layer 1 -/

/-- The linear layer, its bias and the rectifier of layer 1 at row `e`, column `f`. -/
theorem v12_at (e : Fin 1000000) (f : Fin 64) :
    val_main_v12 (F := Ideal) x0 x1 x2 x3 x4 x5 x6 (ix2 e f) = rOut1 𝔸 e f := by
  have el : ∀ k : Fin 256, lidx_main_v8 (ix2 e f) k = ix2 e k := fun k => by idx2_eq
  have er : ∀ k : Fin 256, ridx_main_v8 (ix2 e f) k = ix2 k f := fun k => by idx2_eq
  have eb : idx_main_v9 (idx_main_v10 (ix2 e f)) = ix1 f := by idx1_eq
  rw [val_main_v12_apply, val_main_v11_apply, val_main_v8_apply, val_main_v10_apply, val_main_v9_apply,
    val_main_call0_v0_apply, val_main_call0_cst_apply, eb]
  simp only [el, er, (v7_at x0 x1 x2 x3 x4 x5 x6 x7 x8 x9 x10 x11 x12 x13 x14 x15 x16)]
  exact dense_closed (comb 𝔸 e) (cur x5) (vec1 x6) f

/-- The column mean of layer 1's rows. -/
theorem v15_at (f : Fin 64) :
    val_main_v15 (F := Ideal) x0 x1 x2 x3 x4 x5 x6 (ix1 f) = meanR (rOut1 𝔸) f := by
  have ei : ∀ k : Fin 1000000, idx_main_v13 (ix1 f) k = ix2 k f := fun k => by idx2_eq
  rw [val_main_v15_apply, val_main_v13_apply, val_main_v14_apply, val_main_cst_apply, val_main_cst_1_apply]
  simp only [ei, (v12_at x0 x1 x2 x3 x4 x5 x6 x7 x8 x9 x10 x11 x12 x13 x14 x15 x16)]
  exact mean_closed (rOut1 𝔸) f

/-- The mean laid over the rows, as the deviations of the variance read it. -/
theorem v17_at (e : Fin 1000000) (f : Fin 64) :
    val_main_v17 (F := Ideal) x0 x1 x2 x3 x4 x5 x6 (ix2 e f) = meanR (rOut1 𝔸) f := by
  have eb : idx_main_v16 (idx_main_v17 (ix2 e f)) = ix1 f := by idx1_eq
  rw [val_main_v17_apply, val_main_v16_apply, eb, (v15_at x0 x1 x2 x3 x4 x5 x6 x7 x8 x9 x10 x11 x12 x13 x14 x15 x16)]

/-- The mean laid over the rows, as the normalised row reads it. -/
theorem v24_at (e : Fin 1000000) (f : Fin 64) :
    val_main_v24 (F := Ideal) x0 x1 x2 x3 x4 x5 x6 (ix2 e f) = meanR (rOut1 𝔸) f := by
  have eb : idx_main_v23 (idx_main_v24 (ix2 e f)) = ix1 f := by idx1_eq
  rw [val_main_v24_apply, val_main_v23_apply, eb, (v15_at x0 x1 x2 x3 x4 x5 x6 x7 x8 x9 x10 x11 x12 x13 x14 x15 x16)]

/-- The column variance of layer 1's rows: the mean of the squared deviations. -/
theorem v22_at (f : Fin 64) :
    val_main_v22 (F := Ideal) x0 x1 x2 x3 x4 x5 x6 (ix1 f) = varR (rOut1 𝔸) (meanR (rOut1 𝔸)) f := by
  have ei : ∀ k : Fin 1000000, idx_main_v20 (ix1 f) k = ix2 k f := fun k => by idx2_eq
  rw [val_main_v22_apply, val_main_v20_apply, val_main_v21_apply, val_main_cst_2_apply, val_main_cst_3_apply]
  simp only [ei, val_main_v19_apply, val_main_v18_apply, (v12_at x0 x1 x2 x3 x4 x5 x6 x7 x8 x9 x10 x11 x12 x13 x14 x15 x16), (v17_at x0 x1 x2 x3 x4 x5 x6 x7 x8 x9 x10 x11 x12 x13 x14 x15 x16)]
  exact var_closed (rOut1 𝔸) (meanR (rOut1 𝔸)) f

/-- The batch normalisation of layer 1's rows at row `e`, column `f`. -/
theorem v35_at (e : Fin 1000000) (f : Fin 64) :
    val_main_v35 (F := Ideal) x0 x1 x2 x3 x4 x5 x6 x11 x12 (ix2 e f) = bnR (rOut1 𝔸) (vec1 x11) (vec1 x12) e f := by
  have es : idx_main_v30 (idx_main_v31 (ix2 e f)) = ix1 f := by idx1_eq
  have eo : idx_main_v33 (idx_main_v34 (ix2 e f)) = ix1 f := by idx1_eq
  rw [val_main_v35_apply, val_main_v32_apply, val_main_v25_apply, val_main_v31_apply, val_main_v30_apply, es,
    val_main_v29_apply, val_main_v28_apply, val_main_v27_apply, val_main_v26_apply, val_main_cst_4_apply,
    val_main_v34_apply, val_main_v33_apply, eo, (v12_at x0 x1 x2 x3 x4 x5 x6 x7 x8 x9 x10 x11 x12 x13 x14 x15 x16), (v24_at x0 x1 x2 x3 x4 x5 x6 x7 x8 x9 x10 x11 x12 x13 x14 x15 x16), (v22_at x0 x1 x2 x3 x4 x5 x6 x7 x8 x9 x10 x11 x12 x13 x14 x15 x16)]
  rfl

/-! ### Layer 2 -/

/-- The linear layer, its bias and the rectifier of layer 2 at row `e`, column `f`. -/
theorem v40_at (e : Fin 1000000) (f : Fin 64) :
    val_main_v40 (F := Ideal) x0 x1 x2 x3 x4 x5 x6 x7 x8 x11 x12 (ix2 e f) = rOut2 𝔸 e f := by
  have el : ∀ k : Fin 64, lidx_main_v36 (ix2 e f) k = ix2 e k := fun k => by idx2_eq
  have er : ∀ k : Fin 64, ridx_main_v36 (ix2 e f) k = ix2 k f := fun k => by idx2_eq
  have eb : idx_main_v37 (idx_main_v38 (ix2 e f)) = ix1 f := by idx1_eq
  rw [val_main_v40_apply, val_main_v39_apply, val_main_v36_apply, val_main_v38_apply, val_main_v37_apply,
    val_main_call1_v0_apply, val_main_call1_cst_apply, eb]
  simp only [el, er, (v35_at x0 x1 x2 x3 x4 x5 x6 x7 x8 x9 x10 x11 x12 x13 x14 x15 x16)]
  exact dense_closed (bnR (rOut1 𝔸) (vec1 x11) (vec1 x12) e) (cur x7) (vec1 x8) f

/-- The column mean of layer 2's rows. -/
theorem v43_at (f : Fin 64) :
    val_main_v43 (F := Ideal) x0 x1 x2 x3 x4 x5 x6 x7 x8 x11 x12 (ix1 f) = meanR (rOut2 𝔸) f := by
  have ei : ∀ k : Fin 1000000, idx_main_v41 (ix1 f) k = ix2 k f := fun k => by idx2_eq
  rw [val_main_v43_apply, val_main_v41_apply, val_main_v42_apply, val_main_cst_5_apply, val_main_cst_6_apply]
  simp only [ei, (v40_at x0 x1 x2 x3 x4 x5 x6 x7 x8 x9 x10 x11 x12 x13 x14 x15 x16)]
  exact mean_closed (rOut2 𝔸) f

/-- The mean laid over the rows, as the deviations of the variance read it. -/
theorem v45_at (e : Fin 1000000) (f : Fin 64) :
    val_main_v45 (F := Ideal) x0 x1 x2 x3 x4 x5 x6 x7 x8 x11 x12 (ix2 e f) = meanR (rOut2 𝔸) f := by
  have eb : idx_main_v44 (idx_main_v45 (ix2 e f)) = ix1 f := by idx1_eq
  rw [val_main_v45_apply, val_main_v44_apply, eb, (v43_at x0 x1 x2 x3 x4 x5 x6 x7 x8 x9 x10 x11 x12 x13 x14 x15 x16)]

/-- The mean laid over the rows, as the normalised row reads it. -/
theorem v52_at (e : Fin 1000000) (f : Fin 64) :
    val_main_v52 (F := Ideal) x0 x1 x2 x3 x4 x5 x6 x7 x8 x11 x12 (ix2 e f) = meanR (rOut2 𝔸) f := by
  have eb : idx_main_v51 (idx_main_v52 (ix2 e f)) = ix1 f := by idx1_eq
  rw [val_main_v52_apply, val_main_v51_apply, eb, (v43_at x0 x1 x2 x3 x4 x5 x6 x7 x8 x9 x10 x11 x12 x13 x14 x15 x16)]

/-- The column variance of layer 2's rows: the mean of the squared deviations. -/
theorem v50_at (f : Fin 64) :
    val_main_v50 (F := Ideal) x0 x1 x2 x3 x4 x5 x6 x7 x8 x11 x12 (ix1 f) = varR (rOut2 𝔸) (meanR (rOut2 𝔸)) f := by
  have ei : ∀ k : Fin 1000000, idx_main_v48 (ix1 f) k = ix2 k f := fun k => by idx2_eq
  rw [val_main_v50_apply, val_main_v48_apply, val_main_v49_apply, val_main_cst_7_apply, val_main_cst_8_apply]
  simp only [ei, val_main_v47_apply, val_main_v46_apply, (v40_at x0 x1 x2 x3 x4 x5 x6 x7 x8 x9 x10 x11 x12 x13 x14 x15 x16), (v45_at x0 x1 x2 x3 x4 x5 x6 x7 x8 x9 x10 x11 x12 x13 x14 x15 x16)]
  exact var_closed (rOut2 𝔸) (meanR (rOut2 𝔸)) f

/-- The batch normalisation of layer 2's rows at row `e`, column `f`. -/
theorem v63_at (e : Fin 1000000) (f : Fin 64) :
    val_main_v63 (F := Ideal) x0 x1 x2 x3 x4 x5 x6 x7 x8 x11 x12 x13 x14 (ix2 e f) = bnR (rOut2 𝔸) (vec1 x13) (vec1 x14) e f := by
  have es : idx_main_v58 (idx_main_v59 (ix2 e f)) = ix1 f := by idx1_eq
  have eo : idx_main_v61 (idx_main_v62 (ix2 e f)) = ix1 f := by idx1_eq
  rw [val_main_v63_apply, val_main_v60_apply, val_main_v53_apply, val_main_v59_apply, val_main_v58_apply, es,
    val_main_v57_apply, val_main_v56_apply, val_main_v55_apply, val_main_v54_apply, val_main_cst_9_apply,
    val_main_v62_apply, val_main_v61_apply, eo, (v40_at x0 x1 x2 x3 x4 x5 x6 x7 x8 x9 x10 x11 x12 x13 x14 x15 x16), (v52_at x0 x1 x2 x3 x4 x5 x6 x7 x8 x9 x10 x11 x12 x13 x14 x15 x16), (v50_at x0 x1 x2 x3 x4 x5 x6 x7 x8 x9 x10 x11 x12 x13 x14 x15 x16)]
  rfl

/-! ### Layer 3 -/

/-- The linear layer, its bias and the rectifier of layer 3 at row `e`, column `f`. -/
theorem v68_at (e : Fin 1000000) (f : Fin 64) :
    val_main_v68 (F := Ideal) x0 x1 x2 x3 x4 x5 x6 x7 x8 x9 x10 x11 x12 x13 x14 (ix2 e f) = rOut3 𝔸 e f := by
  have el : ∀ k : Fin 64, lidx_main_v64 (ix2 e f) k = ix2 e k := fun k => by idx2_eq
  have er : ∀ k : Fin 64, ridx_main_v64 (ix2 e f) k = ix2 k f := fun k => by idx2_eq
  have eb : idx_main_v65 (idx_main_v66 (ix2 e f)) = ix1 f := by idx1_eq
  rw [val_main_v68_apply, val_main_v67_apply, val_main_v64_apply, val_main_v66_apply, val_main_v65_apply,
    val_main_call2_v0_apply, val_main_call2_cst_apply, eb]
  simp only [el, er, (v63_at x0 x1 x2 x3 x4 x5 x6 x7 x8 x9 x10 x11 x12 x13 x14 x15 x16)]
  exact dense_closed (bnR (rOut2 𝔸) (vec1 x13) (vec1 x14) e) (cur x9) (vec1 x10) f

/-- The column mean of layer 3's rows. -/
theorem v71_at (f : Fin 64) :
    val_main_v71 (F := Ideal) x0 x1 x2 x3 x4 x5 x6 x7 x8 x9 x10 x11 x12 x13 x14 (ix1 f) = meanR (rOut3 𝔸) f := by
  have ei : ∀ k : Fin 1000000, idx_main_v69 (ix1 f) k = ix2 k f := fun k => by idx2_eq
  rw [val_main_v71_apply, val_main_v69_apply, val_main_v70_apply, val_main_cst_10_apply, val_main_cst_11_apply]
  simp only [ei, (v68_at x0 x1 x2 x3 x4 x5 x6 x7 x8 x9 x10 x11 x12 x13 x14 x15 x16)]
  exact mean_closed (rOut3 𝔸) f

/-- The mean laid over the rows, as the deviations of the variance read it. -/
theorem v73_at (e : Fin 1000000) (f : Fin 64) :
    val_main_v73 (F := Ideal) x0 x1 x2 x3 x4 x5 x6 x7 x8 x9 x10 x11 x12 x13 x14 (ix2 e f) = meanR (rOut3 𝔸) f := by
  have eb : idx_main_v72 (idx_main_v73 (ix2 e f)) = ix1 f := by idx1_eq
  rw [val_main_v73_apply, val_main_v72_apply, eb, (v71_at x0 x1 x2 x3 x4 x5 x6 x7 x8 x9 x10 x11 x12 x13 x14 x15 x16)]

/-- The mean laid over the rows, as the normalised row reads it. -/
theorem v80_at (e : Fin 1000000) (f : Fin 64) :
    val_main_v80 (F := Ideal) x0 x1 x2 x3 x4 x5 x6 x7 x8 x9 x10 x11 x12 x13 x14 (ix2 e f) = meanR (rOut3 𝔸) f := by
  have eb : idx_main_v79 (idx_main_v80 (ix2 e f)) = ix1 f := by idx1_eq
  rw [val_main_v80_apply, val_main_v79_apply, eb, (v71_at x0 x1 x2 x3 x4 x5 x6 x7 x8 x9 x10 x11 x12 x13 x14 x15 x16)]

/-- The column variance of layer 3's rows: the mean of the squared deviations. -/
theorem v78_at (f : Fin 64) :
    val_main_v78 (F := Ideal) x0 x1 x2 x3 x4 x5 x6 x7 x8 x9 x10 x11 x12 x13 x14 (ix1 f) = varR (rOut3 𝔸) (meanR (rOut3 𝔸)) f := by
  have ei : ∀ k : Fin 1000000, idx_main_v76 (ix1 f) k = ix2 k f := fun k => by idx2_eq
  rw [val_main_v78_apply, val_main_v76_apply, val_main_v77_apply, val_main_cst_12_apply, val_main_cst_13_apply]
  simp only [ei, val_main_v75_apply, val_main_v74_apply, (v68_at x0 x1 x2 x3 x4 x5 x6 x7 x8 x9 x10 x11 x12 x13 x14 x15 x16), (v73_at x0 x1 x2 x3 x4 x5 x6 x7 x8 x9 x10 x11 x12 x13 x14 x15 x16)]
  exact var_closed (rOut3 𝔸) (meanR (rOut3 𝔸)) f

/-- The batch normalisation of layer 3's rows at row `e`, column `f`. -/
theorem v91_at (e : Fin 1000000) (f : Fin 64) :
    val_main_v91 (F := Ideal) x0 x1 x2 x3 x4 x5 x6 x7 x8 x9 x10 x11 x12 x13 x14 x15 x16 (ix2 e f) = bnR (rOut3 𝔸) (vec1 x15) (vec1 x16) e f := by
  have es : idx_main_v86 (idx_main_v87 (ix2 e f)) = ix1 f := by idx1_eq
  have eo : idx_main_v89 (idx_main_v90 (ix2 e f)) = ix1 f := by idx1_eq
  rw [val_main_v91_apply, val_main_v88_apply, val_main_v81_apply, val_main_v87_apply, val_main_v86_apply, es,
    val_main_v85_apply, val_main_v84_apply, val_main_v83_apply, val_main_v82_apply, val_main_cst_14_apply,
    val_main_v90_apply, val_main_v89_apply, eo, (v68_at x0 x1 x2 x3 x4 x5 x6 x7 x8 x9 x10 x11 x12 x13 x14 x15 x16), (v80_at x0 x1 x2 x3 x4 x5 x6 x7 x8 x9 x10 x11 x12 x13 x14 x15 x16), (v78_at x0 x1 x2 x3 x4 x5 x6 x7 x8 x9 x10 x11 x12 x13 x14 x15 x16)]
  rfl

end Stages

variable (m : (ℓ : Loc nD τ sig) → Buf (Elt Ideal) ℓ)

/-- The argument arrays as launched on core `c`. -/
def argsOf (c : Dev nD) : Spec.Args :=
  Args.ofArrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16))

/-- The run's result term is the reference's function of the arguments. -/
theorem ref_value (c : Dev nD) :
    (Cert.ReferenceIdeal.Value.res_out0 (F := Ideal) m c : S1000000x64.Idx → EReal) = fun i => rFinal (argsOf m c) (i 0) (i 1) := by
  funext i
  obtain ⟨e, f, rfl⟩ : ∃ (e : Fin 1000000) (f : Fin 64), i = ix2 e f := ⟨i 0, i 1, eq_ix2 i⟩
  refine (congrFun (Cert.ReferenceIdeal.Read.val_main_v91_eq (F := Ideal) m c) (ix2 e f)).trans ?_
  exact v91_at _ _ _ _ _ _ _ _ _ _ _ _ _ _ _ _ _ e f

end Cert.ReferenceIdeal.RefValue

end
-- ==== Proof.PreRead.lean ====
/-
  What the precondition says: each of the sixteen float arrays has every entry of absolute value below +infinity, that
  is, a real number; and every graph id is at least 0 and below 1024.
-/
import proofs.«419507_j7499012898893_1_alg».proof.Pre_finite_inputs
import proofs.«419507_j7499012898893_1_alg».proof.Proof.Spec
import Idealize.ShloMosaic.PureOps.Ideal
import Idealize.ShloMosaic.Lib.ReduceAll
import Idealize.ShloMosaic.Lib.StableHlo.Predicate

noncomputable section

namespace Cert.PreRead

open Idealize.ShloMosaic Cert.Pre_finite_inputs Cert.Spec

variable [Cert.Pre_finite_inputs.Facts]

/-- The scalar shape has one index. -/
instance subsingleton_scalarIdx : Subsingleton (⟨0, ![]⟩ : Shape).Idx := ⟨fun a b => funext fun d => d.elim0⟩

/-- A conjunction of two one-bit arrays that is 1 at an index has both conjuncts 1 there. -/
theorem both_one {s : Shape} (x y : IVec s 1) (i : s.Idx) (h : andi x y i = 1#1) : x i = 1#1 ∧ y i = 1#1 :=
  IntOp.andi_eq_one.1 h

/-- The single-precision word of +infinity denotes the top of the extended reals. -/
theorem ofBits_inf : Ideal.ofBits .f32 0x7F800000#32 = ⊤ := by simp [Ideal.ofBits, Ideal.ieee]

/-- An extended real whose absolute value is below +infinity is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- "Every entry has absolute value below +infinity", as the precondition prints it for one float array, gives
    every entry real. -/
theorem real_entries {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr h0 ValueIdx.ix0 = 1#1) (i : s.Idx) : ∃ r : ℝ, x i = (r : EReal) :=
  real_of_abs_lt (x i) (Host.reduce_andi_all _ _ hr h0 ValueIdx.ix0 e i)

/-- A word that compares signed-at-least the zero word is not negative. -/
theorem nonneg_of_sge (w : BitVec 32) (h : IntOp.cmpi .sge w 0#32 = 1#1) : 0 ≤ w.toInt := by
  unfold IntOp.cmpi at h
  rw [StableHlo.Predicate.ofBool_eq_one_iff] at h
  simp only [BitVec.sle, decide_eq_true_eq] at h
  have e : (0#32 : BitVec 32).toInt = 0 := by decide
  omega

/-- A word that compares signed-below the word of 1024 is below 1024. -/
theorem lt_of_slt (w : BitVec 32) (h : IntOp.cmpi .slt w 1024#32 = 1#1) : w.toInt < 1024 := by
  unfold IntOp.cmpi at h
  rw [StableHlo.Predicate.ofBool_eq_one_iff] at h
  simp only [BitVec.slt, decide_eq_true_eq] at h
  have e : (1024#32 : BitVec 32).toInt = 1024 := by decide
  omega

/-- The two integer conjuncts, as the precondition prints them for the graph ids, give every id in [0, 1024). -/
theorem ids_in_range {axes : List (Fin (⟨1, ![1000000]⟩ : Shape).rank)} (ids : IVec ⟨1, ![1000000]⟩ 32)
    (hb : (⟨0, ![]⟩ : Shape).BroadcastsInDim ⟨1, ![1000000]⟩ (![] : Fin 0 → Fin 1))
    (hr : (⟨1, ![1000000]⟩ : Shape).ReducesTo axes ⟨0, ![]⟩) (h0 : 0 < (⟨0, ![]⟩ : Shape).numel)
    (ege : Host.reduce IntOp.andi (cmpi .sge ids (broadcastInDim ⟨1, ![1000000]⟩ ![] hb (constantI ⟨0, ![]⟩ 32 0#32)))
        (constantI ⟨0, ![]⟩ 1 1#1) hr h0 ValueIdx.ix0 = 1#1)
    (elt : Host.reduce IntOp.andi (cmpi .slt ids (broadcastInDim ⟨1, ![1000000]⟩ ![] hb (constantI ⟨0, ![]⟩ 32 1024#32)))
        (constantI ⟨0, ![]⟩ 1 1#1) hr h0 ValueIdx.ix0 = 1#1) (i : (⟨1, ![1000000]⟩ : Shape).Idx) :
    0 ≤ (ids i).toInt ∧ (ids i).toInt < 1024 :=
  ⟨nonneg_of_sge (ids i) (Host.reduce_andi_all _ _ hr h0 ValueIdx.ix0 ege i),
    lt_of_slt (ids i) (Host.reduce_andi_all _ _ hr h0 ValueIdx.ix0 elt i)⟩

/-- The precondition all ones: the argument record is real and its graph ids are table rows. -/
theorem args_ok (a0 a1 a2 : FVec Ideal S1000000x64 .f32) (a3 : FVec Ideal S1024x64 .f32) (a4 : IVec S1000000 32)
    (a5 : FVec Ideal S256x64 .f32) (a6 : FVec Ideal S64 .f32) (a7 : FVec Ideal S64x64 .f32) (a8 : FVec Ideal S64 .f32)
    (a9 : FVec Ideal S64x64 .f32) (a10 a11 a12 a13 a14 a15 a16 : FVec Ideal S64 .f32)
    (h : Cert.Pre_finite_inputs.fn (F := Ideal) a0 a1 a2 a3 a4 a5 a6 a7 a8 a9 a10 a11 a12 a13 a14 a15 a16 = fun _ => 1#1) :
    (Args.ofArrays a0 a1 a2 a3 a4 a5 a6 a7 a8 a9 a10 a11 a12 a13 a14 a15 a16).Finite
      ∧ (Args.ofArrays a0 a1 a2 a3 a4 a5 a6 a7 a8 a9 a10 a11 a12 a13 a14 a15 a16).InRange := by
  have e := congrFun h ValueIdx.ix0
  dsimp only [fn, fn_part1, fn_part2, fn_part3, fn_part4, fn_part5] at e
  -- the eighteen conjuncts, last first
  obtain ⟨e, clt⟩ := both_one _ _ _ e
  obtain ⟨e, cge⟩ := both_one _ _ _ e
  obtain ⟨e, c16⟩ := both_one _ _ _ e
  obtain ⟨e, c15⟩ := both_one _ _ _ e
  obtain ⟨e, c14⟩ := both_one _ _ _ e
  obtain ⟨e, c13⟩ := both_one _ _ _ e
  obtain ⟨e, c12⟩ := both_one _ _ _ e
  obtain ⟨e, c11⟩ := both_one _ _ _ e
  obtain ⟨e, c10⟩ := both_one _ _ _ e
  obtain ⟨e, c9⟩ := both_one _ _ _ e
  obtain ⟨e, c8⟩ := both_one _ _ _ e
  obtain ⟨e, c7⟩ := both_one _ _ _ e
  obtain ⟨e, c6⟩ := both_one _ _ _ e
  obtain ⟨e, c5⟩ := both_one _ _ _ e
  obtain ⟨e, c3⟩ := both_one _ _ _ e
  obtain ⟨e, c2⟩ := both_one _ _ _ e
  obtain ⟨c0, c1⟩ := both_one _ _ _ e
  refine ⟨⟨fun e f => real_entries a0 _ _ _ c0 (ValueIdx.ix2 e f), fun e f => real_entries a1 _ _ _ c1 (ValueIdx.ix2 e f),
    fun e f => real_entries a2 _ _ _ c2 (ValueIdx.ix2 e f), fun g f => real_entries a3 _ _ _ c3 (ValueIdx.ix2 g f),
    fun j f => real_entries a5 _ _ _ c5 (ValueIdx.ix2 j f), fun f => real_entries a6 _ _ _ c6 (ValueIdx.ix1 f),
    fun j f => real_entries a7 _ _ _ c7 (ValueIdx.ix2 j f), fun f => real_entries a8 _ _ _ c8 (ValueIdx.ix1 f),
    fun j f => real_entries a9 _ _ _ c9 (ValueIdx.ix2 j f), fun f => real_entries a10 _ _ _ c10 (ValueIdx.ix1 f),
    fun f => real_entries a11 _ _ _ c11 (ValueIdx.ix1 f), fun f => real_entries a12 _ _ _ c12 (ValueIdx.ix1 f),
    fun f => real_entries a13 _ _ _ c13 (ValueIdx.ix1 f), fun f => real_entries a14 _ _ _ c14 (ValueIdx.ix1 f),
    fun f => real_entries a15 _ _ _ c15 (ValueIdx.ix1 f), fun f => real_entries a16 _ _ _ c16 (ValueIdx.ix1 f)⟩, ?_⟩
  intro e
  exact ids_in_range a4 _ _ _ cge clt (ValueIdx.ix1 e)

end Cert.PreRead

end
-- ==== Proof.LibFinite.lean ====
/-
  General facts on the extended reals and on arrays of extended reals: which
  operations keep a value finite (a real number), and the distributive law of a
  product over a sum inside a finite sum, which holds for finite terms.
-/
import Idealize.ShloMosaic.PureOps.Ideal
import Idealize.ShloMosaic.PureOps.Ideal.Laws
import Idealize.ShloMosaic.Lib.ValueIdx

noncomputable section

namespace Cert.Fin

open Idealize.ShloMosaic
open scoped BigOperators

/-- An extended real is finite when it is (the image of) a real number. -/
def IsFin (x : EReal) : Prop := ∃ r : ℝ, x = (r : EReal)

/-- An array of extended reals is finite when every entry is. -/
def AllFin {ι : Type*} (v : ι → EReal) : Prop := ∀ i, IsFin (v i)

/-- A real number, read as an extended real, is finite. -/
theorem isFin_coe (r : ℝ) : IsFin (r : EReal) := ⟨r, rfl⟩

/-- Zero is finite. -/
theorem isFin_zero : IsFin 0 := ⟨0, rfl⟩

/-- One is finite. -/
theorem isFin_one : IsFin 1 := ⟨1, rfl⟩

/-- A finite value is neither infinity. -/
theorem IsFin.ne_top {x : EReal} (h : IsFin x) : x ≠ ⊤ := by
  obtain ⟨r, rfl⟩ := h; exact EReal.coe_ne_top r

/-- A finite value is neither infinity. -/
theorem IsFin.ne_bot {x : EReal} (h : IsFin x) : x ≠ ⊥ := by
  obtain ⟨r, rfl⟩ := h; exact EReal.coe_ne_bot r

/-- A value that is neither infinity is finite. -/
theorem isFin_of_ne {x : EReal} (ht : x ≠ ⊤) (hb : x ≠ ⊥) : IsFin x := by
  induction x using EReal.rec with
  | bot => exact absurd rfl hb
  | top => exact absurd rfl ht
  | coe r => exact ⟨r, rfl⟩

/-- Finite exactly when neither infinity. -/
theorem isFin_iff {x : EReal} : IsFin x ↔ x ≠ ⊤ ∧ x ≠ ⊥ :=
  ⟨fun h => ⟨h.ne_top, h.ne_bot⟩, fun h => isFin_of_ne h.1 h.2⟩

/-- The sum of two finite values is finite. -/
theorem IsFin.add {a b : EReal} (ha : IsFin a) (hb : IsFin b) : IsFin (a + b) := by
  obtain ⟨r, rfl⟩ := ha; obtain ⟨s, rfl⟩ := hb
  exact ⟨r + s, (EReal.coe_add r s).symm⟩

/-- The product of two finite values is finite. -/
theorem IsFin.mul {a b : EReal} (ha : IsFin a) (hb : IsFin b) : IsFin (a * b) := by
  obtain ⟨r, rfl⟩ := ha; obtain ⟨s, rfl⟩ := hb
  exact ⟨r * s, (EReal.coe_mul r s).symm⟩

/-- The negation of a finite value is finite. -/
theorem IsFin.neg {a : EReal} (ha : IsFin a) : IsFin (-a) := by
  obtain ⟨r, rfl⟩ := ha
  exact ⟨-r, (EReal.coe_neg r).symm⟩

/-- The difference of two finite values is finite. -/
theorem IsFin.sub {a b : EReal} (ha : IsFin a) (hb : IsFin b) : IsFin (a - b) := by
  obtain ⟨r, rfl⟩ := ha; obtain ⟨s, rfl⟩ := hb
  exact ⟨r - s, (EReal.coe_sub r s).symm⟩

/-- The maximum of two finite values is finite. -/
theorem IsFin.max {a b : EReal} (ha : IsFin a) (hb : IsFin b) : IsFin (max a b) := by
  rcases max_choice a b with h | h <;> rw [h] <;> assumption

/-- The minimum of two finite values is finite. -/
theorem IsFin.min {a b : EReal} (ha : IsFin a) (hb : IsFin b) : IsFin (min a b) := by
  rcases min_choice a b with h | h <;> rw [h] <;> assumption

/-- A finite sum of finite values is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite array is the coercion of an array of reals. -/
theorem AllFin.exists_real {ι : Type*} {v : ι → EReal} (h : AllFin v) :
    ∃ r : ι → ℝ, ∀ i, v i = (r i : EReal) := by
  choose r hr using h
  exact ⟨r, hr⟩

/-- Inside a finite sum, a product distributes over a sum of two finite terms. -/
theorem sum_mul_add2 {K : ℕ} (x a b : Fin K → EReal) (hx : AllFin x) (ha : AllFin a) (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-- Inside a finite sum, a product distributes over a sum of three finite terms. -/
theorem sum_mul_add3 {K : ℕ} (x a b c : Fin K → EReal) (hx : AllFin x) (ha : AllFin a) (hb : AllFin b)
    (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The same distributive law over any finite index type. -/
theorem sum_mul_add3' {ι : Type*} [Fintype ι] (x a b c : ι → EReal) (hx : AllFin x) (ha : AllFin a)
    (hb : AllFin b) (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The two-term law over any finite index type. -/
theorem sum_mul_add2' {ι : Type*} [Fintype ι] (x a b : ι → EReal) (hx : AllFin x) (ha : AllFin a)
    (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-! ### The float literals -/

/-- The word of `+0.0` denotes zero. -/
theorem ofBits_zero : Ideal.ofBits .f32 0x00000000#32 = 0 := Ideal.ofBits_zero_f32

/-- The word of `1.0` denotes one. -/
theorem ofBits_one : Ideal.ofBits .f32 0x3F800000#32 = 1 := by
  simp [Ideal.ofBits, Ideal.ieee, -EReal.coe_mul]; norm_num

/-- The word of `64.0` denotes the real number sixty-four. -/
theorem ofBits_64 : Ideal.ofBits .f32 0x42800000#32 = ((64 : ℝ) : EReal) := by
  simp [Ideal.ofBits, Ideal.ieee, -EReal.coe_mul]; norm_num

/-- The word nearest `1e-5` denotes the dyadic rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- Zero's word denotes a finite value. -/
theorem isFin_ofBits_zero : IsFin (Ideal.ofBits .f32 0x00000000#32) := ofBits_zero ▸ isFin_zero

/-- One's word denotes a finite value. -/
theorem isFin_ofBits_one : IsFin (Ideal.ofBits .f32 0x3F800000#32) := ofBits_one ▸ isFin_one

/-- Sixty-four's word denotes a finite value. -/
theorem isFin_ofBits_64 : IsFin (Ideal.ofBits .f32 0x42800000#32) := ofBits_64 ▸ isFin_coe _

/-- The small positive constant's word denotes a finite value. -/
theorem isFin_ofBits_eps : IsFin (Ideal.ofBits .f32 0x3727C5AC#32) := ofBits_eps ▸ isFin_coe _

/-- Sixty-four is not zero. -/
theorem ofBits_64_ne_zero : Ideal.ofBits .f32 0x42800000#32 ≠ 0 := by
  rw [ofBits_64]; exact_mod_cast (by norm_num : (64 : ℝ) ≠ 0)

/-- Sixty-four is positive. -/
theorem ofBits_64_pos : 0 < Ideal.ofBits .f32 0x42800000#32 := by
  rw [ofBits_64]; exact_mod_cast (by norm_num : (0 : ℝ) < 64)

/-- One is not zero. -/
theorem ofBits_one_ne_zero : Ideal.ofBits .f32 0x3F800000#32 ≠ 0 := by
  rw [ofBits_one]; exact one_ne_zero

/-- The small constant is positive. -/
theorem ofBits_eps_pos : 0 < Ideal.ofBits .f32 0x3727C5AC#32 := by
  rw [ofBits_eps]; exact_mod_cast (by positivity : (0 : ℝ) < 10995116 / 2 ^ 40)

/-! ### Quotient and reciprocal square root -/

/-- The quotient of a real by a nonzero real, as extended reals, is the real quotient. -/
theorem div_coe_coe (r s : ℝ) (hs : s ≠ 0) : Ideal.div (r : EReal) (s : EReal) = ((r / s : ℝ) : EReal) := by
  rw [Ideal.div, if_neg (by exact_mod_cast hs), ← EReal.coe_inv, ← EReal.coe_mul, div_eq_mul_inv]

/-- The quotient of a finite value by a finite nonzero value is finite. -/
theorem IsFin.div {x y : EReal} (hx : IsFin x) (hy : IsFin y) (hy0 : y ≠ 0) : IsFin (Ideal.div x y) := by
  obtain ⟨r, rfl⟩ := hx; obtain ⟨s, rfl⟩ := hy
  have hs : s ≠ 0 := by exact_mod_cast hy0
  exact ⟨r / s, div_coe_coe r s hs⟩

/-- The reciprocal square root of a positive real is the real `1 / √r`. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- The reciprocal square root of a finite positive value is finite. -/
theorem IsFin.rsqrt {x : EReal} (hx : IsFin x) (hpos : 0 < x) : IsFin (Ideal.rsqrt x) := by
  obtain ⟨r, rfl⟩ := hx
  have hr : 0 < r := by exact_mod_cast hpos
  exact ⟨_, rsqrt_coe_pos r hr⟩

/-- The reciprocal square root of a finite positive value is positive. -/
theorem rsqrt_pos {x : EReal} (hx : IsFin x) (hpos : 0 < x) : 0 < Ideal.rsqrt x := by
  obtain ⟨r, rfl⟩ := hx
  have hr : 0 < r := by exact_mod_cast hpos
  rw [rsqrt_coe_pos r hr]
  exact_mod_cast inv_pos.mpr (Real.sqrt_pos.mpr hr)

/-- A finite value times itself is not negative. -/
theorem mul_self_nonneg' {x : EReal} (hx : IsFin x) : 0 ≤ x * x := by
  obtain ⟨r, rfl⟩ := hx
  rw [← EReal.coe_mul]; exact_mod_cast mul_self_nonneg r

/-- A finite sum of values that are not negative is not negative. -/
theorem sum_nonneg' {ι : Type*} (s : Finset ι) (f : ι → EReal) (h : ∀ i ∈ s, 0 ≤ f i) : 0 ≤ ∑ i ∈ s, f i :=
  Finset.sum_nonneg h

/-- A sum of squared deviations of finite values from a finite centre is not negative. -/
theorem sum_sq_nonneg {ι : Type*} (s : Finset ι) (h : ι → EReal) (μ : EReal) (hh : ∀ j ∈ s, IsFin (h j))
    (hμ : IsFin μ) : 0 ≤ ∑ j ∈ s, (h j - μ) * (h j - μ) :=
  Finset.sum_nonneg fun j hj => mul_self_nonneg' ((hh j hj).sub hμ)

/-- The quotient of a finite value that is not negative by a finite positive value is not negative. -/
theorem div_nonneg' {x y : EReal} (hx : IsFin x) (hx0 : 0 ≤ x) (hy : IsFin y) (hy0 : 0 < y) :
    0 ≤ Ideal.div x y := by
  obtain ⟨r, rfl⟩ := hx; obtain ⟨s, rfl⟩ := hy
  have hr : 0 ≤ r := by exact_mod_cast hx0
  have hs : 0 < s := by exact_mod_cast hy0
  rw [div_coe_coe r s hs.ne']
  exact_mod_cast div_nonneg hr hs.le

/-- A value that is not negative plus a positive value is positive. -/
theorem add_pos' {a b : EReal} (ha : 0 ≤ a) (hb : 0 < b) : 0 < a + b :=
  lt_of_lt_of_le hb (le_add_of_nonneg_left ha)

/-- The mean of squared deviations over sixty-four, plus the small constant, is positive (and finite). -/
theorem var_add_eps_pos {ι : Type*} (s : Finset ι) (h : ι → EReal) (μ : EReal) (hh : ∀ j ∈ s, IsFin (h j))
    (hμ : IsFin μ) :
    0 < Ideal.div (∑ j ∈ s, (h j - μ) * (h j - μ)) (Ideal.ofBits .f32 0x42800000#32)
        + Ideal.ofBits .f32 0x3727C5AC#32 :=
  add_pos' (div_nonneg' (isFin_sum s _ fun j hj => ((hh j hj).sub hμ).mul ((hh j hj).sub hμ))
    (sum_sq_nonneg s h μ hh hμ) isFin_ofBits_64 ofBits_64_pos) ofBits_eps_pos

/-- … and it is finite. -/
theorem var_add_eps_fin {ι : Type*} (s : Finset ι) (h : ι → EReal) (μ : EReal) (hh : ∀ j ∈ s, IsFin (h j))
    (hμ : IsFin μ) :
    IsFin (Ideal.div (∑ j ∈ s, (h j - μ) * (h j - μ)) (Ideal.ofBits .f32 0x42800000#32)
        + Ideal.ofBits .f32 0x3727C5AC#32) :=
  ((isFin_sum s _ fun j hj => ((hh j hj).sub hμ).mul ((hh j hj).sub hμ)).div isFin_ofBits_64
    ofBits_64_ne_zero).add isFin_ofBits_eps

/-! ### Array operations keep finiteness -/

section Arrays
variable {s t : Shape} {φ : FTy}

/-- The entrywise sum of two finite arrays is finite. -/
theorem allFin_addf {x y : FVec Ideal s φ} (hx : AllFin x) (hy : AllFin y) : AllFin (addf x y) :=
  fun i => (hx i).add (hy i)

/-- The entrywise difference of two finite arrays is finite. -/
theorem allFin_subf {x y : FVec Ideal s φ} (hx : AllFin x) (hy : AllFin y) : AllFin (subf x y) :=
  fun i => (hx i).sub (hy i)

/-- The entrywise product of two finite arrays is finite. -/
theorem allFin_mulf {x y : FVec Ideal s φ} (hx : AllFin x) (hy : AllFin y) : AllFin (mulf x y) :=
  fun i => (hx i).mul (hy i)

/-- The entrywise maximum of two finite arrays is finite. -/
theorem allFin_maximumf {x y : FVec Ideal s φ} (hx : AllFin x) (hy : AllFin y) : AllFin (maximumf x y) :=
  fun i => (hx i).max (hy i)

/-- The entrywise minimum of two finite arrays is finite. -/
theorem allFin_minimumf {x y : FVec Ideal s φ} (hx : AllFin x) (hy : AllFin y) : AllFin (minimumf x y) :=
  fun i => (hx i).min (hy i)

/-- The entrywise negation of a finite array is finite. -/
theorem allFin_negf {x : FVec Ideal s φ} (hx : AllFin x) : AllFin (negf x) :=
  fun i => (hx i).neg

/-- The entrywise quotient of a finite array by a finite, nowhere zero array is finite. -/
theorem allFin_divf {x y : FVec Ideal s φ} (hx : AllFin x) (hy : AllFin y) (hy0 : ∀ i, y i ≠ 0) :
    AllFin (divf x y) :=
  fun i => (hx i).div (hy i) (hy0 i)

/-- The same for the quotient as the reference program writes it. -/
theorem allFin_hostDivf {x y : FVec Ideal s φ} (hx : AllFin x) (hy : AllFin y) (hy0 : ∀ i, y i ≠ 0) :
    AllFin (Host.divf x y) :=
  fun i => (hx i).div (hy i) (hy0 i)

/-- The entrywise reciprocal square root of a finite, everywhere positive array is finite. -/
theorem allFin_rsqrt {x : FVec Ideal s φ} (hx : AllFin x) (hpos : ∀ i, 0 < x i) : AllFin (rsqrt x) :=
  fun i => (hx i).rsqrt (hpos i)

/-- The same for the reciprocal square root as the reference program writes it. -/
theorem allFin_hostRsqrt {x : FVec Ideal s φ} (hx : AllFin x) (hpos : ∀ i, 0 < x i) : AllFin (Host.rsqrt x) :=
  fun i => (hx i).rsqrt (hpos i)

/-- A change of format is the identity on extended reals, so it keeps finiteness. -/
theorem allFin_truncf {x : FVec Ideal s φ} (ψ : FTy) (h : ψ.bits < φ.bits) (hx : AllFin x) :
    AllFin (truncf ψ x h) :=
  fun i => hx i

/-- A change of format is the identity on extended reals, so it keeps finiteness. -/
theorem allFin_extf {x : FVec Ideal s φ} (ψ : FTy) (h : φ.bits < ψ.bits) (hx : AllFin x) :
    AllFin (extf ψ x h) :=
  fun i => hx i

/-- The array that repeats one finite value is finite. -/
theorem allFin_broadcast {x : EReal} (hx : IsFin x) : AllFin (broadcast t x) :=
  fun _ => hx

/-- Every entry of a broadcast array is an entry of its source. -/
theorem allFin_broadcastTo {x : s.Idx → EReal} (h : s.Broadcasts t) (hx : AllFin x) :
    AllFin (broadcastTo t x h) :=
  fun _ => hx _

/-- Every entry of a broadcast array is an entry of its source. -/
theorem allFin_broadcastInDim {x : s.Idx → EReal} (dims : Fin s.rank → Fin t.rank)
    (h : s.BroadcastsInDim t dims) (hx : AllFin x) : AllFin (broadcastInDim t dims h x) :=
  fun _ => hx _

/-- Every entry of a reshaped array is an entry of its source. -/
theorem allFin_shapeCast {x : s.Idx → EReal} (h : s.ShapeCasts t) (hx : AllFin x) :
    AllFin (shapeCast t x h) :=
  fun _ => hx _

/-- Every entry of a slice is an entry of its source. -/
theorem allFin_slice {x : s.Idx → EReal} (off : Fin s.rank → Nat) (h : s.Slices off t) (hx : AllFin x) :
    AllFin (extractStridedSlice t off x h) :=
  fun _ => hx _

/-- Every entry of a transposed array is an entry of its source. -/
theorem allFin_transpose {x : s.Idx → EReal} (perm : List (Fin s.rank)) (h : s.Transposes perm t)
    (hx : AllFin x) : AllFin (transpose t perm x h) :=
  fun _ => hx _

/-- The constant array of a word that denotes a finite value is finite. -/
theorem allFin_constant {b : BitVec φ.bits} (hb : IsFin (Ideal.ofBits φ b)) :
    AllFin (constant (F := Ideal) s φ b) :=
  fun _ => hb

/-- An entrywise choice between two finite arrays is finite. -/
theorem allFin_select {c : IVec s 1} {a b : s.Idx → EReal} (ha : AllFin a) (hb : AllFin b) :
    AllFin (select c a b) := by
  intro i
  show IsFin (Scalar.select (c i) (a i) (b i))
  unfold Scalar.select
  split
  · exact ha i
  · exact hb i

/-- Every entry of a gathered array is an entry of its source, whatever the indices. -/
theorem allFin_gather {si : Shape} {w : Nat} (d : GatherDims s si t) {x : s.Idx → EReal} (idx : IVec si w)
    (hx : AllFin x) : AllFin (Host.gather d x idx) :=
  fun _ => hx _

/-- An accumulating scatter gives, at each place, the operand's entry plus a finite sum of update
    entries: finite when the operand and the updates are. -/
theorem allFin_scatterAdd {si u : Shape} {w : Nat} (d : ScatterDims s si u) {x : FVec Ideal s φ}
    (idx : IVec si w) {upd : FVec Ideal u φ} (hx : AllFin x) (hu : AllFin upd) :
    AllFin (Host.scatterAdd d x idx upd) :=
  fun i => (hx i).add (isFin_sum _ _ fun j _ => hu j)

/-- A matrix product into a finite accumulator, of finite operands, is finite: each entry is the
    accumulator's plus a finite sum of products. -/
theorem allFin_matmul {sl sr so : Shape} {φ₁ φ₂ : FTy} (d : DotDims sl sr so) (prec : Option ContractPrecision)
    {lhs : FVec Ideal sl φ₁} {rhs : FVec Ideal sr φ₂} {acc : FVec Ideal so .f32} (hl : AllFin lhs)
    (hr : AllFin rhs) (ha : AllFin acc) : AllFin (matmul d prec lhs rhs acc) :=
  fun j => (ha j).add (isFin_sum _ _ fun k _ => (hl _).mul (hr _))

/-- The reference's matrix product of finite operands is finite: each entry is a finite sum of products. -/
theorem allFin_dotGeneral {sl sr so : Shape} {φ₁ φ₂ : FTy} (d : DotDims sl sr so)
    (prec : Option ContractPrecision) {lhs : FVec Ideal sl φ₁} {rhs : FVec Ideal sr φ₂} (hl : AllFin lhs)
    (hr : AllFin rhs) : AllFin (Host.dotGeneral d prec lhs rhs) :=
  fun j => isFin_zero.add (isFin_sum _ _ fun k _ => (hl _).mul (hr _))

/-- The reference's sum over axes, from a finite initial value, of a finite array is finite. -/
theorem allFin_reduceAdd {axes : List (Fin s.rank)} {u : Shape} {x : FVec Ideal s φ} {init : u.Idx → Ideal φ}
    (h : s.ReducesTo axes t) (hu : 0 < u.numel) (hx : AllFin x) (hi : AllFin init) :
    AllFin (Host.reduceAdd x init h hu) :=
  fun j => (hi _).add (isFin_sum _ _ fun i _ => hx i)

/-- The kernel's sum over axes of a finite array is finite. -/
theorem allFin_multiReduction_add {axes : List (Fin s.rank)} {x : FVec Ideal s φ} (acc : BitVec φ.bits)
    (h : s.Reduces axes t) (hφ : FKind.Formats φ) (hacc : acc = FKind.add.neutral φ hφ) (hx : AllFin x) :
    AllFin (multiReduction .add axes t x acc h hφ hacc) := by
  intro j
  show IsFin (Ideal.reduceAdd h x j)
  unfold Ideal.reduceAdd
  exact isFin_sum _ _ fun i _ => hx i

/-- Every entry of a concatenation is an entry of one of its parts. -/
theorem allFin_concatenate (a : Fin t.rank) (xs : List ((s : Shape) × (s.Idx → EReal)))
    (h : Shape.Concatenates (xs.map (·.1)) t a) (hxs : ∀ p ∈ xs, AllFin p.2) :
    AllFin (concatenate t a xs h) := by
  intro j
  unfold concatenate
  exact hxs _ (List.getElem_mem _) _

end Arrays

end Cert.Fin

end
-- ==== Proof.Layer1.lean ====
/-
  The first layer, the two ways: the 256-column product of the concatenated row is the sum of four 64-column products,
  and the product of a 0/1 indicator row with the already multiplied table is the selected table row multiplied, when
  the graph id is a row of the table.
-/
import proofs.«419507_j7499012898893_1_alg».proof.Proof.Spec
import proofs.«419507_j7499012898893_1_alg».proof.Proof.LibFinite

noncomputable section

namespace Cert.Spec

open Idealize.ShloMosaic Cert.Fin
open scoped BigOperators

/-! ## A sum over 256 indices by quarters -/

/-- A sum over 256 indices is the sum of its four quarters of 64 indices, taken in order. The extended reals are an
    additive commutative monoid, so nothing about finiteness is needed. -/
theorem sum_quarters (F : Fin 256 → EReal) :
    ∑ j, F j =
      (((∑ k : Fin 64, F ⟨k.val, by omega⟩) + ∑ k : Fin 64, F ⟨64 + k.val, by omega⟩)
        + ∑ k : Fin 64, F ⟨128 + k.val, by omega⟩) + ∑ k : Fin 64, F ⟨192 + k.val, by omega⟩ := by
  have h1 := Fin.sum_univ_add (a := 192) (b := 64) F
  have h2 := Fin.sum_univ_add (a := 128) (b := 64) (fun i : Fin 192 => F (Fin.castAdd 64 i))
  have h3 := Fin.sum_univ_add (a := 64) (b := 64) (fun i : Fin 128 => F (Fin.castAdd 64 (Fin.castAdd 64 i)))
  rw [h1, h2, h3]
  rfl

/-! ## The concatenated row, quarter by quarter -/

/-- Columns 0 … 63 of the concatenated row are the source row. -/
theorem comb_q0 (a : Args) (e : Fin nE) (k : Fin 64) : comb a e ⟨k.val, by omega⟩ = a.src e k := by
  unfold comb
  rw [dif_pos (show k.val < 64 from k.isLt)]

/-- Columns 64 … 127 of the concatenated row are the destination row. -/
theorem comb_q1 (a : Args) (e : Fin nE) (k : Fin 64) : comb a e ⟨64 + k.val, by omega⟩ = a.dest e k := by
  unfold comb
  rw [dif_neg (show ¬ (64 + k.val < 64) by omega), dif_pos (show 64 + k.val < 128 by omega)]
  exact congrArg (a.dest e) (Fin.ext (show 64 + k.val - 64 = k.val by omega))

/-- Columns 128 … 191 of the concatenated row are the edge row. -/
theorem comb_q2 (a : Args) (e : Fin nE) (k : Fin 64) : comb a e ⟨128 + k.val, by omega⟩ = a.edge e k := by
  unfold comb
  rw [dif_neg (show ¬ (128 + k.val < 64) by omega), dif_neg (show ¬ (128 + k.val < 128) by omega),
    dif_pos (show 128 + k.val < 192 by omega)]
  exact congrArg (a.edge e) (Fin.ext (show 128 + k.val - 128 = k.val by omega))

/-- Columns 192 … 255 of the concatenated row are the selected row of the table of per-graph attributes. -/
theorem comb_q3 (a : Args) (e : Fin nE) (k : Fin 64) :
    comb a e ⟨192 + k.val, by omega⟩ = a.ga (gatherRow (a.batch e)) k := by
  unfold comb
  rw [dif_neg (show ¬ (192 + k.val < 64) by omega), dif_neg (show ¬ (192 + k.val < 128) by omega),
    dif_neg (show ¬ (192 + k.val < 192) by omega)]
  exact congrArg (a.ga (gatherRow (a.batch e))) (Fin.ext (show 192 + k.val - 192 = k.val by omega))

/-- Row `64 q + k` of the weight matrix is row `k` of its quarter `q`. -/
theorem wPart_row (W1 : Fin 256 → Fin 64 → EReal) (q : Fin 4) (k : Fin 64) (f : Fin 64) (n : ℕ) (hn : n < 256)
    (h : n = 64 * q.val + k.val) : W1 ⟨n, hn⟩ f = wPart W1 q k f := by
  subst h
  rfl

/-- The 256-column product of the concatenated row is the sum of the four 64-column products. -/
theorem dotRow_comb (a : Args) (e : Fin nE) (f : Fin 64) :
    dotRow (comb a e) a.W1 f =
      ((dotRow (a.src e) (wPart a.W1 0) f + dotRow (a.dest e) (wPart a.W1 1) f) + dotRow (a.edge e) (wPart a.W1 2) f)
        + table a.ga a.W1 (gatherRow (a.batch e)) f := by
  unfold table dotRow
  rw [sum_quarters]
  refine congrArg₂ (· + ·) ?_ ?_
  · refine congrArg₂ (· + ·) ?_ ?_
    · refine congrArg₂ (· + ·) ?_ ?_
      · exact Finset.sum_congr rfl fun k _ => by
          rw [comb_q0, wPart_row a.W1 0 k f k.val _ (by simp)]
      · exact Finset.sum_congr rfl fun k _ => by
          rw [comb_q1, wPart_row a.W1 1 k f (64 + k.val) _ (by simp)]
    · exact Finset.sum_congr rfl fun k _ => by
        rw [comb_q2, wPart_row a.W1 2 k f (128 + k.val) _ (by simp)]
  · exact Finset.sum_congr rfl fun k _ => by
      rw [comb_q3, wPart_row a.W1 3 k f (192 + k.val) _ (by simp)]

/-! ## The indicator row against a table -/

/-- A graph id whose signed value is in 0 … 1023 has that value as its unsigned value too. -/
theorem toNat_of_inRange (b : BitVec 32) (hb : 0 ≤ b.toInt ∧ b.toInt < 1024) :
    b.toNat < 1024 ∧ b.toInt = (b.toNat : ℤ) := by
  have h := BitVec.toInt_eq_toNat_cond b
  have hlt : b.toNat < 2 ^ 32 := b.isLt
  split_ifs at h with hc <;> omega

/-- A graph id in range selects the table row of its own number: nothing is counted from the end, nothing is clamped. -/
theorem gatherRow_of_inRange (b : BitVec 32) (hb : 0 ≤ b.toInt ∧ b.toInt < 1024) (hlt : b.toNat < 1024) :
    gatherRow b = ⟨b.toNat, hlt⟩ := by
  obtain ⟨_, hi⟩ := toNat_of_inRange b hb
  unfold gatherRow
  apply Fin.ext
  show min (if b.toInt < 0 then b + 1024#32 else b).toInt.toNat 1023 = b.toNat
  rw [if_neg (by omega), hi, Int.toNat_natCast]
  omega

/-- The indicator row of a graph id in range, multiplied against any table, is the table's selected row: one term of the
    sum has the factor 1, every other the factor 0, and `0 * x = 0`, `1 * x = x` hold for every extended real. -/
theorem onehot_sum (b : BitVec 32) (hb : 0 ≤ b.toInt ∧ b.toInt < 1024) (T : Fin 1024 → EReal) :
    ∑ g : Fin 1024, onehot b g * T g = T (gatherRow b) := by
  have hlt : b.toNat < 1024 := (toNat_of_inRange b hb).1
  rw [gatherRow_of_inRange b hb hlt]
  rw [Finset.sum_eq_single (⟨b.toNat, hlt⟩ : Fin 1024)]
  · unfold onehot
    have hb' : b = BitVec.ofNat 32 b.toNat := by
      apply BitVec.eq_of_toNat_eq
      rw [BitVec.toNat_ofNat]
      exact (Nat.mod_eq_of_lt b.isLt).symm
    rw [if_pos hb', one_mul]
  · intro g _ hne
    unfold onehot
    have hg : ¬ (b = BitVec.ofNat 32 g.val) := by
      intro h
      apply hne
      apply Fin.ext
      show g.val = b.toNat
      have hg32 : g.val < 2 ^ 32 := by have := g.isLt; omega
      rw [h, BitVec.toNat_ofNat, Nat.mod_eq_of_lt hg32]
    rw [if_neg hg, zero_mul]
  · intro h
    exact absurd (Finset.mem_univ _) h

/-! ## The first layer -/

/-- With every graph id in range the kernel's first layer is the reference's. -/
theorem kOut1_eq_rOut1 (a : Args) (hr : a.InRange) : kOut1 a = rOut1 a := by
  funext e f
  unfold kOut1 rOut1 stage1Row denseRow
  rw [onehot_sum (a.batch e) (hr e) (fun g => table a.ga a.W1 g f), dotRow_comb]

/-- The concatenated row of real arguments is real. -/
theorem comb_fin (a : Args) (hf : a.Finite) (e : Fin nE) (j : Fin 256) : IsFin (comb a e j) := by
  unfold comb
  split_ifs
  · exact hf.src _ _
  · exact hf.dest _ _
  · exact hf.edge _ _
  · exact hf.ga _ _

end Cert.Spec

end
-- ==== Proof.Norm.lean ====
/-
  Batch normalisation over the edge axis, the two ways: on rows of real numbers the variance as mean of squares minus
  squared mean is the mean of squared deviations (the number of rows is the divisor), and g * (v + eps)^(-1/2) is
  g / sqrt(v + eps) for a positive real v + eps. A linear layer with the rectifier keeps rows real.
-/
import proofs.«419507_j7499012898893_1_alg».proof.Proof.Spec
import proofs.«419507_j7499012898893_1_alg».proof.Proof.LibFinite

noncomputable section

namespace Cert.Spec

open Idealize.ShloMosaic Cert.Fin
open scoped BigOperators

/-- The divisor is the number of rows. -/
theorem nRows_eq : nRows = ((1000000 : ℝ) : EReal) := by
  show Ideal.ofBits .f32 0x49742400#32 = ((1000000 : ℝ) : EReal)
  simp [Ideal.ofBits, Ideal.ieee, -EReal.coe_mul]; norm_num

namespace NormAux

/-- The small constant is a positive real. -/
theorem eps_eq : eps = ((10995116 / 2 ^ 40 : ℝ) : EReal) := ofBits_eps

/-- The divisor is a real number. -/
theorem nRows_fin : IsFin nRows := nRows_eq ▸ isFin_coe _

/-- The divisor is positive. -/
theorem nRows_pos : 0 < nRows := by
  rw [nRows_eq]; exact_mod_cast (by norm_num : (0 : ℝ) < 1000000)

/-- The divisor is not zero. -/
theorem nRows_ne_zero : nRows ≠ 0 := nRows_pos.ne'

/-- On real numbers: with the number of rows as the divisor and μ the mean, the mean of squared deviations from μ
    is the mean of squares minus μ². Expand the square, sum term by term, and use that the sum is N μ. -/
theorem real_var {n : ℕ} (c : Fin n → ℝ) (N μ : ℝ) (hN : (n : ℝ) = N) (hN0 : N ≠ 0)
    (hμ : μ = (∑ e, c e) / N) :
    (∑ e, (c e - μ) * (c e - μ)) / N = (∑ e, c e * c e) / N - μ * μ := by
  have hS : (∑ e, c e) = N * μ := by rw [hμ, mul_div_cancel₀ _ hN0]
  have hexp : ∀ e, (c e - μ) * (c e - μ) = c e * c e - 2 * μ * c e + μ * μ := fun e => by ring
  have h1 : ∑ e, (c e - μ) * (c e - μ) = (∑ e, c e * c e) - 2 * μ * (∑ e, c e) + N * (μ * μ) := by
    rw [Finset.sum_congr rfl fun e _ => hexp e, Finset.sum_add_distrib, Finset.sum_sub_distrib,
      ← Finset.mul_sum Finset.univ c (2 * μ), Finset.sum_const, Finset.card_univ, Fintype.card_fin,
      nsmul_eq_mul, hN]
  have h2 : (∑ e, c e * c e) - 2 * μ * (N * μ) + N * (μ * μ) = (∑ e, c e * c e) - N * (μ * μ) := by ring
  rw [h1, hS, h2, sub_div, mul_div_cancel_left₀ _ hN0]

/-- The square root of a positive real is the real square root. -/
theorem sqrt_coe_pos (r : ℝ) (hr : 0 < r) : Ideal.sqrt (r : EReal) = ((Real.sqrt r : ℝ) : EReal) := by
  rw [Ideal.sqrt_coe, if_neg (not_lt.mpr hr.le)]

/-- For a positive real w, a product with the reciprocal square root of w is the quotient by the square root of w. -/
theorem mul_rsqrt_eq_div_sqrt (γ w : ℝ) (hw : 0 < w) :
    (γ : EReal) * Ideal.rsqrt (w : EReal) = Ideal.div (γ : EReal) (Ideal.sqrt (w : EReal)) := by
  rw [rsqrt_coe_pos w hw, sqrt_coe_pos w hw, div_coe_coe _ _ (Real.sqrt_pos.mpr hw).ne', ← EReal.coe_mul,
    div_eq_mul_inv]

/-- One column of real rows, normalised the two ways: the same value. The means are the same term; the two
    variances are the same real by the identity above; that real plus the small constant is positive, so the
    product with the reciprocal square root is the quotient by the square root. -/
theorem norm_core {n : ℕ} (c : Fin n → ℝ) (x γ β N ε : ℝ) (hN : (n : ℝ) = N) (hNpos : 0 < N) (hε : 0 < ε) :
    ((x : EReal) - Ideal.div (∑ e, (c e : EReal)) (N : EReal))
        * ((γ : EReal) * Ideal.rsqrt
            ((Ideal.div (∑ e, (c e : EReal) * (c e : EReal)) (N : EReal)
              - Ideal.div (∑ e, (c e : EReal)) (N : EReal) * Ideal.div (∑ e, (c e : EReal)) (N : EReal))
              + (ε : EReal)))
        + (β : EReal)
      = ((x : EReal) - Ideal.div (∑ e, (c e : EReal)) (N : EReal))
        * Ideal.div (γ : EReal) (Ideal.sqrt
            (Ideal.div (∑ e, ((c e : EReal) - Ideal.div (∑ e, (c e : EReal)) (N : EReal))
                * ((c e : EReal) - Ideal.div (∑ e, (c e : EReal)) (N : EReal))) (N : EReal)
              + (ε : EReal)))
        + (β : EReal) := by
  have hN0 : N ≠ 0 := hNpos.ne'
  obtain ⟨μ, hμ⟩ : ∃ μ : ℝ, μ = (∑ e, c e) / N := ⟨_, rfl⟩
  obtain ⟨q, hq⟩ : ∃ q : ℝ, q = (∑ e, c e * c e) / N := ⟨_, rfl⟩
  have hmean : Ideal.div (∑ e, (c e : EReal)) (N : EReal) = (μ : EReal) := by
    rw [← coe_sum, div_coe_coe _ _ hN0, hμ]
  have hsq : Ideal.div (∑ e, (c e : EReal) * (c e : EReal)) (N : EReal) = (q : EReal) := by
    simp only [← EReal.coe_mul]
    rw [← coe_sum, div_coe_coe _ _ hN0, hq]
  have hid : (∑ e, (c e - μ) * (c e - μ)) / N = q - μ * μ := by
    rw [hq]; exact real_var c N μ hN hN0 hμ
  have hdev : Ideal.div (∑ e, ((c e : EReal) - (μ : EReal)) * ((c e : EReal) - (μ : EReal))) (N : EReal)
      = ((q - μ * μ : ℝ) : EReal) := by
    simp only [← EReal.coe_sub, ← EReal.coe_mul]
    rw [← coe_sum, div_coe_coe _ _ hN0, hid]
  have hv : 0 ≤ q - μ * μ := by
    rw [← hid]
    exact div_nonneg (Finset.sum_nonneg fun e _ => mul_self_nonneg _) hNpos.le
  have hw : 0 < q - μ * μ + ε := add_pos_of_nonneg_of_pos hv hε
  have hL : (q : EReal) - (μ : EReal) * (μ : EReal) + (ε : EReal) = ((q - μ * μ + ε : ℝ) : EReal) := by
    rw [← EReal.coe_mul, ← EReal.coe_sub, ← EReal.coe_add]
  have hR : ((q - μ * μ : ℝ) : EReal) + (ε : EReal) = ((q - μ * μ + ε : ℝ) : EReal) :=
    (EReal.coe_add _ _).symm
  rw [hmean, hsq, hdev, hL, hR, mul_rsqrt_eq_div_sqrt _ _ hw]

/-- The square root of a finite positive value is finite and not zero. -/
theorem sqrt_fin_ne_zero {x : EReal} (hx : IsFin x) (hpos : 0 < x) :
    IsFin (Ideal.sqrt x) ∧ Ideal.sqrt x ≠ 0 := by
  obtain ⟨r, rfl⟩ := hx
  have hr : 0 < r := by exact_mod_cast hpos
  rw [sqrt_coe_pos r hr]
  exact ⟨isFin_coe _, by exact_mod_cast (Real.sqrt_pos.mpr hr).ne'⟩

end NormAux

open NormAux

/-- On real rows the kernel's normalisation, from column sums and column sums of squares, is the reference's. -/
theorem normK_eq_bnR (h : Fin nE → Fin 64 → EReal) (g be : Fin 64 → EReal)
    (hh : ∀ e f, IsFin (h e f)) (hg : ∀ f, IsFin (g f)) (hbe : ∀ f, IsFin (be f)) (e : Fin nE) :
    normRowK (h e) (meanK (colSum h)) (varK (colSumSq h) (meanK (colSum h))) g be = bnR h g be e := by
  funext k
  choose r hr using hh
  choose γ hγ using hg
  choose β hβ using hbe
  simp only [normRowK, bnR, normRowR, varK, varR, meanK, meanR, colSum, colSumSq]
  simp only [hr, hγ, hβ]
  rw [nRows_eq, eps_eq]
  exact norm_core (n := nE) (fun e' => r e' k) (r e k) (γ k) (β k) 1000000 (10995116 / 2 ^ 40)
    (by norm_num [nE]) (by norm_num) (by positivity)

/-- The reference's normalisation of real rows is real. -/
theorem bnR_fin (h : Fin nE → Fin 64 → EReal) (g be : Fin 64 → EReal)
    (hh : ∀ e f, IsFin (h e f)) (hg : ∀ f, IsFin (g f)) (hbe : ∀ f, IsFin (be f)) (e : Fin nE) (k : Fin 64) :
    IsFin (bnR h g be e k) := by
  have hmean : IsFin (meanR h k) :=
    (isFin_sum Finset.univ (fun e' => h e' k) fun e' _ => hh e' k).div nRows_fin nRows_ne_zero
  have hdevs : IsFin (∑ e', (h e' k - meanR h k) * (h e' k - meanR h k)) :=
    isFin_sum _ _ fun e' _ => ((hh e' k).sub hmean).mul ((hh e' k).sub hmean)
  have hvar : IsFin (varR h (meanR h) k) := hdevs.div nRows_fin nRows_ne_zero
  have hvar0 : 0 ≤ varR h (meanR h) k :=
    div_nonneg' hdevs (sum_sq_nonneg _ (fun e' => h e' k) (meanR h k) (fun e' _ => hh e' k) hmean)
      nRows_fin nRows_pos
  have hs := sqrt_fin_ne_zero (hvar.add isFin_ofBits_eps) (add_pos' hvar0 ofBits_eps_pos)
  exact (((hh e k).sub hmean).mul ((hg k).div hs.1 hs.2)).add (hbe k)

/-- A linear layer and the rectifier keep a real row real. -/
theorem denseRow_fin {K : ℕ} (x : Fin K → EReal) (w : Fin K → Fin 64 → EReal) (bias : Fin 64 → EReal)
    (hx : ∀ k, IsFin (x k)) (hw : ∀ k f, IsFin (w k f)) (hb : ∀ f, IsFin (bias f)) (f : Fin 64) :
    IsFin (denseRow x w bias f) := by
  unfold denseRow relu dotRow
  exact ((isFin_sum _ _ fun k _ => (hx k).mul (hw k f)).add (hb f)).max isFin_zero

end Cert.Spec

end
-- ==== Proof.Bridge.lean ====
/-
  The two results are one function of the arguments: layer by layer, the first layers agree when every graph id is a
  table row, and each normalisation agrees because the rows it normalises are real numbers.
-/
import proofs.«419507_j7499012898893_1_alg».proof.Proof.Layer1
import proofs.«419507_j7499012898893_1_alg».proof.Proof.Norm

noncomputable section

namespace Cert.Spec

open Idealize.ShloMosaic Cert.Fin
open scoped BigOperators

/-- The kernel's later layer is the shared linear layer on the row it normalised. -/
theorem bnStageRowK_eq (x mean var g be : Fin 64 → EReal) (w : Fin 64 → Fin 64 → EReal) (bias : Fin 64 → EReal) :
    bnStageRowK x mean var g be w bias = denseRow (normRowK x mean var g be) w bias := rfl

/-- Real arguments in range: the kernel's result is the reference's. -/
theorem kFinal_eq_rFinal (a : Args) (hf : a.Finite) (hr : a.InRange) : kFinal a = rFinal a := by
  have h1 : kOut1 a = rOut1 a := kOut1_eq_rOut1 a hr
  have f1 : ∀ e f, IsFin (rOut1 a e f) := fun e f =>
    denseRow_fin _ _ _ (comb_fin a hf e) hf.W1 hf.b1 f
  have h2 : kOut2 a = rOut2 a := by
    funext e
    unfold kOut2 rOut2 kVar1 kMean1
    rw [h1, bnStageRowK_eq, normK_eq_bnR (rOut1 a) a.g1 a.be1 f1 hf.g1 hf.be1 e]
  have f2 : ∀ e f, IsFin (rOut2 a e f) := fun e f =>
    denseRow_fin _ _ _ (bnR_fin (rOut1 a) a.g1 a.be1 f1 hf.g1 hf.be1 e) hf.W2 hf.b2 f
  have h3 : kOut3 a = rOut3 a := by
    funext e
    unfold kOut3 rOut3 kVar2 kMean2
    rw [h2, bnStageRowK_eq, normK_eq_bnR (rOut2 a) a.g2 a.be2 f2 hf.g2 hf.be2 e]
  have f3 : ∀ e f, IsFin (rOut3 a e f) := fun e f =>
    denseRow_fin _ _ _ (bnR_fin (rOut2 a) a.g2 a.be2 f2 hf.g2 hf.be2 e) hf.W3 hf.b3 f
  funext e
  unfold kFinal rFinal kVar3 kMean3
  rw [h3, normK_eq_bnR (rOut3 a) a.g3 a.be3 f3 hf.g3 hf.be3 e]

end Cert.Spec

end
-- ==== Proof.lean ====
/-
  The certificate of the edge update of a graph network: three times a linear layer, a rectifier and a batch normalisation
  over 1,000,000 edge rows, the first layer on the concatenation of a source row, a destination row, an edge row and the row
  of a 1024-row table that the edge's graph id selects.

  The kernel runs four grid regions: the first computes the first layer block by block (the table row selected by a product
  with a 0/1 indicator row) and accumulates column sums and column sums of squares; between regions the host turns them into
  a mean and a variance (mean of squares minus squared mean); the second and third normalise the previous layer's rows with
  g * (var + eps)^(-1/2), apply the next layer and accumulate again; the last only normalises. The reference does the same
  on whole arrays, with the variance as the mean of squared deviations and g / sqrt(var + eps).

  Under the precondition (every float entry a real number, every graph id a row of the table) the two results are one
  function of the arguments: sums regroup freely on the extended reals, the indicator product selects exactly the gathered
  row when the id is in range, and on real rows the two variances and the two normalising factors agree. The frames are
  the generated ones; the idealization rewrote nothing.
-/
import proofs.«419507_j7499012898893_1_alg».proof.Defs
import proofs.«419507_j7499012898893_1_alg».proof.Proof.Gen.Kernel
import proofs.«419507_j7499012898893_1_alg».proof.Proof.Gen.Kernel.Frame
import proofs.«419507_j7499012898893_1_alg».proof.Proof.Gen.KernelIdeal
import proofs.«419507_j7499012898893_1_alg».proof.Proof.Gen.KernelIdeal.Frame
import proofs.«419507_j7499012898893_1_alg».proof.Proof.Gen.ReferenceIdeal
import proofs.«419507_j7499012898893_1_alg».proof.Proof.Gen.ReferenceIdeal.Run
import proofs.«419507_j7499012898893_1_alg».proof.Proof.Gen.Pre_finite_inputs
import proofs.«419507_j7499012898893_1_alg».proof.Proof.KRun
import proofs.«419507_j7499012898893_1_alg».proof.Proof.KChain
import proofs.«419507_j7499012898893_1_alg».proof.Proof.RefRead
import proofs.«419507_j7499012898893_1_alg».proof.Proof.PreRead
import proofs.«419507_j7499012898893_1_alg».proof.Proof.Bridge
import Idealize.ShloMosaic.Adequacy
import Idealize.ShloMosaic.Init

noncomputable section

namespace Cert.Proof

open Idealize.ShloMosaic Idealize.SL.Sem Cert.Spec

/-- The word-level kernel runs and leaves its arguments as they were: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and leaves its arguments as they were: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The precondition on the kernel's memory: its argument record is real, its graph ids are table rows. -/
theorem args_ok_k (m : (ℓ : Loc Cert.KernelIdeal.nD Cert.KernelIdeal.τ Cert.KernelIdeal.sig) → Buf (Elt Ideal) ℓ)
    (h : Cert.Pre_KernelIdeal m) (c : Dev Cert.KernelIdeal.nD) :
    (Cert.KernelIdeal.Val.argsOf m c).Finite ∧ (Cert.KernelIdeal.Val.argsOf m c).InRange :=
  Cert.PreRead.args_ok _ _ _ _ _ _ _ _ _ _ _ _ _ _ _ _ _ (h c)

/-- Both idealized programs run from memories that agree on the arguments and end with one result. -/
theorem algebraic : Cert.algebraic_KernelIdeal_ReferenceIdeal := by
  intro m ρ m' ρ' hpre hagree
  refine ⟨fun c => fun i => kFinal (Cert.KernelIdeal.Val.argsOf m c) (i 0) (i 1), ?_, ?_⟩
  · exact (θ_run Cert.KernelIdeal.defs _ _).mono
      (fun _ h c => ⟨(h c).1.trans (Cert.KernelIdeal.Val.kernel_value m ρ c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.Value.run (F := Ideal) m' ρ')
    have hargs : Cert.ReferenceIdeal.RefValue.argsOf m' c = Cert.KernelIdeal.Val.argsOf m c := by
      unfold Cert.ReferenceIdeal.RefValue.argsOf Cert.KernelIdeal.Val.argsOf
      obtain ⟨h0, h1, h2, h3, h4, h5, h6, h7, h8, h9, h10, h11, h12, h13, h14, h15, h16⟩ := hagree c
      rw [h0, h1, h2, h3, h4, h5, h6, h7, h8, h9, h10, h11, h12, h13, h14, h15, h16]
    obtain ⟨hf, hr⟩ := args_ok_k m hpre c
    refine (Cert.ReferenceIdeal.RefValue.ref_value m' c).trans ?_
    rw [hargs]
    exact congrArg (fun (g : Fin nE → Fin 64 → EReal) => fun i : Cert.ReferenceIdeal.S1000000x64.Idx => g (i 0) (i 1))
      (kFinal_eq_rFinal _ hf hr).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
